-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x2 : Shape := ⟨2, ![200000, 2]⟩
abbrev S2x16 : Shape := ⟨2, ![2, 16]⟩
abbrev S16 : Shape := ⟨1, ![16]⟩
abbrev S16x2 : Shape := ⟨2, ![16, 2]⟩
abbrev S2 : Shape := ⟨1, ![2]⟩
abbrev S2x12800000 : Shape := ⟨2, ![2, 12800000]⟩
abbrev S_ : Shape := ⟨0, ![]⟩
abbrev S1x12800000 : Shape := ⟨2, ![1, 12800000]⟩
abbrev S12800000 : Shape := ⟨1, ![12800000]⟩

class Facts : Prop where
  bcast_S_S200000x2 : S_.BroadcastsInDim S200000x2 (![] : Fin 0 → Fin S200000x2.rank)
  reducesTo_S200000x2_S_d0_1 : S200000x2.ReducesTo [0, 1] S_
  h_S_ : 0 < S_.numel
  bcast_S_S2x16 : S_.BroadcastsInDim S2x16 (![] : Fin 0 → Fin S2x16.rank)
  reducesTo_S2x16_S_d0_1 : S2x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_
  slices_S2x12800000_S1x12800000_0_0 : S2x12800000.Slices ![0, 0] S1x12800000
  shapeCasts_S1x12800000_S12800000 : S1x12800000.ShapeCasts S12800000
  bcast_S_S12800000 : S_.BroadcastsInDim S12800000 (![] : Fin 0 → Fin S12800000.rank)
  reducesTo_S12800000_S_d0 : S12800000.ReducesTo [0] S_

variable [Facts]

def fn_part1 {F : FTy → Type} [FloatOps F] (main_arg4 : FVec F S2 .f32) (main_arg5 : IVec S2x12800000 32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_v24 : IVec S1x12800000 32 := (extractStridedSlice S1x12800000 ![0, 0] · slices_S2x12800000_S1x12800000_0_0) main_arg5
  let main_v25 : IVec S12800000 32 := shapeCast S12800000 main_v24 shapeCasts_S1x12800000_S12800000
  let main_c_8 : IVec S_ 32 := constantI S_ 32 0#32
  let main_v26 : IVec S12800000 32 := broadcastInDim S12800000 ![] bcast_S_S12800000 main_c_8
  let main_v27 : IVec S12800000 1 := cmpi .sge main_v25 main_v26
  let main_v28 : IVec S1x12800000 32 := (extractStridedSlice S1x12800000 ![0, 0] · slices_S2x12800000_S1x12800000_0_0) main_arg5
  let main_v29 : IVec S12800000 32 := shapeCast S12800000 main_v28 shapeCasts_S1x12800000_S12800000
  let main_c_9 : IVec S_ 32 := constantI S_ 32 200000#32
  let main_v30 : IVec S12800000 32 := broadcastInDim S12800000 ![] bcast_S_S12800000 main_c_9
  let main_v31 : IVec S12800000 1 := cmpi .slt main_v29 main_v30
  let main_v32 : IVec S12800000 1 := andi main_v27 main_v31
  let main_c_10 : IVec S_ 1 := constantI S_ 1 1#1
  let main_v33 : IVec S_ 1 := (fun x v => Host.reduce IntOp.andi x v reducesTo_S12800000_S_d0 h_S_) main_v32 main_c_10
  let main_v34 : IVec S_ 1 := andi main_v23 main_v33
  main_v34

def fn {F : FTy → Type} [FloatOps F] (main_arg0 : FVec F S200000x2 .f32) (main_arg1 : FVec F S2x16 .f32) (main_arg2 : FVec F S16 .f32) (main_arg3 : FVec F S16x2 .f32) (main_arg4 : FVec F S2 .f32) (main_arg5 : IVec S2x12800000 32) : IVec S_ 1 :=
  let main_v0 : FVec F S200000x2 .f32 := Host.absf main_arg0
  let main_cst : FVec F S_ .f32 := constant S_ .f32 0x7F800000#32
  let main_v1 : FVec F S200000x2 .f32 := broadcastInDim S200000x2 ![] bcast_S_S200000x2 main_cst
  let main_v2 : IVec S200000x2 1 := cmpf .olt main_v0 main_v1
  let main_c : IVec S_ 1 := constantI S_ 1 1#1
  let main_v3 : IVec S_ 1 := (fun x v => Host.reduce IntOp.andi x v reducesTo_S200000x2_S_d0_1 h_S_) main_v2 main_c
  let main_v4 : FVec F S2x16 .f32 := Host.absf main_arg1
  let main_cst_0 : FVec F S_ .f32 := constant S_ .f32 0x7F800000#32
  let main_v5 : FVec F S2x16 .f32 := broadcastInDim S2x16 ![] bcast_S_S2x16 main_cst_0
  let main_v6 : IVec S2x16 1 := cmpf .olt main_v4 main_v5
  let main_c_1 : IVec S_ 1 := constantI S_ 1 1#1
  let main_v7 : IVec S_ 1 := (fun x v => Host.reduce IntOp.andi x v reducesTo_S2x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg3
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg4 main_arg5 main_v13 main_v16
-- ==== Kernel.lean ====
abbrev S200000x2 : Shape := ⟨2, ![200000, 2]⟩
abbrev S2x16 : Shape := ⟨2, ![2, 16]⟩
abbrev S16 : Shape := ⟨1, ![16]⟩
abbrev S16x2 : Shape := ⟨2, ![16, 2]⟩
abbrev S2 : Shape := ⟨1, ![2]⟩
abbrev S2x12800000 : Shape := ⟨2, ![2, 12800000]⟩
abbrev S1x12800000 : Shape := ⟨2, ![1, 12800000]⟩
abbrev S12800000 : Shape := ⟨1, ![12800000]⟩
abbrev S_ : Shape := ⟨0, ![]⟩
abbrev S200000 : Shape := ⟨1, ![200000]⟩
abbrev S12800000x1 : Shape := ⟨2, ![12800000, 1]⟩
abbrev S200000x1 : Shape := ⟨2, ![200000, 1]⟩
abbrev S200000x16 : Shape := ⟨2, ![200000, 16]⟩
abbrev S8000x2 : Shape := ⟨2, ![8000, 2]⟩
abbrev S8000x1 : Shape := ⟨2, ![8000, 1]⟩
abbrev S8000x16 : Shape := ⟨2, ![8000, 16]⟩
abbrev S1 : Shape := ⟨1, ![1]⟩
abbrev S1x1 : Shape := ⟨2, ![1, 1]⟩
abbrev S12800000x16 : Shape := ⟨2, ![12800000, 16]⟩
abbrev S1x16 : Shape := ⟨2, ![1, 16]⟩
abbrev S12800000x2 : Shape := ⟨2, ![12800000, 2]⟩
abbrev S1x2 : Shape := ⟨2, ![1, 2]⟩

abbrev nBuf : Space → Nat
  | .hbm => 83
  | .vmem => 36
  | .smem => 0
  | _ => 0

abbrev bufTy : (tb : Table) → Fin (tcTables nBuf tb) → BufTy
  | .hbm, ⟨0, _⟩ => ⟨S200000x2, .f32⟩
  | .hbm, ⟨1, _⟩ => ⟨S2x16, .f32⟩
  | .hbm, ⟨2, _⟩ => ⟨S16, .f32⟩
  | .hbm, ⟨3, _⟩ => ⟨S16x2, .f32⟩
  | .hbm, ⟨4, _⟩ => ⟨S2, .f32⟩
  | .hbm, ⟨5, _⟩ => ⟨S2x12800000, .i32⟩
  | .hbm, ⟨6, _⟩ => ⟨S1x12800000, .i32⟩
  | .hbm, ⟨7, _⟩ => ⟨S12800000, .i32⟩
  | .hbm, ⟨8, _⟩ => ⟨S1x12800000, .i32⟩
  | .hbm, ⟨9, _⟩ => ⟨S12800000, .i32⟩
  | .hbm, ⟨10, _⟩ => ⟨S_, .f32⟩
  | .hbm, ⟨11, _⟩ => ⟨S12800000, .f32⟩
  | .hbm, ⟨12, _⟩ => ⟨S_, .f32⟩
  | .hbm, ⟨13, _⟩ => ⟨S200000, .f32⟩
  | .hbm, ⟨14, _⟩ => ⟨S12800000x1, .i32⟩
  | .hbm, ⟨15, _⟩ => ⟨S200000, .f32⟩
  | .hbm, ⟨16, _⟩ => ⟨S_, .f32⟩
  | .hbm, ⟨17, _⟩ => ⟨S200000, .f32⟩
  | .hbm, ⟨18, _⟩ => ⟨S200000, .f32⟩
  | .hbm, ⟨19, _⟩ => ⟨S200000, .f32⟩
  | .hbm, ⟨20, _⟩ => ⟨S200000x1, .f32⟩
  | .hbm, ⟨21, _⟩ => ⟨S200000x16, .f32⟩
  | .hbm, ⟨22, _⟩ => ⟨S200000x16, .f32⟩
  | .hbm, ⟨23, _⟩ => ⟨S_, .i32⟩
  | .hbm, ⟨24, _⟩ => ⟨S12800000, .i32⟩
  | .hbm, ⟨25, _⟩ => ⟨S12800000, .i1⟩
  | .hbm, ⟨26, _⟩ => ⟨S_, .i32⟩
  | .hbm, ⟨27, _⟩ => ⟨S12800000, .i32⟩
  | .hbm, ⟨28, _⟩ => ⟨S12800000, .i32⟩
  | .hbm, ⟨29, _⟩ => ⟨S12800000, .i32⟩
  | .hbm, ⟨30, _⟩ => ⟨S12800000x1, .i32⟩
  | .hbm, ⟨31, _⟩ => ⟨S1, .i32⟩
  | .hbm, ⟨32, _⟩ => ⟨S_, .i32⟩
  | .hbm, ⟨33, _⟩ => ⟨S12800000x1, .i32⟩
  | .hbm, ⟨34, _⟩ => ⟨S12800000x1, .i1⟩
  | .hbm, ⟨35, _⟩ => ⟨S1x1, .i32⟩
  | .hbm, ⟨36, _⟩ => ⟨S12800000x1, .i32⟩
  | .hbm, ⟨37, _⟩ => ⟨S12800000x1, .i1⟩
  | .hbm, ⟨38, _⟩ => ⟨S12800000x1, .i1⟩
  | .hbm, ⟨39, _⟩ => ⟨S_, .i1⟩
  | .hbm, ⟨40, _⟩ => ⟨S12800000, .i1⟩
  | .hbm, ⟨41, _⟩ => ⟨S12800000x16, .f32⟩
  | .hbm, ⟨42, _⟩ => ⟨S12800000x16, .i1⟩
  | .hbm, ⟨43, _⟩ => ⟨S_, .f32⟩
  | .hbm, ⟨44, _⟩ => ⟨S12800000x16, .f32⟩
  | .hbm, ⟨45, _⟩ => ⟨S12800000x16, .f32⟩
  | .hbm, ⟨46, _⟩ => ⟨S_, .f32⟩
  | .hbm, ⟨47, _⟩ => ⟨S200000x16, .f32⟩
  | .hbm, ⟨48, _⟩ => ⟨S12800000x1, .i32⟩
  | .hbm, ⟨49, _⟩ => ⟨S200000x16, .f32⟩
  | .hbm, ⟨50, _⟩ => ⟨S1x16, .f32⟩
  | .hbm, ⟨51, _⟩ => ⟨S200000x16, .f32⟩
  | .hbm, ⟨52, _⟩ => ⟨S200000x2, .f32⟩
  | .hbm, ⟨53, _⟩ => ⟨S200000x2, .f32⟩
  | .hbm, ⟨54, _⟩ => ⟨S_, .i32⟩
  | .hbm, ⟨55, _⟩ => ⟨S12800000, .i32⟩
  | .hbm, ⟨56, _⟩ => ⟨S12800000, .i1⟩
  | .hbm, ⟨57, _⟩ => ⟨S_, .i32⟩
  | .hbm, ⟨58, _⟩ => ⟨S12800000, .i32⟩
  | .hbm, ⟨59, _⟩ => ⟨S12800000, .i32⟩
  | .hbm, ⟨60, _⟩ => ⟨S12800000, .i32⟩
  | .hbm, ⟨61, _⟩ => ⟨S12800000x1, .i32⟩
  | .hbm, ⟨62, _⟩ => ⟨S1, .i32⟩
  | .hbm, ⟨63, _⟩ => ⟨S_, .i32⟩
  | .hbm, ⟨64, _⟩ => ⟨S12800000x1, .i32⟩
  | .hbm, ⟨65, _⟩ => ⟨S12800000x1, .i1⟩
  | .hbm, ⟨66, _⟩ => ⟨S1x1, .i32⟩
  | .hbm, ⟨67, _⟩ => ⟨S12800000x1, .i32⟩
  | .hbm, ⟨68, _⟩ => ⟨S12800000x1, .i1⟩
  | .hbm, ⟨69, _⟩ => ⟨S12800000x1, .i1⟩
  | .hbm, ⟨70, _⟩ => ⟨S_, .i1⟩
  | .hbm, ⟨71, _⟩ => ⟨S12800000, .i1⟩
  | .hbm, ⟨72, _⟩ => ⟨S12800000x2, .f32⟩
  | .hbm, ⟨73, _⟩ => ⟨S12800000x2, .i1⟩
  | .hbm, ⟨74, _⟩ => ⟨S_, .f32⟩
  | .hbm, ⟨75, _⟩ => ⟨S12800000x2, .f32⟩
  | .hbm, ⟨76, _⟩ => ⟨S12800000x2, .f32⟩
  | .hbm, ⟨77, _⟩ => ⟨S_, .f32⟩
  | .hbm, ⟨78, _⟩ => ⟨S200000x2, .f32⟩
  | .hbm, ⟨79, _⟩ => ⟨S12800000x1, .i32⟩
  | .hbm, ⟨80, _⟩ => ⟨S200000x2, .f32⟩
  | .hbm, ⟨81, _⟩ => ⟨S1x2, .f32⟩
  | .hbm, ⟨82, _⟩ => ⟨S200000x2, .f32⟩
  | .local _ .vmem, ⟨0, _⟩ => ⟨S8000x2, .f32⟩
  | .local _ .vmem, ⟨1, _⟩ => ⟨S8000x2, .f32⟩
  | .local _ .vmem, ⟨2, _⟩ => ⟨S2x16, .f32⟩
  | .local _ .vmem, ⟨3, _⟩ => ⟨S8000x1, .f32⟩
  | .local _ .vmem, ⟨4, _⟩ => ⟨S8000x1, .f32⟩
  | .local _ .vmem, ⟨5, _⟩ => ⟨S8000x16, .f32⟩
  | .local _ .vmem, ⟨6, _⟩ => ⟨S8000x16, .f32⟩
  | .local _ .vmem, ⟨7, _⟩ => ⟨S8000x16, .f32⟩
  | .local _ .vmem, ⟨8, _⟩ => ⟨S8000x16, .f32⟩
  | .local _ .vmem, ⟨9, _⟩ => ⟨S8000x16, .f32⟩
  | .local _ .vmem, ⟨10, _⟩ => ⟨S8000x16, .f32⟩
  | .local _ .vmem, ⟨11, _⟩ => ⟨S8000x16, .f32⟩
  | .local _ .vmem, ⟨12, _⟩ => ⟨S8000x16, .f32⟩
  | .local _ .vmem, ⟨13, _⟩ => ⟨S8000x1, .f32⟩
  | .local _ .vmem, ⟨14, _⟩ => ⟨S8000x1, .f32⟩
  | .local _ .vmem, ⟨15, _⟩ => ⟨S1x16, .f32⟩
  | .local _ .vmem, ⟨16, _⟩ => ⟨S8000x16, .f32⟩
  | .local _ .vmem, ⟨17, _⟩ => ⟨S8000x16, .f32⟩
  | .local _ .vmem, ⟨18, _⟩ => ⟨S8000x16, .f32⟩
  | .local _ .vmem, ⟨19, _⟩ => ⟨S8000x16, .f32⟩
  | .local _ .vmem, ⟨20, _⟩ => ⟨S16x2, .f32⟩
  | .local _ .vmem, ⟨21, _⟩ => ⟨S8000x1, .f32⟩
  | .local _ .vmem, ⟨22, _⟩ => ⟨S8000x1, .f32⟩
  | .local _ .vmem, ⟨23, _⟩ => ⟨S8000x2, .f32⟩
  | .local _ .vmem, ⟨24, _⟩ => ⟨S8000x2, .f32⟩
  | .local _ .vmem, ⟨25, _⟩ => ⟨S8000x2, .f32⟩
  | .local _ .vmem, ⟨26, _⟩ => ⟨S8000x2, .f32⟩
  | .local _ .vmem, ⟨27, _⟩ => ⟨S8000x2, .f32⟩
  | .local _ .vmem, ⟨28, _⟩ => ⟨S8000x2, .f32⟩
  | .local _ .vmem, ⟨29, _⟩ => ⟨S8000x2, .f32⟩
  | .local _ .vmem, ⟨30, _⟩ => ⟨S8000x2, .f32⟩
  | .local _ .vmem, ⟨31, _⟩ => ⟨S8000x1, .f32⟩
  | .local _ .vmem, ⟨32, _⟩ => ⟨S8000x1, .f32⟩
  | .local _ .vmem, ⟨33, _⟩ => ⟨S1x2, .f32⟩
  | .local _ .vmem, ⟨34, _⟩ => ⟨S8000x2, .f32⟩
  | .local _ .vmem, ⟨35, _⟩ => ⟨S8000x2, .f32⟩
  | _, _ => ⟨S200000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v13 : Ref sig .tc := ⟨.hbm, 45, rfl⟩
abbrev main_cst_2 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19_0 : Ref sig .tc := ⟨.hbm, 52, rfl⟩
abbrev main_v19_1 : Ref sig .tc := ⟨.hbm, 53, rfl⟩
abbrev main_call1_c : Ref sig .tc := ⟨.hbm, 54, rfl⟩
abbrev main_call1_v0 : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_c_1 : Ref sig .tc := ⟨.hbm, 62, rfl⟩
abbrev main_call1_c_2 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_3 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_call1_cst : Ref sig .tc := ⟨.hbm, 74, rfl⟩
abbrev main_call1_v15 : Ref sig .tc := ⟨.hbm, 75, rfl⟩
abbrev main_v20 : Ref sig .tc := ⟨.hbm, 76, rfl⟩
abbrev main_cst_3 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg4_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem4_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem4_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8000x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S8000x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S8000x2 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x2 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S8000x2 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x12800000_S1x12800000_0_0 : S2x12800000.Slices ![0, 0] S1x12800000
  shapeCasts_S1x12800000_S12800000 : S1x12800000.ShapeCasts S12800000
  slices_S2x12800000_S1x12800000_1_0 : S2x12800000.Slices ![1, 0] S1x12800000
  bcast_S_S12800000 : S_.BroadcastsInDim S12800000 (![] : Fin 0 → Fin S12800000.rank)
  bcast_S_S200000 : S_.BroadcastsInDim S200000 (![] : Fin 0 → Fin S200000.rank)
  bcast_S12800000_S12800000x1_0 : S12800000.BroadcastsInDim S12800000x1 (![0] : Fin 1 → Fin S12800000x1.rank)
  bcast_S200000_S200000x1_0 : S200000.BroadcastsInDim S200000x1 (![0] : Fin 1 → Fin S200000x1.rank)
  inb_S8000x2_S8000x2_0_0 : ∀ a, (![0, 0] : Fin 2 → Nat) a + S8000x2.size a ≤ S8000x2.size a
  h_S8000x2 : 0 < S8000x2.numel
  bitsLt_bf16_f32 : FTy.bits .bf16 < FTy.bits .f32
  inb_S2x16_S2x16_0_0 : ∀ a, (![0, 0] : Fin 2 → Nat) a + S2x16.size a ≤ S2x16.size a
  h_S2x16 : 0 < S2x16.numel
  inb_S8000x16_S8000x16_0_0 : ∀ a, (![0, 0] : Fin 2 → Nat) a + S8000x16.size a ≤ S8000x16.size a
  h_S8000x16 : 0 < S8000x16.numel
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x16 : S8000x1.Broadcasts S8000x16
  bcast_S_S12800000x1 : S_.BroadcastsInDim S12800000x1 (![] : Fin 0 → Fin S12800000x1.rank)
  bcast_S1_S1x1_1 : S1.BroadcastsInDim S1x1 (![1] : Fin 1 → Fin S1x1.rank)
  bcast_S1x1_S12800000x1_0_1 : S1x1.BroadcastsInDim S12800000x1 (![0, 1] : Fin 2 → Fin S12800000x1.rank)
  reducesTo_S12800000x1_S12800000_d1 : S12800000x1.ReducesTo [1] S12800000
  h_S_ : 0 < S_.numel
  bcast_S12800000_S12800000x16_0 : S12800000.BroadcastsInDim S12800000x16 (![0] : Fin 1 → Fin S12800000x16.rank)
  bcast_S_S12800000x16 : S_.BroadcastsInDim S12800000x16 (![] : Fin 0 → Fin S12800000x16.rank)
  bcast_S_S200000x16 : S_.BroadcastsInDim S200000x16 (![] : Fin 0 → Fin S200000x16.rank)
  shapeCasts_S16_S1x16 : S16.ShapeCasts S1x16
  shapeCasts_S8000x16_S8000x16 : S8000x16.ShapeCasts S8000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8000x16 : S1x16.Broadcasts S8000x16
  inb_S16x2_S16x2_0_0 : ∀ a, (![0, 0] : Fin 2 → Nat) a + S16x2.size a ≤ S16x2.size a
  h_S16x2 : 0 < S16x2.numel
  broadcasts_S8000x1_S8000x2 : S8000x1.Broadcasts S8000x2
  bcast_S12800000_S12800000x2_0 : S12800000.BroadcastsInDim S12800000x2 (![0] : Fin 1 → Fin S12800000x2.rank)
  bcast_S_S12800000x2 : S_.BroadcastsInDim S12800000x2 (![] : Fin 0 → Fin S12800000x2.rank)
  bcast_S_S200000x2 : S_.BroadcastsInDim S200000x2 (![] : Fin 0 → Fin S200000x2.rank)
  shapeCasts_S2_S1x2 : S2.ShapeCasts S1x2
  shapeCasts_S8000x2_S8000x2 : S8000x2.ShapeCasts S8000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S8000x2 : S1x2.Broadcasts S8000x2
  scatter_S200000_S12800000x1_S12800000_n_0_0_1_wf : ScatterDims.WF S200000 S12800000x1 S12800000 [] [0] [0] 1
  dot_S8000x2_S2x16_S8000x16_1_0_0_1_n_n_wf : DotDims.WF S8000x2 S2x16 S8000x16 [1] [0] [0] [1] [] []
  gather_S200000x16_S12800000x1_S12800000x16_1_0_n_n_0_1_116_wf : GatherDims.WF S200000x16 S12800000x1 S12800000x16 [1] [0] [] [0] [] 1 ![1, 16]
  scatter_S200000x16_S12800000x1_S12800000x16_1_0_0_1_wf : ScatterDims.WF S200000x16 S12800000x1 S12800000x16 [1] [0] [0] 1
  dot_S8000x16_S16x2_S8000x2_1_0_0_1_n_n_wf : DotDims.WF S8000x16 S16x2 S8000x2 [1] [0] [0] [1] [] []
  gather_S200000x2_S12800000x1_S12800000x2_1_0_n_n_0_1_12_wf : GatherDims.WF S200000x2 S12800000x1 S12800000x2 [1] [0] [] [0] [] 1 ![1, 2]
  scatter_S200000x2_S12800000x1_S12800000x2_1_0_0_1_wf : ScatterDims.WF S200000x2 S12800000x1 S12800000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x2.size a ≤ S200000x2.size a
  hwx0_0 : ∀ i : grid0.Coords, EltTy.bits .f32 = 32 ∨ (Rect.block (s := S200000x2) S8000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x16.size a ≤ S2x16.size a
  hwx0_1 : ∀ i : grid0.Coords, EltTy.bits .f32 = 32 ∨ (Rect.block (s := S2x16) S2x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x1.size a ≤ S200000x1.size a
  hwx0_2 : ∀ i : grid0.Coords, EltTy.bits .f32 = 32 ∨ (Rect.block (s := S200000x1) S8000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x16.size a ≤ S200000x16.size a
  hwx0_3 : ∀ i : grid0.Coords, EltTy.bits .f32 = 32 ∨ (Rect.block (s := S200000x16) S8000x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x16.size a ≤ S200000x16.size a
  hwx0_4 : ∀ i : grid0.Coords, EltTy.bits .f32 = 32 ∨ (Rect.block (s := S200000x16) S8000x16.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x16.size a ≤ S200000x16.size a
  hwx1_0 : ∀ i : grid1.Coords, EltTy.bits .f32 = 32 ∨ (Rect.block (s := S200000x16) S8000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x16.size a ≤ S200000x16.size a
  hwx1_1 : ∀ i : grid1.Coords, EltTy.bits .f32 = 32 ∨ (Rect.block (s := S200000x16) S8000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x1.size a ≤ S200000x1.size a
  hwx1_2 : ∀ i : grid1.Coords, EltTy.bits .f32 = 32 ∨ (Rect.block (s := S200000x1) S8000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x16.size a ≤ S200000x16.size a
  hwx1_4 : ∀ i : grid1.Coords, EltTy.bits .f32 = 32 ∨ (Rect.block (s := S200000x16) S8000x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x16.size a ≤ S200000x16.size a
  hwx2_0 : ∀ i : grid2.Coords, EltTy.bits .f32 = 32 ∨ (Rect.block (s := S200000x16) S8000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x2.size a ≤ S16x2.size a
  hwx2_1 : ∀ i : grid2.Coords, EltTy.bits .f32 = 32 ∨ (Rect.block (s := S16x2) S16x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x1.size a ≤ S200000x1.size a
  hwx2_2 : ∀ i : grid2.Coords, EltTy.bits .f32 = 32 ∨ (Rect.block (s := S200000x1) S8000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8000x2.size a ≤ S200000x2.size a
  hwx2_3 : ∀ i : grid2.Coords, EltTy.bits .f32 = 32 ∨ (Rect.block (s := S200000x2) S8000x2.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8000x2.size a ≤ S200000x2.size a
  hwx2_4 : ∀ i : grid2.Coords, EltTy.bits .f32 = 32 ∨ (Rect.block (s := S200000x2) S8000x2.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x2.size a ≤ S200000x2.size a
  hwx3_0 : ∀ i : grid3.Coords, EltTy.bits .f32 = 32 ∨ (Rect.block (s := S200000x2) S8000x2.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x2.size a ≤ S200000x2.size a
  hwx3_1 : ∀ i : grid3.Coords, EltTy.bits .f32 = 32 ∨ (Rect.block (s := S200000x2) S8000x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x1.size a ≤ S200000x1.size a
  hwx3_2 : ∀ i : grid3.Coords, EltTy.bits .f32 = 32 ∨ (Rect.block (s := S200000x1) S8000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x2.size a ≤ S1x2.size a
  hwx3_3 : ∀ i : grid3.Coords, EltTy.bits .f32 = 32 ∨ (Rect.block (s := S1x2) S1x2.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S8000x2.size a ≤ S200000x2.size a
  hwx3_4 : ∀ i : grid3.Coords, EltTy.bits .f32 = 32 ∨ (Rect.block (s := S200000x2) S8000x2.size (cc3_transform_4 i) (hinb3_4 i)).WholeWords (EltTy.packing .f32)

variable [Facts₀]

def scatter_S200000_S12800000x1_S12800000_n_0_0_1 : ScatterDims S200000 S12800000x1 S12800000 where
  updateWindowDims := []
  insertedWindowDims := [0]
  scatterDimsToOperandDims := [0]
  indexVectorDim := 1
  wf := scatter_S200000_S12800000x1_S12800000_n_0_0_1_wf
def dot_S8000x2_S2x16_S8000x16_1_0_0_1_n_n : DotDims S8000x2 S2x16 S8000x16 where
  lhsContracting := [1]
  rhsContracting := [0]
  lhsNonContracting := [0]
  rhsNonContracting := [1]
  lhsBatch := []
  rhsBatch := []
  wf := dot_S8000x2_S2x16_S8000x16_1_0_0_1_n_n_wf
def gather_S200000x16_S12800000x1_S12800000x16_1_0_n_n_0_1_116 : GatherDims S200000x16 S12800000x1 S12800000x16 where
  offsetDims := [1]
  collapsedSliceDims := [0]
  operandBatchingDims := []
  startIndicesBatchingDims := []
  startIndexMap := [0]
  indexVectorDim := 1
  sliceSizes := ![1, 16]
  wf := gather_S200000x16_S12800000x1_S12800000x16_1_0_n_n_0_1_116_wf
def scatter_S200000x16_S12800000x1_S12800000x16_1_0_0_1 : ScatterDims S200000x16 S12800000x1 S12800000x16 where
  updateWindowDims := [1]
  insertedWindowDims := [0]
  scatterDimsToOperandDims := [0]
  indexVectorDim := 1
  wf := scatter_S200000x16_S12800000x1_S12800000x16_1_0_0_1_wf
def dot_S8000x16_S16x2_S8000x2_1_0_0_1_n_n : DotDims S8000x16 S16x2 S8000x2 where
  lhsContracting := [1]
  rhsContracting := [0]
  lhsNonContracting := [0]
  rhsNonContracting := [1]
  lhsBatch := []
  rhsBatch := []
  wf := dot_S8000x16_S16x2_S8000x2_1_0_0_1_n_n_wf
def gather_S200000x2_S12800000x1_S12800000x2_1_0_n_n_0_1_12 : GatherDims S200000x2 S12800000x1 S12800000x2 where
  offsetDims := [1]
  collapsedSliceDims := [0]
  operandBatchingDims := []
  startIndicesBatchingDims := []
  startIndexMap := [0]
  indexVectorDim := 1
  sliceSizes := ![1, 2]
  wf := gather_S200000x2_S12800000x1_S12800000x2_1_0_n_n_0_1_12_wf
def scatter_S200000x2_S12800000x1_S12800000x2_1_0_0_1 : ScatterDims S200000x2 S12800000x1 S12800000x2 where
  updateWindowDims := [1]
  insertedWindowDims := [0]
  scatterDimsToOperandDims := [0]
  indexVectorDim := 1
  wf := scatter_S200000x2_S12800000x1_S12800000x2_1_0_0_1_wf

abbrev win0_0 : Pipeline.Window sig grid0 :=
  Pipeline.Window.ofSpec (Memref.whole main_arg0) S8000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S8000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12_0) S8000x16.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_1) S8000x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v16) S8000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12_0) S8000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S8000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S8000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v18) S8000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S16x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S8000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v19_0) S8000x2.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v19_1) S8000x2.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v23) S8000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v19_0) S8000x2.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S8000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v24) S1x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v25) S8000x2.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S200000x2 : Shape := ⟨2, ![200000, 2]⟩
abbrev S2x16 : Shape := ⟨2, ![2, 16]⟩
abbrev S16 : Shape := ⟨1, ![16]⟩
abbrev S16x2 : Shape := ⟨2, ![16, 2]⟩
abbrev S2 : Shape := ⟨1, ![2]⟩
abbrev S2x12800000 : Shape := ⟨2, ![2, 12800000]⟩
abbrev S1x12800000 : Shape := ⟨2, ![1, 12800000]⟩
abbrev S12800000 : Shape := ⟨1, ![12800000]⟩
abbrev S200000x16 : Shape := ⟨2, ![200000, 16]⟩
abbrev S_ : Shape := ⟨0, ![]⟩
abbrev S200000 : Shape := ⟨1, ![200000]⟩
abbrev S12800000x1 : Shape := ⟨2, ![12800000, 1]⟩
abbrev S12800000x16 : Shape := ⟨2, ![12800000, 16]⟩
abbrev S200000x1 : Shape := ⟨2, ![200000, 1]⟩
abbrev S1x16 : Shape := ⟨2, ![1, 16]⟩
abbrev S12800000x2 : Shape := ⟨2, ![12800000, 2]⟩
abbrev S1x2 : Shape := ⟨2, ![1, 2]⟩

abbrev nBuf : Space → Nat
  | .hbm => 125
  | .vmem => 0
  | .smem => 0
  | _ => 0

abbrev bufTy : (tb : Table) → Fin (tcTables nBuf tb) → BufTy
  | .hbm, ⟨0, _⟩ => ⟨S200000x2, .f32⟩
  | .hbm, ⟨1, _⟩ => ⟨S2x16, .f32⟩
  | .hbm, ⟨2, _⟩ => ⟨S16, .f32⟩
  | .hbm, ⟨3, _⟩ => ⟨S16x2, .f32⟩
  | .hbm, ⟨4, _⟩ => ⟨S2, .f32⟩
  | .hbm, ⟨5, _⟩ => ⟨S2x12800000, .i32⟩
  | .hbm, ⟨6, _⟩ => ⟨S1x12800000, .i32⟩
  | .hbm, ⟨7, _⟩ => ⟨S12800000, .i32⟩
  | .hbm, ⟨8, _⟩ => ⟨S1x12800000, .i32⟩
  | .hbm, ⟨9, _⟩ => ⟨S12800000, .i32⟩
  | .hbm, ⟨10, _⟩ => ⟨S200000x16, .f32⟩
  | .hbm, ⟨11, _⟩ => ⟨S_, .f32⟩
  | .hbm, ⟨12, _⟩ => ⟨S12800000, .f32⟩
  | .hbm, ⟨13, _⟩ => ⟨S_, .f32⟩
  | .hbm, ⟨14, _⟩ => ⟨S200000, .f32⟩
  | .hbm, ⟨15, _⟩ => ⟨S12800000x1, .i32⟩
  | .hbm, ⟨16, _⟩ => ⟨S200000, .f32⟩
  | .hbm, ⟨17, _⟩ => ⟨S_, .f32⟩
  | .hbm, ⟨18, _⟩ => ⟨S200000, .f32⟩
  | .hbm, ⟨19, _⟩ => ⟨S200000, .f32⟩
  | .hbm, ⟨20, _⟩ => ⟨S200000, .f32⟩
  | .hbm, ⟨21, _⟩ => ⟨S_, .i32⟩
  | .hbm, ⟨22, _⟩ => ⟨S12800000, .i32⟩
  | .hbm, ⟨23, _⟩ => ⟨S12800000, .i1⟩
  | .hbm, ⟨24, _⟩ => ⟨S_, .i32⟩
  | .hbm, ⟨25, _⟩ => ⟨S12800000, .i32⟩
  | .hbm, ⟨26, _⟩ => ⟨S12800000, .i32⟩
  | .hbm, ⟨27, _⟩ => ⟨S12800000, .i32⟩
  | .hbm, ⟨28, _⟩ => ⟨S12800000x1, .i32⟩
  | .hbm, ⟨29, _⟩ => ⟨S12800000, .f32⟩
  | .hbm, ⟨30, _⟩ => ⟨S_, .i32⟩
  | .hbm, ⟨31, _⟩ => ⟨S12800000, .i32⟩
  | .hbm, ⟨32, _⟩ => ⟨S12800000, .i1⟩
  | .hbm, ⟨33, _⟩ => ⟨S_, .i32⟩
  | .hbm, ⟨34, _⟩ => ⟨S12800000, .i32⟩
  | .hbm, ⟨35, _⟩ => ⟨S12800000, .i32⟩
  | .hbm, ⟨36, _⟩ => ⟨S12800000, .i32⟩
  | .hbm, ⟨37, _⟩ => ⟨S12800000x1, .i32⟩
  | .hbm, ⟨38, _⟩ => ⟨S12800000, .f32⟩
  | .hbm, ⟨39, _⟩ => ⟨S12800000, .f32⟩
  | .hbm, ⟨40, _⟩ => ⟨S_, .i32⟩
  | .hbm, ⟨41, _⟩ => ⟨S12800000, .i32⟩
  | .hbm, ⟨42, _⟩ => ⟨S12800000, .i1⟩
  | .hbm, ⟨43, _⟩ => ⟨S_, .i32⟩
  | .hbm, ⟨44, _⟩ => ⟨S12800000, .i32⟩
  | .hbm, ⟨45, _⟩ => ⟨S12800000, .i32⟩
  | .hbm, ⟨46, _⟩ => ⟨S12800000, .i32⟩
  | .hbm, ⟨47, _⟩ => ⟨S12800000x1, .i32⟩
  | .hbm, ⟨48, _⟩ => ⟨S12800000x16, .f32⟩
  | .hbm, ⟨49, _⟩ => ⟨S12800000x1, .f32⟩
  | .hbm, ⟨50, _⟩ => ⟨S12800000x16, .f32⟩
  | .hbm, ⟨51, _⟩ => ⟨S12800000x16, .f32⟩
  | .hbm, ⟨52, _⟩ => ⟨S_, .f32⟩
  | .hbm, ⟨53, _⟩ => ⟨S200000x16, .f32⟩
  | .hbm, ⟨54, _⟩ => ⟨S12800000x1, .i32⟩
  | .hbm, ⟨55, _⟩ => ⟨S200000x16, .f32⟩
  | .hbm, ⟨56, _⟩ => ⟨S_, .f32⟩
  | .hbm, ⟨57, _⟩ => ⟨S200000, .f32⟩
  | .hbm, ⟨58, _⟩ => ⟨S200000, .f32⟩
  | .hbm, ⟨59, _⟩ => ⟨S200000x1, .f32⟩
  | .hbm, ⟨60, _⟩ => ⟨S200000x16, .f32⟩
  | .hbm, ⟨61, _⟩ => ⟨S200000x16, .f32⟩
  | .hbm, ⟨62, _⟩ => ⟨S200000x16, .f32⟩
  | .hbm, ⟨63, _⟩ => ⟨S1x16, .f32⟩
  | .hbm, ⟨64, _⟩ => ⟨S200000x16, .f32⟩
  | .hbm, ⟨65, _⟩ => ⟨S200000x16, .f32⟩
  | .hbm, ⟨66, _⟩ => ⟨S_, .f32⟩
  | .hbm, ⟨67, _⟩ => ⟨S200000x16, .f32⟩
  | .hbm, ⟨68, _⟩ => ⟨S200000x16, .f32⟩
  | .hbm, ⟨69, _⟩ => ⟨S200000x2, .f32⟩
  | .hbm, ⟨70, _⟩ => ⟨S_, .f32⟩
  | .hbm, ⟨71, _⟩ => ⟨S12800000, .f32⟩
  | .hbm, ⟨72, _⟩ => ⟨S_, .f32⟩
  | .hbm, ⟨73, _⟩ => ⟨S200000, .f32⟩
  | .hbm, ⟨74, _⟩ => ⟨S12800000x1, .i32⟩
  | .hbm, ⟨75, _⟩ => ⟨S200000, .f32⟩
  | .hbm, ⟨76, _⟩ => ⟨S_, .f32⟩
  | .hbm, ⟨77, _⟩ => ⟨S200000, .f32⟩
  | .hbm, ⟨78, _⟩ => ⟨S200000, .f32⟩
  | .hbm, ⟨79, _⟩ => ⟨S200000, .f32⟩
  | .hbm, ⟨80, _⟩ => ⟨S_, .i32⟩
  | .hbm, ⟨81, _⟩ => ⟨S12800000, .i32⟩
  | .hbm, ⟨82, _⟩ => ⟨S12800000, .i1⟩
  | .hbm, ⟨83, _⟩ => ⟨S_, .i32⟩
  | .hbm, ⟨84, _⟩ => ⟨S12800000, .i32⟩
  | .hbm, ⟨85, _⟩ => ⟨S12800000, .i32⟩
  | .hbm, ⟨86, _⟩ => ⟨S12800000, .i32⟩
  | .hbm, ⟨87, _⟩ => ⟨S12800000x1, .i32⟩
  | .hbm, ⟨88, _⟩ => ⟨S12800000, .f32⟩
  | .hbm, ⟨89, _⟩ => ⟨S_, .i32⟩
  | .hbm, ⟨90, _⟩ => ⟨S12800000, .i32⟩
  | .hbm, ⟨91, _⟩ => ⟨S12800000, .i1⟩
  | .hbm, ⟨92, _⟩ => ⟨S_, .i32⟩
  | .hbm, ⟨93, _⟩ => ⟨S12800000, .i32⟩
  | .hbm, ⟨94, _⟩ => ⟨S12800000, .i32⟩
  | .hbm, ⟨95, _⟩ => ⟨S12800000, .i32⟩
  | .hbm, ⟨96, _⟩ => ⟨S12800000x1, .i32⟩
  | .hbm, ⟨97, _⟩ => ⟨S12800000, .f32⟩
  | .hbm, ⟨98, _⟩ => ⟨S12800000, .f32⟩
  | .hbm, ⟨99, _⟩ => ⟨S_, .i32⟩
  | .hbm, ⟨100, _⟩ => ⟨S12800000, .i32⟩
  | .hbm, ⟨101, _⟩ => ⟨S12800000, .i1⟩
  | .hbm, ⟨102, _⟩ => ⟨S_, .i32⟩
  | .hbm, ⟨103, _⟩ => ⟨S12800000, .i32⟩
  | .hbm, ⟨104, _⟩ => ⟨S12800000, .i32⟩
  | .hbm, ⟨105, _⟩ => ⟨S12800000, .i32⟩
  | .hbm, ⟨106, _⟩ => ⟨S12800000x1, .i32⟩
  | .hbm, ⟨107, _⟩ => ⟨S12800000x2, .f32⟩
  | .hbm, ⟨108, _⟩ => ⟨S12800000x1, .f32⟩
  | .hbm, ⟨109, _⟩ => ⟨S12800000x2, .f32⟩
  | .hbm, ⟨110, _⟩ => ⟨S12800000x2, .f32⟩
  | .hbm, ⟨111, _⟩ => ⟨S_, .f32⟩
  | .hbm, ⟨112, _⟩ => ⟨S200000x2, .f32⟩
  | .hbm, ⟨113, _⟩ => ⟨S12800000x1, .i32⟩
  | .hbm, ⟨114, _⟩ => ⟨S200000x2, .f32⟩
  | .hbm, ⟨115, _⟩ => ⟨S_, .f32⟩
  | .hbm, ⟨116, _⟩ => ⟨S200000, .f32⟩
  | .hbm, ⟨117, _⟩ => ⟨S200000, .f32⟩
  | .hbm, ⟨118, _⟩ => ⟨S200000x1, .f32⟩
  | .hbm, ⟨119, _⟩ => ⟨S200000x2, .f32⟩
  | .hbm, ⟨120, _⟩ => ⟨S200000x2, .f32⟩
  | .hbm, ⟨121, _⟩ => ⟨S200000x2, .f32⟩
  | .hbm, ⟨122, _⟩ => ⟨S1x2, .f32⟩
  | .hbm, ⟨123, _⟩ => ⟨S200000x2, .f32⟩
  | .hbm, ⟨124, _⟩ => ⟨S200000x2, .f32⟩
  | _, _ => ⟨S200000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call0_cst : Ref sig .tc := ⟨.hbm, 66, rfl⟩
abbrev main_call0_v0 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_12 : Ref sig .tc := ⟨.hbm, 80, rfl⟩
abbrev main_v58 : Ref sig .tc := ⟨.hbm, 81, rfl⟩
abbrev main_v59 : Ref sig .tc := ⟨.hbm, 82, rfl⟩
abbrev main_c_13 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_14 : Ref sig .tc := ⟨.hbm, 89, rfl⟩
abbrev main_v65 : Ref sig .tc := ⟨.hbm, 90, rfl⟩
abbrev main_v66 : Ref sig .tc := ⟨.hbm, 91, rfl⟩
abbrev main_c_15 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c_16 : Ref sig .tc := ⟨.hbm, 99, rfl⟩
abbrev main_v73 : Ref sig .tc := ⟨.hbm, 100, rfl⟩
abbrev main_v74 : Ref sig .tc := ⟨.hbm, 101, rfl⟩
abbrev main_c_17 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_18 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_19 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩

abbrev nD : Nat := 1
abbrev τ : Topo := Topo.v7x

variable {F : FTy → Type} [FloatOps F]

class Facts₀ : Prop where
  slices_S2x12800000_S1x12800000_0_0 : S2x12800000.Slices ![0, 0] S1x12800000
  shapeCasts_S1x12800000_S12800000 : S1x12800000.ShapeCasts S12800000
  slices_S2x12800000_S1x12800000_1_0 : S2x12800000.Slices ![1, 0] S1x12800000
  bcast_S_S12800000 : S_.BroadcastsInDim S12800000 (![] : Fin 0 → Fin S12800000.rank)
  bcast_S_S200000 : S_.BroadcastsInDim S200000 (![] : Fin 0 → Fin S200000.rank)
  bcast_S12800000_S12800000x1_0 : S12800000.BroadcastsInDim S12800000x1 (![0] : Fin 1 → Fin S12800000x1.rank)
  bcast_S12800000x1_S12800000x16_0_1 : S12800000x1.BroadcastsInDim S12800000x16 (![0, 1] : Fin 2 → Fin S12800000x16.rank)
  bcast_S_S200000x16 : S_.BroadcastsInDim S200000x16 (![] : Fin 0 → Fin S200000x16.rank)
  bcast_S200000_S200000x1_0 : S200000.BroadcastsInDim S200000x1 (![0] : Fin 1 → Fin S200000x1.rank)
  bcast_S200000x1_S200000x16_0_1 : S200000x1.BroadcastsInDim S200000x16 (![0, 1] : Fin 2 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S12800000x1_S12800000x2_0_1 : S12800000x1.BroadcastsInDim S12800000x2 (![0, 1] : Fin 2 → Fin S12800000x2.rank)
  bcast_S_S200000x2 : S_.BroadcastsInDim S200000x2 (![] : Fin 0 → Fin S200000x2.rank)
  bcast_S200000x1_S200000x2_0_1 : S200000x1.BroadcastsInDim S200000x2 (![0, 1] : Fin 2 → Fin S200000x2.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  dot_S200000x2_S2x16_S200000x16_1_0_0_1_n_n_wf : DotDims.WF S200000x2 S2x16 S200000x16 [1] [0] [0] [1] [] []
  scatter_S200000_S12800000x1_S12800000_n_0_0_1_wf : ScatterDims.WF S200000 S12800000x1 S12800000 [] [0] [0] 1
  gather_S200000_S12800000x1_S12800000_n_0_n_n_0_1_1_wf : GatherDims.WF S200000 S12800000x1 S12800000 [] [0] [] [0] [] 1 ![1]
  gather_S200000x16_S12800000x1_S12800000x16_1_0_n_n_0_1_116_wf : GatherDims.WF S200000x16 S12800000x1 S12800000x16 [1] [0] [] [0] [] 1 ![1, 16]
  scatter_S200000x16_S12800000x1_S12800000x16_1_0_0_1_wf : ScatterDims.WF S200000x16 S12800000x1 S12800000x16 [1] [0] [0] 1
  dot_S200000x16_S16x2_S200000x2_1_0_0_1_n_n_wf : DotDims.WF S200000x16 S16x2 S200000x2 [1] [0] [0] [1] [] []
  gather_S200000x2_S12800000x1_S12800000x2_1_0_n_n_0_1_12_wf : GatherDims.WF S200000x2 S12800000x1 S12800000x2 [1] [0] [] [0] [] 1 ![1, 2]
  scatter_S200000x2_S12800000x1_S12800000x2_1_0_0_1_wf : ScatterDims.WF S200000x2 S12800000x1 S12800000x2 [1] [0] [0] 1

variable [Facts₀]

def dot_S200000x2_S2x16_S200000x16_1_0_0_1_n_n : DotDims S200000x2 S2x16 S200000x16 where
  lhsContracting := [1]
  rhsContracting := [0]
  lhsNonContracting := [0]
  rhsNonContracting := [1]
  lhsBatch := []
  rhsBatch := []
  wf := dot_S200000x2_S2x16_S200000x16_1_0_0_1_n_n_wf
def scatter_S200000_S12800000x1_S12800000_n_0_0_1 : ScatterDims S200000 S12800000x1 S12800000 where
  updateWindowDims := []
  insertedWindowDims := [0]
  scatterDimsToOperandDims := [0]
  indexVectorDim := 1
  wf := scatter_S200000_S12800000x1_S12800000_n_0_0_1_wf
def gather_S200000_S12800000x1_S12800000_n_0_n_n_0_1_1 : GatherDims S200000 S12800000x1 S12800000 where
  offsetDims := []
  collapsedSliceDims := [0]
  operandBatchingDims := []
  startIndicesBatchingDims := []
  startIndexMap := [0]
  indexVectorDim := 1
  sliceSizes := ![1]
  wf := gather_S200000_S12800000x1_S12800000_n_0_n_n_0_1_1_wf
def gather_S200000x16_S12800000x1_S12800000x16_1_0_n_n_0_1_116 : GatherDims S200000x16 S12800000x1 S12800000x16 where
  offsetDims := [1]
  collapsedSliceDims := [0]
  operandBatchingDims := []
  startIndicesBatchingDims := []
  startIndexMap := [0]
  indexVectorDim := 1
  sliceSizes := ![1, 16]
  wf := gather_S200000x16_S12800000x1_S12800000x16_1_0_n_n_0_1_116_wf
def scatter_S200000x16_S12800000x1_S12800000x16_1_0_0_1 : ScatterDims S200000x16 S12800000x1 S12800000x16 where
  updateWindowDims := [1]
  insertedWindowDims := [0]
  scatterDimsToOperandDims := [0]
  indexVectorDim := 1
  wf := scatter_S200000x16_S12800000x1_S12800000x16_1_0_0_1_wf
def dot_S200000x16_S16x2_S200000x2_1_0_0_1_n_n : DotDims S200000x16 S16x2 S200000x2 where
  lhsContracting := [1]
  rhsContracting := [0]
  lhsNonContracting := [0]
  rhsNonContracting := [1]
  lhsBatch := []
  rhsBatch := []
  wf := dot_S200000x16_S16x2_S200000x2_1_0_0_1_n_n_wf
def gather_S200000x2_S12800000x1_S12800000x2_1_0_n_n_0_1_12 : GatherDims S200000x2 S12800000x1 S12800000x2 where
  offsetDims := [1]
  collapsedSliceDims := [0]
  operandBatchingDims := []
  startIndicesBatchingDims := []
  startIndexMap := [0]
  indexVectorDim := 1
  sliceSizes := ![1, 2]
  wf := gather_S200000x2_S12800000x1_S12800000x2_1_0_n_n_0_1_12_wf
def scatter_S200000x2_S12800000x1_S12800000x2_1_0_0_1 : ScatterDims S200000x2 S12800000x1 S12800000x2 where
  updateWindowDims := [1]
  insertedWindowDims := [0]
  scatterDimsToOperandDims := [0]
  indexVectorDim := 1
  wf := scatter_S200000x2_S12800000x1_S12800000x2_1_0_0_1_wf

class Facts : Prop extends Facts₀ where

variable [Facts]
-- ==== Proof.Spec.lean ====
/-
  A two-layer graph convolution, written once as mathematics on the extended reals.

  A graph has N = 200000 nodes and E = 12800000 directed edges, given as a 2 × E table of 32-bit words: row 0 the
  source node of each edge, row 1 its destination. A word is read signed; a negative word w stands for w + N
  (the usual wrap of a negative position), and a gather then clips the position into the table. The degree of a node
  is one (its self loop) plus the number of edges whose destination word, read signed, is that node; its weight is the
  reciprocal square root of the degree.

  One layer takes node features h (N × C) and a bias b, and returns at node i and channel f

      (Σ over edges e into i of h[src e, f] · w[src e]) · w[i]  +  h[i, f] · (w[i] · w[i])  +  b[f]      (scaled first)
      (Σ over edges e into i of h[src e, f] · (w[src e] · w[dst e]))  +  h[i, f] · (1 / deg i)  +  b[f]   (per edge)

  The two arrangements are the same number when every feature is a real number: w[dst e] = w[i] on the edges into i,
  the factor w[i] moves inside the finite sum, and w[i]² = 1 / deg i because the degree is a positive real.
  The network is a dense map, a layer, a clamp at zero, a dense map, a layer.
-/
import Idealize.ShloMosaic.PureOps.Ideal
import Idealize.ShloMosaic.PureOps.Ideal.Laws
import Idealize.ShloMosaic.Lib.ValueIdx

noncomputable section

open scoped BigOperators

namespace Cert.Gcn

open Idealize.ShloMosaic Idealize.ShloMosaic.ValueIdx

/-- The number of nodes. -/
abbrev N : Nat := 200000
/-- The number of edges. -/
abbrev E : Nat := 12800000
/-- The edge table: row 0 sources, row 1 destinations. -/
abbrev SEdges : Shape := ⟨2, ![2, 12800000]⟩

/-- The source word of edge e. -/
def srcW (ei : IVec SEdges 32) (e : Fin E) : BitVec 32 := ei (ix2 (0 : Fin 2) e)
/-- The destination word of edge e. -/
def dstW (ei : IVec SEdges 32) (e : Fin E) : BitVec 32 := ei (ix2 (1 : Fin 2) e)

/-- A negative position w stands for w + N. -/
def nrm (w : BitVec 32) : BitVec 32 := Scalar.select (IntOp.cmpi .slt w 0#32) (IntOp.addi w 200000#32) w

/-- The row of an N-row table that a gather at position word w reads: the wrapped word, read signed, clipped into the table. -/
def row (w : BitVec 32) : Fin N := ⟨min (nrm w).toInt.toNat (N - 1), by unfold N; omega⟩

/-- The edges into node i: those whose destination word, read signed, is i. -/
def lands (ei : IVec SEdges 32) (i : Fin N) : Finset (Fin E) :=
  Finset.univ.filter fun e : Fin E => (dstW ei e).toInt = (i.val : ℤ)

/-- The degree of node i: its self loop and one for every edge into it. -/
def deg (ei : IVec SEdges 32) (i : Fin N) : EReal := (0 + ∑ _e ∈ lands ei i, (1 : EReal)) + 1

/-- The weight of node i: the reciprocal square root of its degree. -/
def dinv (ei : IVec SEdges 32) (i : Fin N) : EReal := Ideal.rsqrt (deg ei i)

/-- A dense map: features times a weight matrix. -/
def lin {K C : Nat} (x : Fin N → Fin K → EReal) (w : Fin K → Fin C → EReal) (i : Fin N) (f : Fin C) : EReal :=
  ∑ k : Fin K, x i k * w k f

/-- One layer, the features scaled by the source weight once per node and the sum scaled by the destination weight. -/
def layerK {C : Nat} (ei : IVec SEdges 32) (h : Fin N → Fin C → EReal) (b : Fin C → EReal) (i : Fin N) (f : Fin C) : EReal :=
  (0 + ∑ e ∈ lands ei i, h (row (srcW ei e)) f * dinv ei (row (srcW ei e))) * dinv ei i
    + h i f * (dinv ei i * dinv ei i) + b f

/-- One layer, every edge's feature scaled by the product of its two ends' weights. -/
def layerR {C : Nat} (ei : IVec SEdges 32) (h : Fin N → Fin C → EReal) (b : Fin C → EReal) (i : Fin N) (f : Fin C) : EReal :=
  (0 + ∑ e ∈ lands ei i, h (row (srcW ei e)) f * (dinv ei (row (srcW ei e)) * dinv ei (row (dstW ei e))))
    + h i f * Ideal.div 1 (deg ei i) + b f

/-- The network with the first arrangement of each layer. -/
def outK (x : Fin N → Fin 2 → EReal) (w1 : Fin 2 → Fin 16 → EReal) (b1 : Fin 16 → EReal) (w2 : Fin 16 → Fin 2 → EReal)
    (b2 : Fin 2 → EReal) (ei : IVec SEdges 32) (i : Fin N) (g : Fin 2) : EReal :=
  layerK ei (lin (fun j f => max (layerK ei (lin x w1) b1 j f) 0) w2) b2 i g

/-- The network with the second arrangement of each layer. -/
def outR (x : Fin N → Fin 2 → EReal) (w1 : Fin 2 → Fin 16 → EReal) (b1 : Fin 16 → EReal) (w2 : Fin 16 → Fin 2 → EReal)
    (b2 : Fin 2 → EReal) (ei : IVec SEdges 32) (i : Fin N) (g : Fin 2) : EReal :=
  layerR ei (lin (fun j f => max (layerR ei (lin x w1) b1 j f) 0) w2) b2 i g

/-- A rank-2 array as a function of its two coordinates. -/
def cur2 {A B : Nat} (a : (⟨2, ![A, B]⟩ : Shape).Idx → EReal) (i : Fin A) (k : Fin B) : EReal := a (ix2 i k)
/-- A rank-1 array as a function of its coordinate. -/
def cur1 {A : Nat} (a : (⟨1, ![A]⟩ : Shape).Idx → EReal) (i : Fin A) : EReal := a (ix1 i)

/-- The word 1.0 denotes the real 1. -/
theorem ofBits_one : Ideal.ofBits .f32 0x3F800000#32 = 1 := by
  simp [Ideal.ofBits, Ideal.ieee, -EReal.coe_mul]; norm_num

/-- A position word that is already a row number stands for itself. -/
theorem nrm_of_nonneg {w : BitVec 32} (h : 0 ≤ w.toInt) : nrm w = w := by
  have hs : w.slt 0#32 = false := by
    rw [BitVec.slt_eq_decide]
    simpa using h
  unfold nrm Scalar.select IntOp.cmpi
  simp [hs]

end Cert.Gcn

end
-- ==== Proof.Algebra.lean ====
/-
  The two arrangements of the network agree on real features. With every feature, weight and bias a real number, each
  node's degree is a positive real, so its weight w is a positive real with w · w = 1 / degree; on the edges into node i
  the destination weight is w[i]; and a real factor moves inside a finite sum of reals. So a layer in either arrangement
  is the same real number, the clamp at zero and the dense maps keep values real, and the two networks agree.
-/
import proofs.«426294_j21277267984741_3_alg».proof.Proof.Spec

noncomputable section

open scoped BigOperators

namespace Cert.Gcn

open Idealize.ShloMosaic Idealize.ShloMosaic.ValueIdx

/-- A finite sum of reals, read in the extended reals, is the real sum. -/
theorem coe_finset_sum {ι : Type} (s : Finset ι) (f : ι → ℝ) :
    (∑ a ∈ s, ((f a : ℝ) : EReal)) = ((∑ a ∈ s, f a : ℝ) : EReal) := by
  classical
  induction s using Finset.induction_on with
  | empty => simp
  | insert a s ha ih => rw [Finset.sum_insert ha, Finset.sum_insert ha, ih, EReal.coe_add]

/-- The degree as a real number: one more than the number of edges into the node. -/
def degR (ei : IVec SEdges 32) (i : Fin N) : ℝ := ((lands ei i).card : ℝ) + 1

theorem degR_pos (ei : IVec SEdges 32) (i : Fin N) : 0 < degR ei i := by
  unfold degR; positivity

/-- The degree is that real number. -/
theorem deg_eq (ei : IVec SEdges 32) (i : Fin N) : deg ei i = ((degR ei i : ℝ) : EReal) := by
  have h1 : (∑ _e ∈ lands ei i, (1 : EReal)) = (((lands ei i).card : ℝ) : EReal) := by
    have h := coe_finset_sum (lands ei i) (fun _ => (1 : ℝ))
    rw [EReal.coe_one] at h
    rw [h, Finset.sum_const, nsmul_eq_mul, mul_one]
  unfold deg degR
  rw [h1, zero_add, EReal.coe_add, EReal.coe_one]

/-- The weight as a real number: the reciprocal of the square root of the degree. -/
def dinvR (ei : IVec SEdges 32) (i : Fin N) : ℝ := (Real.sqrt (degR ei i))⁻¹

/-- The weight is that real number. -/
theorem dinv_eq (ei : IVec SEdges 32) (i : Fin N) : dinv ei i = ((dinvR ei i : ℝ) : EReal) := by
  have hp := degR_pos ei i
  unfold dinv dinvR
  rw [deg_eq, Ideal.rsqrt_coe, if_neg (not_lt.mpr hp.le), if_neg hp.ne']

/-- The weight squared is the reciprocal of the degree. -/
theorem dinvR_mul_self (ei : IVec SEdges 32) (i : Fin N) : dinvR ei i * dinvR ei i = 1 / degR ei i := by
  unfold dinvR
  rw [← mul_inv, Real.mul_self_sqrt (degR_pos ei i).le, one_div]

/-- One over the degree, as a real number. -/
theorem div_deg_eq (ei : IVec SEdges 32) (i : Fin N) :
    Ideal.div 1 (deg ei i) = ((1 / degR ei i : ℝ) : EReal) := by
  rw [deg_eq, Ideal.div_coe (degR_pos ei i).ne', one_mul]

/-- On an edge into node i the destination word reads row i. -/
theorem row_dst_of_mem (ei : IVec SEdges 32) (i : Fin N) (e : Fin E) (he : e ∈ lands ei i) :
    row (dstW ei e) = i := by
  have h : (dstW ei e).toInt = (i.val : ℤ) := (Finset.mem_filter.mp he).2
  have h0 : 0 ≤ (dstW ei e).toInt := by rw [h]; exact Int.natCast_nonneg _
  have hi : i.val < 200000 := i.isLt
  apply Fin.ext
  unfold row
  simp only [nrm_of_nonneg h0, h, Int.toNat_natCast]
  omega

/-- One layer on real features, as a real number. -/
def layerReal {C : Nat} (ei : IVec SEdges 32) (hr : Fin N → Fin C → ℝ) (br : Fin C → ℝ) (i : Fin N) (f : Fin C) : ℝ :=
  (∑ e ∈ lands ei i, hr (row (srcW ei e)) f * (dinvR ei (row (srcW ei e)) * dinvR ei i))
    + hr i f * (1 / degR ei i) + br f

/-- The first arrangement of a layer on real features is that real number. -/
theorem layerK_coe {C : Nat} (ei : IVec SEdges 32) (h : Fin N → Fin C → EReal) (b : Fin C → EReal)
    (hr : Fin N → Fin C → ℝ) (br : Fin C → ℝ) (hh : ∀ j f, h j f = ((hr j f : ℝ) : EReal))
    (hb : ∀ f, b f = ((br f : ℝ) : EReal)) (i : Fin N) (f : Fin C) :
    layerK ei h b i f = ((layerReal ei hr br i f : ℝ) : EReal) := by
  have hs : (∑ e ∈ lands ei i, h (row (srcW ei e)) f * dinv ei (row (srcW ei e)))
      = ((∑ e ∈ lands ei i, hr (row (srcW ei e)) f * dinvR ei (row (srcW ei e)) : ℝ) : EReal) := by
    rw [← coe_finset_sum]
    refine Finset.sum_congr rfl fun e _ => ?_
    rw [hh, dinv_eq, EReal.coe_mul]
  have hm : (∑ e ∈ lands ei i, hr (row (srcW ei e)) f * dinvR ei (row (srcW ei e))) * dinvR ei i
      = ∑ e ∈ lands ei i, hr (row (srcW ei e)) f * (dinvR ei (row (srcW ei e)) * dinvR ei i) := by
    rw [Finset.sum_mul]
    exact Finset.sum_congr rfl fun e _ => mul_assoc _ _ _
  unfold layerK layerReal
  rw [hs, hh, hb, dinv_eq, zero_add, ← EReal.coe_mul, ← EReal.coe_mul, ← EReal.coe_mul, ← EReal.coe_add,
    ← EReal.coe_add, dinvR_mul_self, hm]

/-- The second arrangement of a layer on real features is the same real number. -/
theorem layerR_coe {C : Nat} (ei : IVec SEdges 32) (h : Fin N → Fin C → EReal) (b : Fin C → EReal)
    (hr : Fin N → Fin C → ℝ) (br : Fin C → ℝ) (hh : ∀ j f, h j f = ((hr j f : ℝ) : EReal))
    (hb : ∀ f, b f = ((br f : ℝ) : EReal)) (i : Fin N) (f : Fin C) :
    layerR ei h b i f = ((layerReal ei hr br i f : ℝ) : EReal) := by
  have hs : (∑ e ∈ lands ei i, h (row (srcW ei e)) f * (dinv ei (row (srcW ei e)) * dinv ei (row (dstW ei e))))
      = ((∑ e ∈ lands ei i, hr (row (srcW ei e)) f * (dinvR ei (row (srcW ei e)) * dinvR ei i) : ℝ) : EReal) := by
    rw [← coe_finset_sum]
    refine Finset.sum_congr rfl fun e he => ?_
    rw [row_dst_of_mem ei i e he, hh, dinv_eq, dinv_eq, EReal.coe_mul, EReal.coe_mul]
  unfold layerR layerReal
  rw [hs, hh, hb, div_deg_eq, zero_add, ← EReal.coe_mul, ← EReal.coe_add, ← EReal.coe_add]

/-- A dense map on real data, as a real number. -/
def linReal {K C : Nat} (xr : Fin N → Fin K → ℝ) (wr : Fin K → Fin C → ℝ) (i : Fin N) (f : Fin C) : ℝ :=
  ∑ k : Fin K, xr i k * wr k f

/-- A dense map of real data is that real number. -/
theorem lin_coe {K C : Nat} (x : Fin N → Fin K → EReal) (w : Fin K → Fin C → EReal)
    (xr : Fin N → Fin K → ℝ) (wr : Fin K → Fin C → ℝ) (hx : ∀ i k, x i k = ((xr i k : ℝ) : EReal))
    (hw : ∀ k f, w k f = ((wr k f : ℝ) : EReal)) (i : Fin N) (f : Fin C) :
    lin x w i f = ((linReal xr wr i f : ℝ) : EReal) := by
  unfold lin linReal
  rw [← coe_finset_sum]
  refine Finset.sum_congr rfl fun k _ => ?_
  rw [hx, hw, EReal.coe_mul]

/-- The clamp at zero of a real number is a real number. -/
theorem max_coe_zero (a : ℝ) : max ((a : ℝ) : EReal) 0 = ((max a 0 : ℝ) : EReal) := by
  have h := EReal.coe_strictMono.monotone.map_max (a := a) (b := 0)
  rw [EReal.coe_zero] at h
  exact h.symm

/-- With real features, weights and biases the two networks give the same result at every node and channel. -/
theorem outK_eq_outR (x : Fin N → Fin 2 → EReal) (w1 : Fin 2 → Fin 16 → EReal) (b1 : Fin 16 → EReal)
    (w2 : Fin 16 → Fin 2 → EReal) (b2 : Fin 2 → EReal) (ei : IVec SEdges 32)
    (hx : ∀ i k, ∃ r : ℝ, x i k = (r : EReal)) (hw1 : ∀ k f, ∃ r : ℝ, w1 k f = (r : EReal))
    (hb1 : ∀ f, ∃ r : ℝ, b1 f = (r : EReal)) (hw2 : ∀ f g, ∃ r : ℝ, w2 f g = (r : EReal))
    (hb2 : ∀ g, ∃ r : ℝ, b2 g = (r : EReal)) (i : Fin N) (g : Fin 2) :
    outK x w1 b1 w2 b2 ei i g = outR x w1 b1 w2 b2 ei i g := by
  choose xr hxr using hx
  choose w1r hw1r using hw1
  choose b1r hb1r using hb1
  choose w2r hw2r using hw2
  choose b2r hb2r using hb2
  -- the hidden features after the first layer and the clamp, as reals
  let hid : Fin N → Fin 16 → ℝ := fun j f => max (layerReal ei (linReal xr w1r) b1r j f) 0
  have hK : ∀ j f, max (layerK ei (lin x w1) b1 j f) 0 = ((hid j f : ℝ) : EReal) := fun j f => by
    rw [layerK_coe ei (lin x w1) b1 (linReal xr w1r) b1r (lin_coe x w1 xr w1r hxr hw1r) hb1r j f, max_coe_zero]
  have hR : ∀ j f, max (layerR ei (lin x w1) b1 j f) 0 = ((hid j f : ℝ) : EReal) := fun j f => by
    rw [layerR_coe ei (lin x w1) b1 (linReal xr w1r) b1r (lin_coe x w1 xr w1r hxr hw1r) hb1r j f, max_coe_zero]
  unfold outK outR
  rw [layerK_coe ei _ b2 (linReal hid w2r) b2r (lin_coe _ w2 hid w2r hK hw2r) hb2r i g,
    layerR_coe ei _ b2 (linReal hid w2r) b2r (lin_coe _ w2 hid w2r hR hw2r) hb2r i g]

end Cert.Gcn

end
-- ==== Proof.Pre.lean ====
/-
  What the precondition says of the inputs: every feature, weight and bias is a real number (its absolute value is
  below +∞), and every source word of the edge table is a row number, 0 ≤ word < 200000.
-/
import proofs.«426294_j21277267984741_3_alg».proof.Pre_finite_inputs
import proofs.«426294_j21277267984741_3_alg».proof.Proof.Spec
import Idealize.ShloMosaic.Lib.ReduceAll
import Idealize.ShloMosaic.Lib.StableHlo.Predicate
import Idealize.ShloMosaic.Lib.ValueIdx
import Idealize.ShloMosaic.Lib.Pipeline.Value

noncomputable section

namespace Cert.PreRead

open Idealize.ShloMosaic Idealize.ShloMosaic.ValueIdx Cert.Pre_finite_inputs

variable [Cert.Pre_finite_inputs.Facts]

/-- The word 0x7F800000 denotes +∞. -/
theorem ofBits_inf : Ideal.ofBits .f32 0x7F800000#32 = (⊤ : EReal) := by
  simp [Ideal.ofBits, Ideal.ieee]

/-- An extended real x with max x (-x) < +∞ is a real number: at −∞ and at +∞ the maximum is +∞ itself. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- The scalar shape has one index. -/
theorem subsingleton_S_ : Subsingleton S_.Idx := ⟨fun a b => funext fun d => d.elim0⟩

/-- Two one-bit scalars whose conjunction is 1 are both 1. -/
theorem and0 (x y : IVec S_ 1) : andi x y ix0 = 1#1 ↔ x ix0 = 1#1 ∧ y ix0 = 1#1 := IntOp.andi_eq_one

/-- "All of |a| < +∞", reduced by and over every axis to a scalar that is 1: every entry of a is a real number. -/
theorem all_real {s : Shape} {axes : List (Fin s.rank)} (a : FVec Ideal s .f32)
    (hb : S_.BroadcastsInDim s (![] : Fin 0 → Fin s.rank)) (hr : s.ReducesTo axes S_) (h0 : 0 < S_.numel)
    (h : Host.reduce IntOp.andi (cmpf .olt (Host.absf a) (broadcastInDim s ![] hb (constant S_ .f32 0x7F800000#32)))
        (constantI S_ 1 1#1) hr h0 ix0 = 1#1) (j : s.Idx) : ∃ r : ℝ, a j = (r : EReal) := by
  haveI := subsingleton_S_
  exact real_of_abs_lt_inf (a j) (Host.reduce_andi_all _ _ hr h0 ix0 h j)

/-- Row 0 of the edge table, cut out and laid flat, holds at position e the source word of edge e: the flat position e
    is position 0 · 12800000 + e of the one-row block, and row 0 of the block is row 0 + 0 of the table. -/
theorem row0_apply (a5 : IVec S2x12800000 32) (hs : S2x12800000.Slices ![0, 0] S1x12800000)
    (hc : S1x12800000.ShapeCasts S12800000) (e : Fin 12800000) :
    shapeCast S12800000 (extractStridedSlice S1x12800000 ![0, 0] a5 hs) hc (ix1 e) = Cert.Gcn.srcW a5 e := by
  refine (shapeCast_apply _ hc (ix1 e) (ix2 (0 : Fin 1) e) ?_).trans ?_
  · rw [Shape.rowMajor_val_two, Shape.rowMajor_val_one]
    show 0 * 12800000 + e.val = e.val
    omega
  · exact extractStridedSlice_apply _ a5 hs _ (ix2 (0 : Fin 2) e) fun a => by
      match a with
      | ⟨0, _⟩ => rfl
      | ⟨1, _⟩ => exact (Nat.zero_add _).symm

/-- The precondition, all ones, read back as facts about the six inputs. -/
theorem of_pre (a0 : FVec Ideal S200000x2 .f32) (a1 : FVec Ideal S2x16 .f32) (a2 : FVec Ideal S16 .f32)
    (a3 : FVec Ideal S16x2 .f32) (a4 : FVec Ideal S2 .f32) (a5 : IVec S2x12800000 32)
    (h : Cert.Pre_finite_inputs.fn (F := Ideal) a0 a1 a2 a3 a4 a5 = (fun _ => 1#1)) :
    (∀ j, ∃ r : ℝ, a0 j = (r : EReal)) ∧ (∀ j, ∃ r : ℝ, a1 j = (r : EReal)) ∧ (∀ j, ∃ r : ℝ, a2 j = (r : EReal))
      ∧ (∀ j, ∃ r : ℝ, a3 j = (r : EReal)) ∧ (∀ j, ∃ r : ℝ, a4 j = (r : EReal))
      ∧ ∀ e : Fin 12800000, 0 ≤ (Cert.Gcn.srcW a5 e).toInt ∧ (Cert.Gcn.srcW a5 e).toInt < 200000 := by
  have h0 : Cert.Pre_finite_inputs.fn (F := Ideal) a0 a1 a2 a3 a4 a5 ix0 = 1#1 := congrFun h ix0
  simp only [fn, fn_part1, and0] at h0
  obtain ⟨⟨⟨⟨⟨e0, e1⟩, e2⟩, e3⟩, e4⟩, e5⟩ := h0
  refine ⟨all_real a0 _ _ _ e0, all_real a1 _ _ _ e1, all_real a2 _ _ _ e2, all_real a3 _ _ _ e3, all_real a4 _ _ _ e4, ?_⟩
  intro e
  haveI := subsingleton_S_
  obtain ⟨hge, hlt⟩ := IntOp.andi_eq_one.1 (Host.reduce_andi_all _ _ _ _ ix0 e5 (ix1 e))
  have hge' : IntOp.cmpi .sge (Cert.Gcn.srcW a5 e) 0#32 = 1#1 := by
    rw [← row0_apply a5 Facts.slices_S2x12800000_S1x12800000_0_0 Facts.shapeCasts_S1x12800000_S12800000 e]
    exact hge
  have hlt' : IntOp.cmpi .slt (Cert.Gcn.srcW a5 e) 200000#32 = 1#1 := by
    rw [← row0_apply a5 Facts.slices_S2x12800000_S1x12800000_0_0 Facts.shapeCasts_S1x12800000_S12800000 e]
    exact hlt
  rw [IntOp.cmpi_sge, show (0#32 : BitVec 32).toInt = 0 from by decide] at hge'
  rw [IntOp.cmpi_slt, show (200000#32 : BitVec 32).toInt = 200000 from by decide] at hlt'
  exact ⟨hge', hlt'⟩

end Cert.PreRead

end
-- ==== Proof.LibScatter.lean ====
/-
  A host scatter-add read at one element, at the exact (extended-real) instance, for the two layouts of a
  segment sum: one number per edge added into a vector at the edge's index word, and one row per edge added into
  a table at the row its index word names. An index word outside the operand (read signed, not clipped) drops
  its update. And a host maximum over the rows of a table, read at a column, as the supremum over the rows.
-/
import Idealize.ShloMosaic.PureOps.Ideal
import Idealize.ShloMosaic.PureOps.Ideal.Laws
import Idealize.ShloMosaic.PureOps.Contract
import Idealize.ShloMosaic.PureOps.Reduce
import Idealize.ShloMosaic.Lib.ValueIdx
import Idealize.ShloMosaic.Lib.Pipeline.Value

noncomputable section

open scoped BigOperators

namespace Cert.LibScatter

open Idealize.ShloMosaic Idealize.ShloMosaic.ValueIdx

/-- An update lands on element `i` exactly when, on every operand axis, its window start plus its window
    coordinate is that axis's coordinate of `i`. -/
private theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split_ifs with h
  · constructor
    · intro e a
      have e' := Option.some.inj e
      have e2 := congrArg (fun f : s.Idx => (f a).val) e'
      simp only at e2
      have := h a
      omega
    · intro e
      congr 1
      funext a
      apply Fin.ext
      have := e a
      have := h a
      show (d.start j idx a + d.window j a).toNat = (i a).val
      omega
  · constructor
    · intro e; exact absurd e (by simp)
    · intro e; exfalso; apply h; intro a
      have := e a
      have := (i a).isLt
      omega

/-! ## The vector layout: one number per edge -/

/-- On the vector's one axis an update's window starts at its edge's index word, read signed. -/
private theorem vec_start {C n : Nat} (d : ScatterDims ⟨1, ![C]⟩ ⟨2, ![n, 1]⟩ ⟨1, ![n]⟩)
    (h1 : d.updateWindowDims = []) (h2 : d.insertedWindowDims = [0]) (h3 : d.scatterDimsToOperandDims = [0])
    (h4 : d.indexVectorDim = 1) (idx : IVec ⟨2, ![n, 1]⟩ 32) (j : (⟨1, ![n]⟩ : Shape).Idx) (a : Fin 1) :
    d.start j idx a = (idx (ix2 (j 0) (0 : Fin 1))).toInt := by
  obtain ⟨uw, iw, sd, iv, wf⟩ := d
  dsimp only at h1 h2 h3 h4
  subst h1 h2 h3 h4
  fin_cases a
  unfold ScatterDims.start
  split_ifs with ha
  · refine congrArg (fun v => (idx v).toInt) ?_
    funext b
    apply Fin.ext
    fin_cases b <;> rfl
  · exact absurd (List.mem_singleton.2 rfl) ha

/-- The vector's one axis is an inserted one: the window coordinate there is zero. -/
private theorem vec_window {C n : Nat} (d : ScatterDims ⟨1, ![C]⟩ ⟨2, ![n, 1]⟩ ⟨1, ![n]⟩)
    (h1 : d.updateWindowDims = []) (h2 : d.insertedWindowDims = [0]) (h3 : d.scatterDimsToOperandDims = [0])
    (h4 : d.indexVectorDim = 1) (j : (⟨1, ![n]⟩ : Shape).Idx) (a : Fin 1) :
    d.window j a = 0 := by
  obtain ⟨uw, iw, sd, iv, wf⟩ := d
  dsimp only at h1 h2 h3 h4
  subst h1 h2 h3 h4
  fin_cases a
  unfold ScatterDims.window
  split_ifs with ha
  · exact absurd (show _ ∈ ([] : List (Fin 1)) from ha) List.not_mem_nil
  · rfl

/-- The vector scatter-add at element `c`: the operand's element plus the updates of the edges whose index
    word, read signed, is `c`. -/
theorem scatterAdd_vec_read {C n : Nat} {φ : FTy} (d : ScatterDims ⟨1, ![C]⟩ ⟨2, ![n, 1]⟩ ⟨1, ![n]⟩)
    (h1 : d.updateWindowDims = []) (h2 : d.insertedWindowDims = [0]) (h3 : d.scatterDimsToOperandDims = [0])
    (h4 : d.indexVectorDim = 1)
    (x : (⟨1, ![C]⟩ : Shape).Idx → EReal) (idx : IVec ⟨2, ![n, 1]⟩ 32) (upd : (⟨1, ![n]⟩ : Shape).Idx → EReal) (c : Fin C) :
    Host.scatterAdd (F := Ideal) (φ := φ) d x idx upd (ix1 c)
      = x (ix1 c) + ∑ e ∈ Finset.univ.filter (fun e : Fin n => (idx (ix2 e (0 : Fin 1))).toInt = (c.val : ℤ)),
          upd (ix1 e) := by
  have key : ∀ j : (⟨1, ![n]⟩ : Shape).Idx,
      d.resultIdx? j idx = some (ix1 c) ↔ (idx (ix2 (j 0) (0 : Fin 1))).toInt = (c.val : ℤ) := by
    intro j
    rw [resultIdx?_eq_some_iff]
    constructor
    · intro e
      have e0 : d.start j idx 0 + (d.window j 0 : ℤ) = (c.val : ℤ) := e 0
      rw [vec_start d h1 h2 h3 h4, vec_window d h1 h2 h3 h4] at e0
      simpa using e0
    · intro e a
      have ea : d.start j idx a + (d.window j a : ℤ) = (c.val : ℤ) := by
        rw [vec_start d h1 h2 h3 h4, vec_window d h1 h2 h3 h4]
        simpa using e
      match a with
      | ⟨0, _⟩ => exact ea
  show Ideal.hostScatterAdd d x idx upd (ix1 c) = _
  unfold Ideal.hostScatterAdd
  congr 1
  refine Finset.sum_nbij' (fun j : (⟨1, ![n]⟩ : Shape).Idx => (j 0 : Fin n)) (fun e => ix1 e) ?_ ?_ ?_ ?_ ?_
  · intro j hj
    exact Finset.mem_filter.2 ⟨Finset.mem_univ _, (key j).1 (Finset.mem_filter.1 hj).2⟩
  · intro e he
    exact Finset.mem_filter.2 ⟨Finset.mem_univ _, (key (ix1 e)).2 (Finset.mem_filter.1 he).2⟩
  · intro j _; exact (eq_ix1 j).symm
  · intro e _; rfl
  · intro j _; exact congrArg upd (eq_ix1 j)

/-! ## The table layout: one row per edge -/

/-- On the table's row axis an update's window starts at its edge's index word, read signed. -/
private theorem rows_start0 {C D n : Nat} (d : ScatterDims ⟨2, ![C, D]⟩ ⟨2, ![n, 1]⟩ ⟨2, ![n, D]⟩)
    (h1 : d.updateWindowDims = [1]) (h2 : d.insertedWindowDims = [0]) (h3 : d.scatterDimsToOperandDims = [0])
    (h4 : d.indexVectorDim = 1) (idx : IVec ⟨2, ![n, 1]⟩ 32) (j : (⟨2, ![n, D]⟩ : Shape).Idx) :
    d.start j idx 0 = (idx (ix2 (j 0) (0 : Fin 1))).toInt := by
  obtain ⟨uw, iw, sd, iv, wf⟩ := d
  dsimp only at h1 h2 h3 h4
  subst h1 h2 h3 h4
  unfold ScatterDims.start
  split_ifs with ha
  · refine congrArg (fun v => (idx v).toInt) ?_
    funext b
    apply Fin.ext
    fin_cases b <;> rfl
  · exact absurd (List.mem_singleton.2 rfl) ha

/-- The table's column axis is not a scattered one: the window starts at zero there. -/
private theorem rows_start1 {C D n : Nat} (d : ScatterDims ⟨2, ![C, D]⟩ ⟨2, ![n, 1]⟩ ⟨2, ![n, D]⟩)
    (h1 : d.updateWindowDims = [1]) (h2 : d.insertedWindowDims = [0]) (h3 : d.scatterDimsToOperandDims = [0])
    (h4 : d.indexVectorDim = 1) (idx : IVec ⟨2, ![n, 1]⟩ 32) (j : (⟨2, ![n, D]⟩ : Shape).Idx) :
    d.start j idx 1 = 0 := by
  obtain ⟨uw, iw, sd, iv, wf⟩ := d
  dsimp only at h1 h2 h3 h4
  subst h1 h2 h3 h4
  unfold ScatterDims.start
  split_ifs with ha
  · exact absurd (congrArg Fin.val (List.mem_singleton.1 ha)) Nat.one_ne_zero
  · rfl

/-- The table's row axis is an inserted one: the window coordinate there is zero. -/
private theorem rows_window0 {C D n : Nat} (d : ScatterDims ⟨2, ![C, D]⟩ ⟨2, ![n, 1]⟩ ⟨2, ![n, D]⟩)
    (h1 : d.updateWindowDims = [1]) (h2 : d.insertedWindowDims = [0]) (h3 : d.scatterDimsToOperandDims = [0])
    (h4 : d.indexVectorDim = 1) (j : (⟨2, ![n, D]⟩ : Shape).Idx) :
    d.window j 0 = 0 := by
  obtain ⟨uw, iw, sd, iv, wf⟩ := d
  dsimp only at h1 h2 h3 h4
  subst h1 h2 h3 h4
  unfold ScatterDims.window
  split_ifs with ha
  · exact absurd (show (0 : Fin 2) ∈ ([1] : List (Fin 2)) from ha) (by decide)
  · rfl

/-- On the table's column axis the window coordinate is the update's column. -/
private theorem rows_window1 {C D n : Nat} (d : ScatterDims ⟨2, ![C, D]⟩ ⟨2, ![n, 1]⟩ ⟨2, ![n, D]⟩)
    (h1 : d.updateWindowDims = [1]) (h2 : d.insertedWindowDims = [0]) (h3 : d.scatterDimsToOperandDims = [0])
    (h4 : d.indexVectorDim = 1) (j : (⟨2, ![n, D]⟩ : Shape).Idx) :
    d.window j 1 = (j 1).val := by
  obtain ⟨uw, iw, sd, iv, wf⟩ := d
  dsimp only at h1 h2 h3 h4
  subst h1 h2 h3 h4
  unfold ScatterDims.window
  split_ifs with ha
  · rfl
  · exact absurd (show (1 : Fin 2) ∈ ([1] : List (Fin 2)) from List.mem_singleton.2 rfl) ha

/-- The row scatter-add at element `(c, k)`: the operand's element plus the updates `(e, k)` of the edges `e`
    whose index word, read signed, is `c`. -/
theorem scatterAdd_rows_read {C D n : Nat} {φ : FTy} (d : ScatterDims ⟨2, ![C, D]⟩ ⟨2, ![n, 1]⟩ ⟨2, ![n, D]⟩)
    (h1 : d.updateWindowDims = [1]) (h2 : d.insertedWindowDims = [0]) (h3 : d.scatterDimsToOperandDims = [0])
    (h4 : d.indexVectorDim = 1)
    (x : (⟨2, ![C, D]⟩ : Shape).Idx → EReal) (idx : IVec ⟨2, ![n, 1]⟩ 32) (upd : (⟨2, ![n, D]⟩ : Shape).Idx → EReal)
    (c : Fin C) (k : Fin D) :
    Host.scatterAdd (F := Ideal) (φ := φ) d x idx upd (ix2 c k)
      = x (ix2 c k) + ∑ e ∈ Finset.univ.filter (fun e : Fin n => (idx (ix2 e (0 : Fin 1))).toInt = (c.val : ℤ)),
          upd (ix2 e k) := by
  have key : ∀ j : (⟨2, ![n, D]⟩ : Shape).Idx,
      d.resultIdx? j idx = some (ix2 c k)
        ↔ ((idx (ix2 (j 0) (0 : Fin 1))).toInt = (c.val : ℤ) ∧ (j 1).val = k.val) := by
    intro j
    rw [resultIdx?_eq_some_iff]
    constructor
    · intro e
      have e0 : d.start j idx 0 + (d.window j 0 : ℤ) = (c.val : ℤ) := e 0
      have e1 : d.start j idx 1 + (d.window j 1 : ℤ) = (k.val : ℤ) := e 1
      rw [rows_start0 d h1 h2 h3 h4, rows_window0 d h1 h2 h3 h4] at e0
      rw [rows_start1 d h1 h2 h3 h4, rows_window1 d h1 h2 h3 h4] at e1
      refine ⟨by simpa using e0, ?_⟩
      omega
    · rintro ⟨e0, e1⟩ a
      match a with
      | ⟨0, _⟩ =>
        show d.start j idx 0 + (d.window j 0 : ℤ) = (c.val : ℤ)
        rw [rows_start0 d h1 h2 h3 h4, rows_window0 d h1 h2 h3 h4]
        simpa using e0
      | ⟨1, _⟩ =>
        show d.start j idx 1 + (d.window j 1 : ℤ) = (k.val : ℤ)
        rw [rows_start1 d h1 h2 h3 h4, rows_window1 d h1 h2 h3 h4]
        omega
  have back : ∀ j : (⟨2, ![n, D]⟩ : Shape).Idx, (j 1).val = k.val → ix2 (j 0 : Fin n) k = j := by
    intro j hk
    funext a
    match a with
    | ⟨0, _⟩ => rfl
    | ⟨1, _⟩ => exact Fin.ext hk.symm
  show Ideal.hostScatterAdd d x idx upd (ix2 c k) = _
  unfold Ideal.hostScatterAdd
  congr 1
  refine Finset.sum_nbij' (fun j : (⟨2, ![n, D]⟩ : Shape).Idx => (j 0 : Fin n)) (fun e => ix2 e k) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key (ix2 e k)).2 ⟨(Finset.mem_filter.1 he).2, rfl⟩⟩
  · intro j hj
    exact back j ((key j).1 (Finset.mem_filter.1 hj).2).2
  · intro e _; rfl
  · intro j hj
    exact congrArg upd (back j ((key j).1 (Finset.mem_filter.1 hj).2).2).symm

/-! ## The maximum over the rows -/

/-- The column index `c` with row `k` put back is `(k, c)`. -/
private theorem lift_rows {R C : Nat} (h : (⟨2, ![R, C]⟩ : Shape).Reduces [0] (⟨1, ![C]⟩ : Shape)) (c : Fin C)
    (k : Fin ((⟨2, ![R, C]⟩ : Shape).size 0)) : h.lift (ix1 c) k = ix2 (⟨k.val, k.isLt⟩ : Fin R) c := by
  funext a; apply Fin.ext
  fin_cases a <;> rfl

/-- The host's maximum over the rows of a table, started at −∞, read at column `c`: the supremum over the rows. -/
theorem reduce_max_rows {R C : Nat} (x : (⟨2, ![R, C]⟩ : Shape).Idx → EReal) (init : (⟨0, ![]⟩ : Shape).Idx → EReal)
    (hinit : ∀ i, init i = ⊥) (h : (⟨2, ![R, C]⟩ : Shape).ReducesTo [0] ⟨1, ![C]⟩) (hu : 0 < (⟨0, ![]⟩ : Shape).numel)
    (c : Fin C) :
    Host.reduce (FloatOps.maximumf (F := Ideal) (φ := .f32)) x init h hu (ix1 c)
      = Finset.univ.sup fun r : Fin R => x (ix2 r c) := by
  -- the rank-one result has an axis, so the reduction is one the single-axis fold law covers
  have hr : (⟨2, ![R, C]⟩ : Shape).Reduces [0] ⟨1, ![C]⟩ := ⟨h.1, Nat.one_pos, h.2⟩
  rw [Host.reduce_eq_fold_single (FloatOps.maximumf (F := Ideal) (φ := .f32)) x init h hr hu, hinit]
  have hf : (x ∘ hr.lift (ix1 c)) = fun r : Fin R => x (ix2 r c) := funext fun k => congrArg x (lift_rows hr c k)
  rw [hf]
  -- a supremum over a finite set is by definition the fold of the binary supremum from the bottom element
  rfl

end Cert.LibScatter

end
-- ==== Proof.KI.Host0.lean ====
/-
  What the buffers hold at each boundary of the program, for the buffers no step in between writes: the arguments,
  the source and destination words of the edges, the node weights, the first dense map's plain result, the two biases
  laid out as rows. And the node weights themselves: the reciprocal square root of one plus the number of edges into
  the node.
-/
import proofs.«426294_j21277267984741_3_alg».proof.Proof.Gen.KernelIdeal.Frame
import proofs.«426294_j21277267984741_3_alg».proof.Proof.Spec
import proofs.«426294_j21277267984741_3_alg».proof.Proof.LibScatter
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- The first layer's scaled features, as the first aggregation finds them: a 200000 × 16 table of extended reals. -/
abbrev scaled1 (c : Dev nD) : S200000x16.Idx → EReal := W2 m ρ c (Proc.devRef .tc main_v12_1)
/-- The second layer's scaled features, as the second aggregation finds them: a 200000 × 2 table of extended reals. -/
abbrev scaled2 (c : Dev nD) : S200000x2.Idx → EReal := W6 m ρ c (Proc.devRef .tc main_v19_1)

/-! ## Buffers that the steps in between leave alone -/

/-- Across a stretch of host operations, a buffer that is the result of none of them holds what it held before. -/
local macro "unwritten " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

theorem kept_V1_arg0 (c : Dev nD) : V1 m ρ c main_arg0 = m ((c : Thread nD τ).loc main_arg0) := by
  show W1 m ρ c (Proc.devRef .tc main_arg0) = W0 m ρ c (Proc.devRef .tc main_arg0)
  unwritten hostOps0
theorem kept_V1_arg1 (c : Dev nD) : V1 m ρ c main_arg1 = m ((c : Thread nD τ).loc main_arg1) := by
  show W1 m ρ c (Proc.devRef .tc main_arg1) = W0 m ρ c (Proc.devRef .tc main_arg1)
  unwritten hostOps0
theorem kept_V4_v11 (c : Dev nD) : V4 m ρ c main_v11 = V1 m ρ c main_v11 :=
  calc W4 m ρ c (Proc.devRef .tc main_v11)
    _ = W3 m ρ c (Proc.devRef .tc main_v11) := by unwritten hostOps1_1
    _ = W2 m ρ c (Proc.devRef .tc main_v11) := by unwritten hostOps1
    _ = W1 m ρ c (Proc.devRef .tc main_v11) := (W2_arr m ρ c 2).trans (((dat0 (V1 m ρ) c).arrAt_in 2 rfl _).trans (A_eq0 (V1 m ρ) c 2))
theorem kept_V4_v12_0 (c : Dev nD) : V4 m ρ c main_v12_0 = W2 m ρ c (Proc.devRef .tc main_v12_0) :=
  calc W4 m ρ c (Proc.devRef .tc main_v12_0)
    _ = W3 m ρ c (Proc.devRef .tc main_v12_0) := by unwritten hostOps1_1
    _ = W2 m ρ c (Proc.devRef .tc main_v12_0) := by unwritten hostOps1
theorem kept_V5_v11 (c : Dev nD) : V5 m ρ c main_v11 = V1 m ρ c main_v11 :=
  calc W5 m ρ c (Proc.devRef .tc main_v11)
    _ = W4 m ρ c (Proc.devRef .tc main_v11) := (W5_arr m ρ c 2).trans (((dat1 (V4 m ρ) c).arrAt_in 2 rfl _).trans (A_eq1 (V4 m ρ) c 2))
    _ = V1 m ρ c main_v11 := kept_V4_v11 m ρ c
theorem kept_V5_arg3 (c : Dev nD) : V5 m ρ c main_arg3 = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := by unwritten hostOps1_1
    _ = W2 m ρ c (Proc.devRef .tc main_arg3) := by unwritten hostOps1
    _ = W1 m ρ c (Proc.devRef .tc main_arg3) := W2_of_ne m ρ c main_arg3 (by decide)
    _ = W0 m ρ c (Proc.devRef .tc main_arg3) := by unwritten hostOps0
    _ = m ((c : Thread nD τ).loc main_arg3) := rfl
theorem kept_V8_v11 (c : Dev nD) : V8 m ρ c main_v11 = V1 m ρ c main_v11 :=
  calc W8 m ρ c (Proc.devRef .tc main_v11)
    _ = W7 m ρ c (Proc.devRef .tc main_v11) := by unwritten hostOps3_1
    _ = W6 m ρ c (Proc.devRef .tc main_v11) := by unwritten hostOps3
    _ = W5 m ρ c (Proc.devRef .tc main_v11) := (W6_arr m ρ c 2).trans (((dat2 (V5 m ρ) c).arrAt_in 2 rfl _).trans (A_eq2 (V5 m ρ) c 2))
    _ = V1 m ρ c main_v11 := kept_V5_v11 m ρ c
theorem kept_V8_v19_0 (c : Dev nD) : V8 m ρ c main_v19_0 = W6 m ρ c (Proc.devRef .tc main_v19_0) :=
  calc W8 m ρ c (Proc.devRef .tc main_v19_0)
    _ = W7 m ρ c (Proc.devRef .tc main_v19_0) := by unwritten hostOps3_1
    _ = W6 m ρ c (Proc.devRef .tc main_v19_0) := by unwritten hostOps3

/-- The first bias is still as launched when the stretch before the second region begins. -/
private theorem kept_W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by unwritten hostOps1
    _ = W1 m ρ c (Proc.devRef .tc main_arg2) := W2_of_ne m ρ c main_arg2 (by decide)
    _ = W0 m ρ c (Proc.devRef .tc main_arg2) := by unwritten hostOps0
    _ = m ((c : Thread nD τ).loc main_arg2) := rfl

/-- The second bias is still as launched when the stretch before the fourth region begins. -/
private theorem kept_W7_arg4 (c : Dev nD) : W7 m ρ c (Proc.devRef .tc main_arg4) = m ((c : Thread nD τ).loc main_arg4) :=
  calc W7 m ρ c (Proc.devRef .tc main_arg4)
    _ = W6 m ρ c (Proc.devRef .tc main_arg4) := by unwritten hostOps3
    _ = W5 m ρ c (Proc.devRef .tc main_arg4) := W6_of_ne m ρ c main_arg4 (by decide)
    _ = W4 m ρ c (Proc.devRef .tc main_arg4) := W5_of_ne m ρ c main_arg4 (by decide)
    _ = W3 m ρ c (Proc.devRef .tc main_arg4) := by unwritten hostOps1_1
    _ = W2 m ρ c (Proc.devRef .tc main_arg4) := by unwritten hostOps1
    _ = W1 m ρ c (Proc.devRef .tc main_arg4) := W2_of_ne m ρ c main_arg4 (by decide)
    _ = W0 m ρ c (Proc.devRef .tc main_arg4) := by unwritten hostOps0
    _ = m ((c : Thread nD τ).loc main_arg4) := rfl

/-- The first bias as the one-row table the second region reads: entry (0, f) is b1[f]. -/
theorem bias1_row (c : Dev nD) (f : Fin 16) :
    (V4 m ρ c main_v17 : S1x16.Idx → EReal) (ix2 (0 : Fin 1) f) = (m ((c : Thread nD τ).loc main_arg2) : S16.Idx → EReal) (ix1 f) := by
  show (StableHlo.after hostOps1_1 (W3 m ρ c) (Proc.devRef .tc main_v17) : S1x16.Idx → EReal) (ix2 (0 : Fin 1) f) = _
  after_results
  show shapeCast S1x16 (W3 m ρ c (Proc.devRef .tc main_arg2) : S16.Idx → EReal) shapeCasts_S16_S1x16 (ix2 (0 : Fin 1) f) = _
  rw [shapeCast_a_1a_apply, kept_W3_arg2]
/-- The second bias as the one-row table the fourth region reads: entry (0, g) is b2[g]. -/
theorem bias2_row (c : Dev nD) (g : Fin 2) :
    (V8 m ρ c main_v24 : S1x2.Idx → EReal) (ix2 (0 : Fin 1) g) = (m ((c : Thread nD τ).loc main_arg4) : S2.Idx → EReal) (ix1 g) := by
  show (StableHlo.after hostOps3_1 (W7 m ρ c) (Proc.devRef .tc main_v24) : S1x2.Idx → EReal) (ix2 (0 : Fin 1) g) = _
  after_results
  show shapeCast S1x2 (W7 m ρ c (Proc.devRef .tc main_arg4) : S2.Idx → EReal) shapeCasts_S2_S1x2 (ix2 (0 : Fin 1) g) = _
  rw [shapeCast_a_1a_apply, kept_W7_arg4]

/-- The source words as every later step finds them: entry e is the edge table's (0, e). -/
theorem src_words (c : Dev nD) (e : Fin 12800000) :
    (W1 m ρ c (Proc.devRef .tc main_v1) : S12800000.Idx → BitVec 32) (ix1 e) = Cert.Gcn.srcW (m ((c : Thread nD τ).loc main_arg5)) e := by
  show (StableHlo.after hostOps0 (W0 m ρ c) (Proc.devRef .tc main_v1) : S12800000.Idx → BitVec 32) (ix1 e) = _
  after_results
  show shapeCast S12800000 (extractStridedSlice S1x12800000 ![0, 0] (W0 m ρ c (Proc.devRef .tc main_arg5) : S2x12800000.Idx → BitVec 32) slices_S2x12800000_S1x12800000_0_0) shapeCasts_S1x12800000_S12800000 (ix1 e) = _
  rw [shapeCast_1a_a_apply]
  refine (extractStridedSlice_apply _ _ _ _ (ix2 (0 : Fin 2) e) ?_).trans ?_
  · intro a
    match a with
    | ⟨0, _⟩ => rfl
    | ⟨1, _⟩ => exact (Nat.zero_add _).symm
  · rfl
/-- The destination words as every later step finds them: entry e is the edge table's (1, e). -/
theorem dst_words (c : Dev nD) (e : Fin 12800000) :
    (W1 m ρ c (Proc.devRef .tc main_v3) : S12800000.Idx → BitVec 32) (ix1 e) = Cert.Gcn.dstW (m ((c : Thread nD τ).loc main_arg5)) e := by
  show (StableHlo.after hostOps0 (W0 m ρ c) (Proc.devRef .tc main_v3) : S12800000.Idx → BitVec 32) (ix1 e) = _
  after_results
  show shapeCast S12800000 (extractStridedSlice S1x12800000 ![1, 0] (W0 m ρ c (Proc.devRef .tc main_arg5) : S2x12800000.Idx → BitVec 32) slices_S2x12800000_S1x12800000_1_0) shapeCasts_S1x12800000_S12800000 (ix1 e) = _
  rw [shapeCast_1a_a_apply]
  refine (extractStridedSlice_apply _ _ _ _ (ix2 (1 : Fin 2) e) ?_).trans ?_
  · intro a
    match a with
    | ⟨0, _⟩ => rfl
    | ⟨1, _⟩ => exact (Nat.zero_add _).symm
  · rfl
theorem kept_W2_v1 (c : Dev nD) : W2 m ρ c (Proc.devRef .tc main_v1) = W1 m ρ c (Proc.devRef .tc main_v1) := W2_of_ne m ρ c main_v1 (by decide)
theorem kept_W3_v3 (c : Dev nD) : W3 m ρ c (Proc.devRef .tc main_v3) = W1 m ρ c (Proc.devRef .tc main_v3) :=
  calc W3 m ρ c (Proc.devRef .tc main_v3)
    _ = W2 m ρ c (Proc.devRef .tc main_v3) := by unwritten hostOps1
    _ = W1 m ρ c (Proc.devRef .tc main_v3) := W2_of_ne m ρ c main_v3 (by decide)
theorem kept_W6_v1 (c : Dev nD) : W6 m ρ c (Proc.devRef .tc main_v1) = W1 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := W5_of_ne m ρ c main_v1 (by decide)
    _ = W3 m ρ c (Proc.devRef .tc main_v1) := by unwritten hostOps1_1
    _ = W2 m ρ c (Proc.devRef .tc main_v1) := by unwritten hostOps1
    _ = W1 m ρ c (Proc.devRef .tc main_v1) := W2_of_ne m ρ c main_v1 (by decide)
theorem kept_W7_v3 (c : Dev nD) : W7 m ρ c (Proc.devRef .tc main_v3) = W1 m ρ c (Proc.devRef .tc main_v3) :=
  calc W7 m ρ c (Proc.devRef .tc main_v3)
    _ = W6 m ρ c (Proc.devRef .tc main_v3) := by unwritten hostOps3
    _ = W5 m ρ c (Proc.devRef .tc main_v3) := W6_of_ne m ρ c main_v3 (by decide)
    _ = W4 m ρ c (Proc.devRef .tc main_v3) := W5_of_ne m ρ c main_v3 (by decide)
    _ = W3 m ρ c (Proc.devRef .tc main_v3) := by unwritten hostOps1_1
    _ = W1 m ρ c (Proc.devRef .tc main_v3) := kept_W3_v3 m ρ c
theorem kept_W3_v12_1 (c : Dev nD) : W3 m ρ c (Proc.devRef .tc main_v12_1) = W2 m ρ c (Proc.devRef .tc main_v12_1) := by
  unwritten hostOps1
theorem kept_W7_v19_1 (c : Dev nD) : W7 m ρ c (Proc.devRef .tc main_v19_1) = W6 m ρ c (Proc.devRef .tc main_v19_1) := by
  unwritten hostOps3

/-! ## The node weights -/

/-- The weight column as a whole: zeros, with a one added at each edge's destination word, plus one, under the
    reciprocal square root entry by entry, laid out as a column. -/
private theorem v11_whole (c : Dev nD) :
    (W1 m ρ c (Proc.devRef .tc main_v11) : S200000x1.Idx → EReal) =
      (broadcastInDim S200000x1 ![0] bcast_S200000_S200000x1_0
        (Host.rsqrt (addf
          (Host.scatterAdd scatter_S200000_S12800000x1_S12800000_n_0_0_1
            (broadcastInDim S200000 ![] bcast_S_S200000 (constant (F := Ideal) S_ .f32 0x00000000#32))
            (broadcastInDim S12800000x1 ![0] bcast_S12800000_S12800000x1_0
              (W1 m ρ c (Proc.devRef .tc main_v3) : S12800000.Idx → BitVec 32))
            (broadcastInDim S12800000 ![] bcast_S_S12800000 (constant (F := Ideal) S_ .f32 0x3F800000#32)))
          (broadcastInDim S200000 ![] bcast_S_S200000 (constant (F := Ideal) S_ .f32 0x3F800000#32)))) : S200000x1.Idx → EReal) := by
  show (StableHlo.after hostOps0 (W0 m ρ c) (Proc.devRef .tc main_v11) : S200000x1.Idx → EReal) =
      (broadcastInDim S200000x1 ![0] bcast_S200000_S200000x1_0
        (Host.rsqrt (addf
          (Host.scatterAdd scatter_S200000_S12800000x1_S12800000_n_0_0_1
            (broadcastInDim S200000 ![] bcast_S_S200000 (constant (F := Ideal) S_ .f32 0x00000000#32))
            (broadcastInDim S12800000x1 ![0] bcast_S12800000_S12800000x1_0
              (StableHlo.after hostOps0 (W0 m ρ c) (Proc.devRef .tc main_v3) : S12800000.Idx → BitVec 32))
            (broadcastInDim S12800000 ![] bcast_S_S12800000 (constant (F := Ideal) S_ .f32 0x3F800000#32)))
          (broadcastInDim S200000 ![] bcast_S_S200000 (constant (F := Ideal) S_ .f32 0x3F800000#32)))) : S200000x1.Idx → EReal)
  after_results

/-- A scalar constant spread over any shape reads that constant everywhere. -/
private theorem splat_apply {T : Shape} (h : S_.BroadcastsInDim T ![]) (b : BitVec 32) (j : T.Idx) :
    broadcastInDim T ![] h (constant (F := Ideal) S_ .f32 b) j = Ideal.ofBits .f32 b :=
  (broadcastInDim_apply _ _ _ _ ix0 (fun a => a.elim0)).trans (constant_apply _ _)

/-- The reciprocal square root of a vector reads entry by entry. -/
private theorem hostRsqrt_apply {s : Shape} (x : FVec Ideal s .f32) (j : s.Idx) : Host.rsqrt x j = Ideal.rsqrt (x j) := rfl

/-- The destination words laid out as a column: entry (e, 0) is edge e's destination word. -/
private theorem dst_col (c : Dev nD) (e : Fin 12800000) :
    broadcastInDim S12800000x1 ![0] bcast_S12800000_S12800000x1_0
        (W1 m ρ c (Proc.devRef .tc main_v3) : S12800000.Idx → BitVec 32) (ix2 e (0 : Fin 1))
      = Cert.Gcn.dstW (m ((c : Thread nD τ).loc main_arg5)) e :=
  (broadcastInDim_apply _ _ _ _ (ix1 e) (fun a => match a with | ⟨0, _⟩ => rfl)).trans (dst_words m ρ c e)

/-- The reciprocal square root of a start value, plus a sum over the indices a condition picks, plus an end value, is unchanged
    when the start value is named zero, the end value one, every summand one, and the condition replaced by an equivalent one. -/
private theorem rsqrt_count_congr {n : Nat} (p q : Fin n → Prop) [DecidablePred p] [DecidablePred q] (f : Fin n → EReal) (z o : EReal)
    (hz : z = 0) (ho : o = 1) (hpq : ∀ e, p e ↔ q e) (hf : ∀ e, f e = 1) :
    Ideal.rsqrt ((z + ∑ e ∈ Finset.univ.filter p, f e) + o)
      = Ideal.rsqrt ((0 + ∑ _e ∈ Finset.univ.filter q, (1 : EReal)) + 1) := by
  subst hz ho
  rw [Finset.filter_congr (fun e _ => hpq e), Finset.sum_congr rfl (fun e _ => hf e)]

/-- The weight column the regions read: entry (i, 0) is the reciprocal square root of node i's degree. -/
theorem host_dinv (c : Dev nD) (i : Fin 200000) :
    (V1 m ρ c main_v11 : S200000x1.Idx → EReal) (ix2 i (0 : Fin 1)) = Cert.Gcn.dinv (m ((c : Thread nD τ).loc main_arg5)) i := by
  refine (congrFun (v11_whole m ρ c) (ix2 i (0 : Fin 1))).trans ?_
  refine (broadcastInDim_apply _ _ _ _ (ix1 i) (fun a => match a with | ⟨0, _⟩ => rfl)).trans ?_
  rw [hostRsqrt_apply, addf_apply, Cert.LibScatter.scatterAdd_vec_read _ rfl rfl rfl rfl]
  delta Cert.Gcn.dinv Cert.Gcn.deg Cert.Gcn.lands
  exact rsqrt_count_congr _ _ _ _ _
    ((splat_apply _ _ _).trans Ideal.ofBits_zero_f32) ((splat_apply _ _ _).trans Cert.Gcn.ofBits_one)
    (fun e => by rw [dst_col]) (fun e => (splat_apply _ _ _).trans Cert.Gcn.ofBits_one)

end Cert.KernelIdeal.Hand

end
-- ==== Proof.LibGatherRows.lean ====
/-
  A gather of whole rows of a table, and of entries of a vector, read at one element. The start indices are an
  n × 1 column of position words; result row e is the table's row at position word e read signed and clipped into the
  table (a negative word reads row 0, one past the end reads the last row).
-/
import Idealize.ShloMosaic.PureOps.ShapeOps
import Idealize.ShloMosaic.PureOps.Dims
import Idealize.ShloMosaic.Lib.ValueIdx
import Idealize.ShloMosaic.Lib.StableHlo.Predicate

noncomputable section

namespace Cert.LibGatherRows

open Idealize.ShloMosaic Idealize.ShloMosaic.ValueIdx

/-- Rows of an N × D table gathered at n position words: result (e, k) is the table at the clipped position of word e and column k. -/
theorem gather_rows_apply {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, D]⟩ : Shape).Idx → α) (idx : IVec ⟨2, ![n, 1]⟩ w) (e : Fin n) (k : Fin D) (hN : 0 < N) :
    Host.gather d x idx (ix2 e k)
      = x (ix2 (⟨min (idx (ix2 e (0 : Fin 1))).toInt.toNat (N - 1), by omega⟩ : Fin N) k) := by
  obtain ⟨od, cd, obd, sbd, sim, ivd, ss, wf⟩ := d
  simp only at hoff hcoll hob hsb hsim hivd
  subst hoff hcoll hob hsb hsim hivd
  generalize hd : (GatherDims.mk [1] [0] [] [] [0] 1 ss wf : GatherDims ⟨2, ![N, D]⟩ ⟨2, ![n, 1]⟩ ⟨2, ![n, D]⟩) = d
  have hcoll : d.collapsedSliceDims = [0] := by subst hd; rfl
  have hob : d.operandBatchingDims = [] := by subst hd; rfl
  have hsim : d.startIndexMap = [0] := by subst hd; rfl
  have hb : ∀ a : Fin 2, a ∉ d.operandBatchingDims := fun a => by rw [hob]; exact List.not_mem_nil
  have h0 : (d.operandIdx (ix2 e k) idx (0 : Fin 2)).val = min (idx (ix2 e (0 : Fin 1))).toInt.toNat (N - 1) := by
    show d.start (ix2 e k) idx (0 : Fin 2) + d.batchCoord (ix2 e k) (0 : Fin 2) + d.offCoord (ix2 e k) (0 : Fin 2) = _
    have hk : (0 : Fin 2) ∉ d.sKept := fun h => ((GatherDims.mem_sKept _ _).mp h).1 (by rw [hcoll]; exact List.mem_singleton.mpr rfl)
    have hm : (0 : Fin 2) ∈ d.startIndexMap := by rw [hsim]; exact List.mem_singleton.mpr rfl
    have hsl : d.sliceSizes (0 : Fin 2) = 1 := d.slice_collapsed 0 (by rw [hcoll]; exact List.mem_singleton.mpr rfl)
    rw [GatherDims.batchCoord_eq_zero _ _ _ (hb 0), GatherDims.offCoord_eq_zero _ _ _ hk, Nat.add_zero]
    unfold GatherDims.start
    rw [dif_pos hm, hsl]
    have hsi : d.siIdx (ix2 e k) ⟨List.idxOf (0 : Fin 2) d.startIndexMap, List.idxOf_lt_length_iff.2 hm⟩ = ix2 e (0 : Fin 1) := by
      subst hd
      funext b; refine Fin.ext ?_
      match b with
      | ⟨0, _⟩ => rfl
      | ⟨1, _⟩ => rfl
    rw [hsi]
    rfl
  have h1 : (d.operandIdx (ix2 e k) idx (1 : Fin 2)).val = k.val := by
    show d.start (ix2 e k) idx (1 : Fin 2) + d.batchCoord (ix2 e k) (1 : Fin 2) + d.offCoord (ix2 e k) (1 : Fin 2) = _
    have hne : ¬ ((1 : Fin 2) = 0) := by decide
    have hm : (1 : Fin 2) ∉ d.startIndexMap := by rw [hsim]; exact fun h => hne (List.mem_singleton.mp h)
    have hk : (1 : Fin 2) ∈ d.sKept := (GatherDims.mem_sKept _ _).mpr ⟨by rw [hcoll]; exact fun h => hne (List.mem_singleton.mp h), hb 1⟩
    rw [GatherDims.batchCoord_eq_zero _ _ _ (hb 1), Nat.add_zero]
    unfold GatherDims.start GatherDims.offCoord
    rw [dif_neg hm, dif_pos hk, Nat.zero_add]
    subst hd
    rfl
  unfold Host.gather
  congr 1
  funext a
  match a with
  | ⟨0, _⟩ => exact Fin.ext h0
  | ⟨1, _⟩ => exact Fin.ext h1

/-- Entries of an N-vector gathered at n position words: result e is the vector at the clipped position of word e. -/
theorem gather_vec_apply {α : Type} {N n w : Nat} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (e : Fin n) (hN : 0 < N) :
    Host.gather d x idx (ix1 e)
      = x (ix1 (⟨min (idx (ix2 e (0 : Fin 1))).toInt.toNat (N - 1), by omega⟩ : Fin N)) := by
  have h1 : (ix1 e : (⟨1, ![n]⟩ : Shape).Idx) = Shape.Idx.ofFin e := by
    funext a; match a with | ⟨0, _⟩ => rfl
  have h2 : (ix2 e (0 : Fin 1) : (⟨2, ![n, 1]⟩ : Shape).Idx) = StableHlo.Predicate.ixP e := by
    funext a; match a with | ⟨0, _⟩ => rfl | ⟨1, _⟩ => rfl
  have h3 : ∀ m : Fin N, (ix1 m : (⟨1, ![N]⟩ : Shape).Idx) = Shape.Idx.ofFin m := fun m => by
    funext a; match a with | ⟨0, _⟩ => rfl
  rw [h1, h3]
  refine (StableHlo.Predicate.gather_take d hcoll hob hsim hivd x idx e hN).trans ?_
  refine congrArg x (congrArg Shape.Idx.ofFin (Fin.ext ?_))
  show min (idx (StableHlo.Predicate.ixP e)).toInt.toNat (N - 1) = min (idx (ix2 e (0 : Fin 1))).toInt.toNat (N - 1)
  rw [h2]

end Cert.LibGatherRows

end
-- ==== Proof.KI.Host1.lean ====
/-
  The two aggregation stretches between the regions. Each takes the scaled features (a 200000-row table), gathers one
  row per edge at the edge's source word, and adds the gathered rows into a table of zeros at the edge's destination
  word. When every source word is a row number, the gather's out-of-range fill never fires, so entry (i, f) of the
  result is zero plus the sum, over the edges into node i, of the scaled feature at the edge's source row and channel f.
-/
import proofs.«426294_j21277267984741_3_alg».proof.Proof.Gen.KernelIdeal.Frame
import proofs.«426294_j21277267984741_3_alg».proof.Proof.Spec
import proofs.«426294_j21277267984741_3_alg».proof.Proof.KI.Host0
import proofs.«426294_j21277267984741_3_alg».proof.Proof.LibScatter
import proofs.«426294_j21277267984741_3_alg».proof.Proof.LibGatherRows
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-! ## The pieces: the position column, the range test, and the two stretches read as terms -/

namespace Agg

/-- The position column of a gather of rows: every word wrapped when negative, laid out as a column. -/
def idxCol (src : IVec S12800000 32) : IVec S12800000x1 32 :=
  broadcastInDim S12800000x1 ![0] bcast_S12800000_S12800000x1_0
    (select (cmpi .slt src (broadcastInDim S12800000 ![] bcast_S_S12800000 (constantI S_ 32 0#32)))
      (addi src (broadcastInDim S12800000 ![] bcast_S_S12800000 (constantI S_ 32 200000#32))) src)

/-- The range test of a position column: position e passes when 0 ≤ word e ≤ 199999, read signed. -/
def inRange (idx : IVec S12800000x1 32) : IVec S12800000 1 :=
  Host.reduce IntOp.andi
    (andi (cmpi .sge idx (broadcastInDim S12800000x1 ![] bcast_S_S12800000x1 (constantI S_ 32 0#32)))
      (cmpi .sle idx (broadcastInDim S12800000x1 ![0, 1] bcast_S1x1_S12800000x1_0_1
        (broadcastInDim S1x1 ![1] bcast_S1_S1x1_1 (constantI S1 32 199999#32)))))
    (constantI S_ 1 1#1) reducesTo_S12800000x1_S12800000_d1 h_S_

/-- The position column at edge e is the wrapped source word. -/
theorem idxCol_apply (src : IVec S12800000 32) (e : Fin 12800000) :
    idxCol src (ix2 e (0 : Fin 1)) = Cert.Gcn.nrm (src (ix1 e)) := by
  unfold idxCol
  refine (broadcastInDim_apply _ _ _ (ix2 e (0 : Fin 1)) (ix1 e) (fun a => ?_)).trans ?_
  · match a with
    | ⟨0, _⟩ =>
      show e.val = if (12800000 : ℕ) = 1 then 0 else e.val
      rw [if_neg (by decide)]
  · rfl

/-- A word between 0 and 199999, read signed, passes both comparisons of the range test. -/
theorem inRange_word (w : BitVec 32) (h0 : 0 ≤ w.toInt) (h1 : w.toInt ≤ 199999) :
    IntOp.andi (IntOp.andi (IntOp.cmpi .sge w 0#32) (IntOp.cmpi .sle w 199999#32)) 1#1 = 1#1 := by
  have a : (0#32).sle w = true := by
    rw [BitVec.sle_eq_decide]; simpa using h0
  have b : w.sle 199999#32 = true := by
    rw [BitVec.sle_eq_decide]
    have : (199999#32 : BitVec 32).toInt = 199999 := by decide
    rw [this]; simpa using h1
  unfold IntOp.andi IntOp.cmpi
  simp only [a, b]
  decide

/-- A fold over the one-element range is one application of the operation. -/
theorem fold_univ_one {α : Type} (op : α → α → α) [Std.Commutative op] [Std.Associative op] (b : α) (g : Fin 1 → α) :
    (Finset.univ : Finset (Fin 1)).fold op b g = op (g 0) b := by
  rw [Finset.univ_unique, Finset.fold_singleton]; rfl

/-- The range test at edge e, when the position word there is a row number. -/
theorem inRange_apply (idx : IVec S12800000x1 32) (e : Fin 12800000)
    (h0 : 0 ≤ (idx (ix2 e (0 : Fin 1))).toInt) (h1 : (idx (ix2 e (0 : Fin 1))).toInt ≤ 199999) :
    inRange idx (ix1 e) = 1#1 := by
  have hR : S12800000x1.Reduces [1] S12800000 := by decide
  have hl : hR.lift (ix1 e) (0 : Fin 1) = ix2 e (0 : Fin 1) := by
    funext c
    match c with
    | ⟨0, _⟩ => exact Fin.ext rfl
    | ⟨1, _⟩ => exact Fin.ext rfl
  unfold inRange
  rw [Host.reduce_eq_fold_single IntOp.andi _ _ reducesTo_S12800000x1_S12800000_d1 hR h_S_ (ix1 e)]
  refine (fold_univ_one IntOp.andi _ _).trans ?_
  show IntOp.andi (andi _ _ (hR.lift (ix1 e) (0 : Fin 1))) _ = _
  rw [hl]
  exact inRange_word _ h0 h1

/-- A column laid out from a vector reads the vector: entry (e, 0) is entry e. -/
theorem column_apply (v : IVec S12800000 32) (e : Fin 12800000) :
    broadcastInDim S12800000x1 ![0] bcast_S12800000_S12800000x1_0 v (ix2 e (0 : Fin 1)) = v (ix1 e) := by
  refine broadcastInDim_apply _ _ _ (ix2 e (0 : Fin 1)) (ix1 e) (fun a => ?_)
  match a with
  | ⟨0, _⟩ =>
    show e.val = if (12800000 : ℕ) = 1 then 0 else e.val
    rw [if_neg (by decide)]

/-- A gather of rows guarded by the range test, read at edge e and column k, when the source word of e is a row
    number: the guard passes, so the entry is the table's at the row the word names. -/
theorem guarded_rows_apply {D : Nat}
    (d : GatherDims ⟨2, ![200000, D]⟩ ⟨2, ![12800000, 1]⟩ ⟨2, ![12800000, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hb : S12800000.BroadcastsInDim ⟨2, ![12800000, D]⟩ ![0])
    (x : (⟨2, ![200000, D]⟩ : Shape).Idx → EReal) (src : IVec S12800000 32)
    (fill : (⟨2, ![12800000, D]⟩ : Shape).Idx → EReal) (e : Fin 12800000) (k : Fin D)
    (h0 : 0 ≤ (src (ix1 e)).toInt) (h1 : (src (ix1 e)).toInt < 200000) :
    select (broadcastInDim ⟨2, ![12800000, D]⟩ ![0] hb (inRange (idxCol src))) (Host.gather d x (idxCol src)) fill (ix2 e k)
      = x (ix2 (Cert.Gcn.row (src (ix1 e))) k) := by
  have hi : idxCol src (ix2 e (0 : Fin 1)) = src (ix1 e) :=
    (idxCol_apply src e).trans (Cert.Gcn.nrm_of_nonneg h0)
  have hm : broadcastInDim ⟨2, ![12800000, D]⟩ ![0] hb (inRange (idxCol src)) (ix2 e k) = 1#1 := by
    refine (broadcastInDim_apply _ _ _ (ix2 e k) (ix1 e) (fun a => ?_)).trans ?_
    · match a with
      | ⟨0, _⟩ =>
        show e.val = if (12800000 : ℕ) = 1 then 0 else e.val
        rw [if_neg (by decide)]
    · exact inRange_apply _ e (by rw [hi]; exact h0) (by rw [hi]; omega)
  rw [select_apply, hm, select_one]
  refine (Cert.LibGatherRows.gather_rows_apply d hoff hcoll hob hsb hsim hivd x (idxCol src) e k (by decide)).trans ?_
  refine congrArg (fun r : Fin 200000 => x (ix2 r k)) (Fin.ext ?_)
  show min (idxCol src (ix2 e (0 : Fin 1))).toInt.toNat (200000 - 1) = min (Cert.Gcn.nrm (src (ix1 e))).toInt.toNat (200000 - 1)
  rw [idxCol_apply]

/-- A scatter-add of rows into a table of zeros at a column of destination words, read at node i and column f:
    zero plus the sum of the rows of the edges whose destination word, read signed, is i. -/
theorem zeros_scatter_apply {D : Nat}
    (d : ScatterDims ⟨2, ![200000, D]⟩ ⟨2, ![12800000, 1]⟩ ⟨2, ![12800000, D]⟩)
    (h1 : d.updateWindowDims = [1]) (h2 : d.insertedWindowDims = [0]) (h3 : d.scatterDimsToOperandDims = [0])
    (h4 : d.indexVectorDim = 1) (hz : S_.BroadcastsInDim ⟨2, ![200000, D]⟩ ![])
    (dst : IVec S12800000 32) (upd : (⟨2, ![12800000, D]⟩ : Shape).Idx → EReal) (i : Fin 200000) (f : Fin D) :
    Host.scatterAdd (F := Ideal) (φ := .f32) d
        (broadcastInDim ⟨2, ![200000, D]⟩ ![] hz (constant (F := Ideal) S_ .f32 0x00000000#32))
        (broadcastInDim S12800000x1 ![0] bcast_S12800000_S12800000x1_0 dst) upd (ix2 i f)
      = 0 + ∑ e ∈ Finset.univ.filter (fun e : Fin 12800000 => (dst (ix1 e)).toInt = (i.val : ℤ)), upd (ix2 e f) := by
  rw [Cert.LibScatter.scatterAdd_rows_read d h1 h2 h3 h4]
  have hzero : broadcastInDim ⟨2, ![200000, D]⟩ ![] hz (constant (F := Ideal) S_ .f32 0x00000000#32) (ix2 i f) = 0 :=
    (broadcastInDim_apply _ _ _ (ix2 i f) ix0 (fun a => a.elim0)).trans
      ((constant_apply _ _).trans Ideal.ofBits_zero_f32)
  rw [hzero]
  refine congrArg (fun s : EReal => 0 + s) (Finset.sum_congr (Finset.filter_congr fun e _ => ?_) (fun _ _ => rfl))
  rw [column_apply]

/-! ### The first gather and scatter -/

/-- Running two lists of operations one after the other is running their concatenation. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

set_option maxHeartbeats 1000000 in
/-- The first eight operations of the first gather leave the position column of the source words … -/
theorem partA1_v5 (V : Valuation τ sig (Elt Ideal)) :
    (StableHlo.after (List.take 8 hostOps1) V (Proc.devRef .tc main_call0_v5) : IVec S12800000x1 32)
      = idxCol (V (Proc.devRef .tc main_v1)) := by
  simp only [hostOps1, List.take_succ_cons, List.take_zero]
  after_results_simp
  simp only [cast_eq]
  rfl

set_option maxHeartbeats 1000000 in
/-- … and leave the scaled features alone. -/
theorem partA1_v12_1 (V : Valuation τ sig (Elt Ideal)) :
    StableHlo.after (List.take 8 hostOps1) V (Proc.devRef .tc main_v12_1) = V (Proc.devRef .tc main_v12_1) := by
  simp only [hostOps1, List.take_succ_cons, List.take_zero]
  after_results_simp

set_option maxHeartbeats 1000000 in
/-- The next ten operations leave the range test of the position column … -/
theorem partB1_v12 (F : Valuation τ sig (Elt Ideal)) :
    (StableHlo.after (List.take 10 (List.drop 8 hostOps1)) F (Proc.devRef .tc main_call0_v12) : IVec S12800000 1)
      = inRange (F (Proc.devRef .tc main_call0_v5)) := by
  simp only [hostOps1, List.drop_succ_cons, List.drop_zero, List.take_succ_cons, List.take_zero]
  after_results_simp
  simp only [cast_eq]
  rfl

set_option maxHeartbeats 1000000 in
/-- … and leave the position column … -/
theorem partB1_v5 (F : Valuation τ sig (Elt Ideal)) :
    StableHlo.after (List.take 10 (List.drop 8 hostOps1)) F (Proc.devRef .tc main_call0_v5)
      = F (Proc.devRef .tc main_call0_v5) := by
  simp only [hostOps1, List.drop_succ_cons, List.drop_zero, List.take_succ_cons, List.take_zero]
  after_results_simp

set_option maxHeartbeats 1000000 in
/-- … and the scaled features alone. -/
theorem partB1_v12_1 (F : Valuation τ sig (Elt Ideal)) :
    StableHlo.after (List.take 10 (List.drop 8 hostOps1)) F (Proc.devRef .tc main_v12_1)
      = F (Proc.devRef .tc main_v12_1) := by
  simp only [hostOps1, List.drop_succ_cons, List.drop_zero, List.take_succ_cons, List.take_zero]
  after_results_simp

set_option maxHeartbeats 1000000 in
/-- The last five operations: the row gather, and the select between the gathered row and the fill. -/
theorem partC1_v13 (G : Valuation τ sig (Elt Ideal)) :
    (StableHlo.after (List.drop 10 (List.drop 8 hostOps1)) G (Proc.devRef .tc main_v13) : S12800000x16.Idx → EReal)
      = select (broadcastInDim S12800000x16 ![0] bcast_S12800000_S12800000x16_0
          (G (Proc.devRef .tc main_call0_v12) : IVec S12800000 1))
        (Host.gather gather_S200000x16_S12800000x1_S12800000x16_1_0_n_n_0_1_116
          (G (Proc.devRef .tc main_v12_1) : S200000x16.Idx → EReal) (G (Proc.devRef .tc main_call0_v5)))
        (broadcastInDim S12800000x16 ![] bcast_S_S12800000x16 (constant (F := Ideal) S_ .f32 0x7FC00000#32)) := by
  simp only [hostOps1, List.drop_succ_cons, List.drop_zero]
  after_results_simp
  simp only [cast_eq]

/-- The first gather's result, as a term of the source words and the scaled features it starts from. -/
theorem v13_of (V : Valuation τ sig (Elt Ideal)) :
    (StableHlo.after hostOps1 V (Proc.devRef .tc main_v13) : S12800000x16.Idx → EReal)
      = select (broadcastInDim S12800000x16 ![0] bcast_S12800000_S12800000x16_0
          (inRange (idxCol (V (Proc.devRef .tc main_v1)))))
        (Host.gather gather_S200000x16_S12800000x1_S12800000x16_1_0_n_n_0_1_116
          (V (Proc.devRef .tc main_v12_1) : S200000x16.Idx → EReal) (idxCol (V (Proc.devRef .tc main_v1))))
        (broadcastInDim S12800000x16 ![] bcast_S_S12800000x16 (constant (F := Ideal) S_ .f32 0x7FC00000#32)) := by
  have hs : (hostOps1 : List (HloOp τ sig (Elt Ideal)))
      = List.take 8 hostOps1 ++ (List.take 10 (List.drop 8 hostOps1) ++ List.drop 10 (List.drop 8 hostOps1)) := by
    rw [List.take_append_drop, List.take_append_drop]
  rw [hs, after_append, after_append, partC1_v13, partB1_v12, partB1_v5, partB1_v12_1, partA1_v5, partA1_v12_1]

/-- The first scatter's result, as a term of the destination words and the gathered rows it starts from. -/
theorem v16_of (V : Valuation τ sig (Elt Ideal)) :
    (StableHlo.after hostOps1_1 V (Proc.devRef .tc main_v16) : S200000x16.Idx → EReal)
      = Host.scatterAdd (F := Ideal) (φ := .f32) scatter_S200000x16_S12800000x1_S12800000x16_1_0_0_1
        (broadcastInDim S200000x16 ![] bcast_S_S200000x16 (constant (F := Ideal) S_ .f32 0x00000000#32))
        (broadcastInDim S12800000x1 ![0] bcast_S12800000_S12800000x1_0
          (V (Proc.devRef .tc main_v3) : IVec S12800000 32))
        (V (Proc.devRef .tc main_v13) : S12800000x16.Idx → EReal) := by
  after_results

/-- Entry (e, k) of the first gather's result: the scaled feature at the source row of edge e and channel k. -/
theorem gathered1 (c : Dev nD)
    (hsrc : ∀ e : Fin 12800000, 0 ≤ (Cert.Gcn.srcW (m ((c : Thread nD τ).loc main_arg5)) e).toInt
      ∧ (Cert.Gcn.srcW (m ((c : Thread nD τ).loc main_arg5)) e).toInt < 200000)
    (e : Fin 12800000) (k : Fin 16) :
    (W3 m ρ c (Proc.devRef .tc main_v13) : S12800000x16.Idx → EReal) (ix2 e k)
      = scaled1 m ρ c (ix2 (Cert.Gcn.row (Cert.Gcn.srcW (m ((c : Thread nD τ).loc main_arg5)) e)) k) := by
  have hw : (W2 m ρ c (Proc.devRef .tc main_v1) : IVec S12800000 32) (ix1 e)
      = Cert.Gcn.srcW (m ((c : Thread nD τ).loc main_arg5)) e := by
    rw [kept_W2_v1]; exact src_words m ρ c e
  refine (congrFun (v13_of (W2 m ρ c)) (ix2 e k)).trans ?_
  rw [guarded_rows_apply _ rfl rfl rfl rfl rfl rfl _ _ _ _ e k (by rw [hw]; exact (hsrc e).1)
    (by rw [hw]; exact (hsrc e).2), hw]

/-! ### The second gather and scatter -/

set_option maxHeartbeats 1000000 in
/-- The first eight operations of the second gather leave the position column of the source words … -/
theorem partA2_v5 (V : Valuation τ sig (Elt Ideal)) :
    (StableHlo.after (List.take 8 hostOps3) V (Proc.devRef .tc main_call1_v5) : IVec S12800000x1 32)
      = idxCol (V (Proc.devRef .tc main_v1)) := by
  simp only [hostOps3, List.take_succ_cons, List.take_zero]
  after_results_simp
  simp only [cast_eq]
  rfl

set_option maxHeartbeats 1000000 in
/-- … and leave the scaled features alone. -/
theorem partA2_v12_1 (V : Valuation τ sig (Elt Ideal)) :
    StableHlo.after (List.take 8 hostOps3) V (Proc.devRef .tc main_v19_1) = V (Proc.devRef .tc main_v19_1) := by
  simp only [hostOps3, List.take_succ_cons, List.take_zero]
  after_results_simp

set_option maxHeartbeats 1000000 in
/-- The next ten operations leave the range test of the position column … -/
theorem partB2_v12 (F : Valuation τ sig (Elt Ideal)) :
    (StableHlo.after (List.take 10 (List.drop 8 hostOps3)) F (Proc.devRef .tc main_call1_v12) : IVec S12800000 1)
      = inRange (F (Proc.devRef .tc main_call1_v5)) := by
  simp only [hostOps3, List.drop_succ_cons, List.drop_zero, List.take_succ_cons, List.take_zero]
  after_results_simp
  simp only [cast_eq]
  rfl

set_option maxHeartbeats 1000000 in
/-- … and leave the position column … -/
theorem partB2_v5 (F : Valuation τ sig (Elt Ideal)) :
    StableHlo.after (List.take 10 (List.drop 8 hostOps3)) F (Proc.devRef .tc main_call1_v5)
      = F (Proc.devRef .tc main_call1_v5) := by
  simp only [hostOps3, List.drop_succ_cons, List.drop_zero, List.take_succ_cons, List.take_zero]
  after_results_simp

set_option maxHeartbeats 1000000 in
/-- … and the scaled features alone. -/
theorem partB2_v12_1 (F : Valuation τ sig (Elt Ideal)) :
    StableHlo.after (List.take 10 (List.drop 8 hostOps3)) F (Proc.devRef .tc main_v19_1)
      = F (Proc.devRef .tc main_v19_1) := by
  simp only [hostOps3, List.drop_succ_cons, List.drop_zero, List.take_succ_cons, List.take_zero]
  after_results_simp

set_option maxHeartbeats 1000000 in
/-- The last five operations: the row gather, and the select between the gathered row and the fill. -/
theorem partC2_v13 (G : Valuation τ sig (Elt Ideal)) :
    (StableHlo.after (List.drop 10 (List.drop 8 hostOps3)) G (Proc.devRef .tc main_v20) : S12800000x2.Idx → EReal)
      = select (broadcastInDim S12800000x2 ![0] bcast_S12800000_S12800000x2_0
          (G (Proc.devRef .tc main_call1_v12) : IVec S12800000 1))
        (Host.gather gather_S200000x2_S12800000x1_S12800000x2_1_0_n_n_0_1_12
          (G (Proc.devRef .tc main_v19_1) : S200000x2.Idx → EReal) (G (Proc.devRef .tc main_call1_v5)))
        (broadcastInDim S12800000x2 ![] bcast_S_S12800000x2 (constant (F := Ideal) S_ .f32 0x7FC00000#32)) := by
  simp only [hostOps3, List.drop_succ_cons, List.drop_zero]
  after_results_simp
  simp only [cast_eq]

/-- The second gather's result, as a term of the source words and the scaled features it starts from. -/
theorem v20_of (V : Valuation τ sig (Elt Ideal)) :
    (StableHlo.after hostOps3 V (Proc.devRef .tc main_v20) : S12800000x2.Idx → EReal)
      = select (broadcastInDim S12800000x2 ![0] bcast_S12800000_S12800000x2_0
          (inRange (idxCol (V (Proc.devRef .tc main_v1)))))
        (Host.gather gather_S200000x2_S12800000x1_S12800000x2_1_0_n_n_0_1_12
          (V (Proc.devRef .tc main_v19_1) : S200000x2.Idx → EReal) (idxCol (V (Proc.devRef .tc main_v1))))
        (broadcastInDim S12800000x2 ![] bcast_S_S12800000x2 (constant (F := Ideal) S_ .f32 0x7FC00000#32)) := by
  have hs : (hostOps3 : List (HloOp τ sig (Elt Ideal)))
      = List.take 8 hostOps3 ++ (List.take 10 (List.drop 8 hostOps3) ++ List.drop 10 (List.drop 8 hostOps3)) := by
    rw [List.take_append_drop, List.take_append_drop]
  rw [hs, after_append, after_append, partC2_v13, partB2_v12, partB2_v5, partB2_v12_1, partA2_v5, partA2_v12_1]

/-- The second scatter's result, as a term of the destination words and the gathered rows it starts from. -/
theorem v23_of (V : Valuation τ sig (Elt Ideal)) :
    (StableHlo.after hostOps3_1 V (Proc.devRef .tc main_v23) : S200000x2.Idx → EReal)
      = Host.scatterAdd (F := Ideal) (φ := .f32) scatter_S200000x2_S12800000x1_S12800000x2_1_0_0_1
        (broadcastInDim S200000x2 ![] bcast_S_S200000x2 (constant (F := Ideal) S_ .f32 0x00000000#32))
        (broadcastInDim S12800000x1 ![0] bcast_S12800000_S12800000x1_0
          (V (Proc.devRef .tc main_v3) : IVec S12800000 32))
        (V (Proc.devRef .tc main_v20) : S12800000x2.Idx → EReal) := by
  after_results

/-- Entry (e, k) of the second gather's result: the scaled feature at the source row of edge e and channel k. -/
theorem gathered2 (c : Dev nD)
    (hsrc : ∀ e : Fin 12800000, 0 ≤ (Cert.Gcn.srcW (m ((c : Thread nD τ).loc main_arg5)) e).toInt
      ∧ (Cert.Gcn.srcW (m ((c : Thread nD τ).loc main_arg5)) e).toInt < 200000)
    (e : Fin 12800000) (k : Fin 2) :
    (W7 m ρ c (Proc.devRef .tc main_v20) : S12800000x2.Idx → EReal) (ix2 e k)
      = scaled2 m ρ c (ix2 (Cert.Gcn.row (Cert.Gcn.srcW (m ((c : Thread nD τ).loc main_arg5)) e)) k) := by
  have hw : (W6 m ρ c (Proc.devRef .tc main_v1) : IVec S12800000 32) (ix1 e)
      = Cert.Gcn.srcW (m ((c : Thread nD τ).loc main_arg5)) e := by
    rw [kept_W6_v1]; exact src_words m ρ c e
  refine (congrFun (v20_of (W6 m ρ c)) (ix2 e k)).trans ?_
  rw [guarded_rows_apply _ rfl rfl rfl rfl rfl rfl _ _ _ _ e k (by rw [hw]; exact (hsrc e).1)
    (by rw [hw]; exact (hsrc e).2), hw]

end Agg

open Agg

/-! ## The two aggregations -/

/-- The first aggregation, at node i and channel f. -/
theorem host_agg1 (c : Dev nD)
    (hsrc : ∀ e : Fin 12800000, 0 ≤ (Cert.Gcn.srcW (m ((c : Thread nD τ).loc main_arg5)) e).toInt
      ∧ (Cert.Gcn.srcW (m ((c : Thread nD τ).loc main_arg5)) e).toInt < 200000)
    (i : Fin 200000) (f : Fin 16) :
    (V4 m ρ c main_v16 : S200000x16.Idx → EReal) (ix2 i f)
      = 0 + ∑ e ∈ Cert.Gcn.lands (m ((c : Thread nD τ).loc main_arg5)) i,
          scaled1 m ρ c (ix2 (Cert.Gcn.row (Cert.Gcn.srcW (m ((c : Thread nD τ).loc main_arg5)) e)) f) := by
  dsimp only [V4, W4]
  refine (congrFun (v16_of (W3 m ρ c)) (ix2 i f)).trans ?_
  rw [zeros_scatter_apply _ rfl rfl rfl rfl]
  unfold Cert.Gcn.lands
  refine congrArg (fun s : EReal => 0 + s) (Finset.sum_congr (Finset.filter_congr fun e _ => ?_) (fun e _ => ?_))
  · rw [kept_W3_v3, dst_words]
  · exact gathered1 m ρ c hsrc e f

/-- The second aggregation, at node i and channel g. -/
theorem host_agg2 (c : Dev nD)
    (hsrc : ∀ e : Fin 12800000, 0 ≤ (Cert.Gcn.srcW (m ((c : Thread nD τ).loc main_arg5)) e).toInt
      ∧ (Cert.Gcn.srcW (m ((c : Thread nD τ).loc main_arg5)) e).toInt < 200000)
    (i : Fin 200000) (g : Fin 2) :
    (V8 m ρ c main_v23 : S200000x2.Idx → EReal) (ix2 i g)
      = 0 + ∑ e ∈ Cert.Gcn.lands (m ((c : Thread nD τ).loc main_arg5)) i,
          scaled2 m ρ c (ix2 (Cert.Gcn.row (Cert.Gcn.srcW (m ((c : Thread nD τ).loc main_arg5)) e)) g) := by
  dsimp only [V8, W8]
  refine (congrFun (v23_of (W7 m ρ c)) (ix2 i g)).trans ?_
  rw [zeros_scatter_apply _ rfl rfl rfl rfl]
  unfold Cert.Gcn.lands
  refine congrArg (fun s : EReal => 0 + s) (Finset.sum_congr (Finset.filter_congr fun e _ => ?_) (fun e _ => ?_))
  · rw [kept_W7_v3, dst_words]
  · exact gathered2 m ρ c hsrc e g

end Cert.KernelIdeal.Hand

end
-- ==== Proof.LibDot.lean ====
/-
  A matrix product with one contracted axis, read at one element of its result.

  A product of a rank-2 left operand and a rank-2 right operand with a single contracted axis on each side and
  no batch axis is, at an output position, the sum over the contracted coordinate of the two operands' entries
  there. The file states this for the three arrangements of axes a dense layer meets: rows by columns
  (left contracted on axis 1, right on axis 0), a left operand contracted on its FIRST axis against a right
  operand contracted on its last (the product written transposed), and both operands contracted on their first
  axis. Each lemma is generic in the extents and takes the dimension record's lists as hypotheses, which a
  printed record supplies by rfl.
-/
import Idealize.ShloMosaic.PureOps.Ideal
import Idealize.ShloMosaic.PureOps.Ideal.Laws
import Idealize.ShloMosaic.Lib.ValueIdx

open scoped BigOperators

namespace Cert.Lib.Dot

open Idealize.ShloMosaic
open Idealize.ShloMosaic.ValueIdx

variable {sl sr so : Shape} (d : DotDims sl sr so)

/-- Two reads of an index at positions with equal values agree. -/
theorem idx_val_congr {s : Shape} (j : s.Idx) (p q : Nat) (hp : p < s.rank) (hq : q < s.rank) (h : p = q) :
    (j ⟨p, hp⟩).val = (j ⟨q, hq⟩).val := by subst h; rfl

/-- With no batch axis and one kept left axis, the left operand's index on that axis is the result's first
    coordinate. -/
theorem lhsIdx_val_kept {nl : Fin sl.rank} (hb : d.lhsBatch = []) (hn : d.lhsNonContracting = [nl])
    (j : so.Idx) (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  exact idx_val_congr j _ _ _ _ (by simp [hb, hn])

/-- With no batch axis, one kept left axis and one kept right axis, the right operand's index on its kept axis
    is the result's second coordinate. -/
theorem rhsIdx_val_kept {nl : Fin sl.rank} {nr : Fin sr.rank} (hlb : d.lhsBatch = []) (hrb : d.rhsBatch = [])
    (hln : d.lhsNonContracting = [nl]) (hrn : d.rhsNonContracting = [nr])
    (j : so.Idx) (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hrn]; exact List.mem_singleton.mpr rfl
  unfold DotDims.rhsIdx
  rw [dif_neg hnb, dif_pos hmem]
  simp only [Fin.val_cast]
  exact idx_val_congr j _ _ _ _ (by simp [hlb, hln, hrn])

/-- One contracted axis: the contraction shape has rank one. -/
theorem contr_rank_one {cl : Fin sl.rank} (hc : d.lhsContracting = [cl]) : d.contr.rank = 1 := by
  rw [d.rank_contr, hc]; rfl

/-- One contracted axis: the contraction shape's extent is the left operand's extent on that axis. -/
theorem contr_size_one {cl : Fin sl.rank} (hc : d.lhsContracting = [cl]) :
    d.contr.size ⟨0, by rw [contr_rank_one d hc]; exact Nat.one_pos⟩ = sl.size cl := by
  have h := d.size_contr 0 (by rw [hc]; exact Nat.one_pos)
  rw [h]
  exact congrArg sl.size (by simp [hc])

/-! ## The three arrangements, as sums over the contracted coordinate -/

section Arrangements

open Cert.Lib.Dot

/-- Rows by columns: the left operand [M, K] contracted on axis 1, the right [K, N] on axis 0. -/
theorem sum_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 p k := by
    funext a; refine Fin.ext ?_
    match a with
    | ⟨0, _⟩ => exact lhsIdx_val_kept d hlb hln _ _ Nat.zero_lt_two
    | ⟨1, _⟩ => exact (d.lhsIdx_val_of_single hlc _ _).trans (contrEquiv1_symm_val d K _ _ k)
  have e2 : d.rhsIdx (ix2 p q) ((contrEquiv1 d K (contr_rank_one d hlc) (contr_size_one d hlc)).symm k) = ix2 k q := by
    funext a; refine Fin.ext ?_
    match a with
    | ⟨0, _⟩ => exact (d.rhsIdx_val_of_single hrc _ _).trans (contrEquiv1_symm_val d K _ _ k)
    | ⟨1, _⟩ => exact rhsIdx_val_kept d hlb hrb hln hrn _ _ Nat.one_lt_two
  rw [e1, e2]

/-- The product written transposed: the left operand [K, M] contracted on axis 0, the right [N, K] on axis 1;
    the result is [M, N]. -/
theorem sum_cols_rows {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (l : FVec Ideal ⟨2, ![K, M]⟩ φ₁) (r : FVec Ideal ⟨2, ![N, K]⟩ φ₂) (p : Fin M) (q : Fin N) :
    ∑ k : d.contr.Idx, l (d.lhsIdx (ix2 p q) k) * r (d.rhsIdx (ix2 p q) k) = ∑ k : Fin K, l (ix2 k p) * r (ix2 q k) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 k p := by
    funext a; refine Fin.ext ?_
    match a with
    | ⟨0, _⟩ => exact (d.lhsIdx_val_of_single hlc _ _).trans (contrEquiv1_symm_val d K _ _ k)
    | ⟨1, _⟩ => exact lhsIdx_val_kept d hlb hln _ _ Nat.zero_lt_two
  have e2 : d.rhsIdx (ix2 p q) ((contrEquiv1 d K (contr_rank_one d hlc) (contr_size_one d hlc)).symm k) = ix2 q k := by
    funext a; refine Fin.ext ?_
    match a with
    | ⟨0, _⟩ => exact rhsIdx_val_kept d hlb hrb hln hrn _ _ Nat.one_lt_two
    | ⟨1, _⟩ => exact (d.rhsIdx_val_of_single hrc _ _).trans (contrEquiv1_symm_val d K _ _ k)
  rw [e1, e2]

/-- Both operands contracted on their first axis: the left [K, M], the right [K, N]; the result is [M, N]. -/
theorem sum_cols_cols {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (l : FVec Ideal ⟨2, ![K, M]⟩ φ₁) (r : FVec Ideal ⟨2, ![K, N]⟩ φ₂) (p : Fin M) (q : Fin N) :
    ∑ k : d.contr.Idx, l (d.lhsIdx (ix2 p q) k) * r (d.rhsIdx (ix2 p q) k) = ∑ k : Fin K, l (ix2 k p) * r (ix2 k q) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 k p := by
    funext a; refine Fin.ext ?_
    match a with
    | ⟨0, _⟩ => exact (d.lhsIdx_val_of_single hlc _ _).trans (contrEquiv1_symm_val d K _ _ k)
    | ⟨1, _⟩ => exact lhsIdx_val_kept d hlb hln _ _ Nat.zero_lt_two
  have e2 : d.rhsIdx (ix2 p q) ((contrEquiv1 d K (contr_rank_one d hlc) (contr_size_one d hlc)).symm k) = ix2 k q := by
    funext a; refine Fin.ext ?_
    match a with
    | ⟨0, _⟩ => exact (d.rhsIdx_val_of_single hrc _ _).trans (contrEquiv1_symm_val d K _ _ k)
    | ⟨1, _⟩ => exact rhsIdx_val_kept d hlb hrb hln hrn _ _ Nat.one_lt_two
  rw [e1, e2]

/-! ## The three arrangements as properties of a dimension record (a printed record proves each by six rfl's) -/

/-- Rows by columns: left contracted on axis 1, right on axis 0, no batch axis. -/
def IsRowsCols {M K N : Nat} (d : DotDims ⟨2, ![M, K]⟩ ⟨2, ![K, N]⟩ ⟨2, ![M, N]⟩) : Prop :=
  d.lhsContracting = [1] ∧ d.rhsContracting = [0] ∧ d.lhsNonContracting = [0] ∧ d.rhsNonContracting = [1]
    ∧ d.lhsBatch = [] ∧ d.rhsBatch = []

/-- Left contracted on axis 0, right on axis 1, no batch axis. -/
def IsColsRows {M K N : Nat} (d : DotDims ⟨2, ![K, M]⟩ ⟨2, ![N, K]⟩ ⟨2, ![M, N]⟩) : Prop :=
  d.lhsContracting = [0] ∧ d.rhsContracting = [1] ∧ d.lhsNonContracting = [1] ∧ d.rhsNonContracting = [0]
    ∧ d.lhsBatch = [] ∧ d.rhsBatch = []

/-- Both contracted on axis 0, no batch axis. -/
def IsColsCols {M K N : Nat} (d : DotDims ⟨2, ![K, M]⟩ ⟨2, ![K, N]⟩ ⟨2, ![M, N]⟩) : Prop :=
  d.lhsContracting = [0] ∧ d.rhsContracting = [0] ∧ d.lhsNonContracting = [1] ∧ d.rhsNonContracting = [1]
    ∧ d.lhsBatch = [] ∧ d.rhsBatch = []

/-! ## The host product and the kernel's product into a zero accumulator, read at an element -/

/-- The host's rows-by-columns product at (p, q). -/
theorem hostDot_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    Host.dotGeneral (F := Ideal) d none l r (ix2 p q) = ∑ k : Fin K, l (ix2 p k) * r (ix2 k q) :=
  (Ideal.dotGeneral_apply d none .single l r (ix2 p q)).trans (sum_rows_cols d hlc hrc hln hrn hlb hrb l r p q)

/-- The kernel's rows-by-columns product into a zero accumulator at (p, q). -/
theorem matmul0_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 p k) * r (ix2 k q) :=
  (Ideal.matmul_constant_zero_apply d none l r (ix2 p q)).trans (sum_rows_cols d hlc hrc hln hrn hlb hrb l r p q)

/-- The kernel's transposed product into a zero accumulator at (p, q). -/
theorem matmul0_cols_rows {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (l : FVec Ideal ⟨2, ![K, M]⟩ φ₁) (r : FVec Ideal ⟨2, ![N, K]⟩ φ₂) (p : Fin M) (q : Fin N) :
    matmul (F := Ideal) d none l r (constant ⟨2, ![M, N]⟩ .f32 0x00000000#32) (ix2 p q)
      = ∑ k : Fin K, l (ix2 k p) * r (ix2 q k) :=
  (Ideal.matmul_constant_zero_apply d none l r (ix2 p q)).trans (sum_cols_rows d hlc hrc hln hrn hlb hrb l r p q)

/-- The kernel's product of two operands contracted on their first axes, into a zero accumulator, at (p, q). -/
theorem matmul0_cols_cols {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (l : FVec Ideal ⟨2, ![K, M]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 k p) * r (ix2 k q) :=
  (Ideal.matmul_constant_zero_apply d none l r (ix2 p q)).trans (sum_cols_cols d hlc hrc hln hrn hlb hrb l r p q)

/-- The host's rows-by-columns product at (p, q), from the record's property. -/
theorem hostDot_rc {M K N : Nat} {φ₁ φ₂ : FTy} (d : DotDims ⟨2, ![M, K]⟩ ⟨2, ![K, N]⟩ ⟨2, ![M, N]⟩) (h : IsRowsCols d)
    (l : FVec Ideal ⟨2, ![M, K]⟩ φ₁) (r : FVec Ideal ⟨2, ![K, N]⟩ φ₂) (p : Fin M) (q : Fin N) :
    Host.dotGeneral (F := Ideal) d none l r (ix2 p q) = ∑ k : Fin K, l (ix2 p k) * r (ix2 k q) :=
  hostDot_rows_cols d h.1 h.2.1 h.2.2.1 h.2.2.2.1 h.2.2.2.2.1 h.2.2.2.2.2 l r p q

/-- The kernel's rows-by-columns product into zeros at (p, q), from the record's property. -/
theorem matmul0_rc {M K N : Nat} {φ₁ φ₂ : FTy} (d : DotDims ⟨2, ![M, K]⟩ ⟨2, ![K, N]⟩ ⟨2, ![M, N]⟩) (h : IsRowsCols d)
    (l : FVec Ideal ⟨2, ![M, K]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 p k) * r (ix2 k q) :=
  matmul0_rows_cols d h.1 h.2.1 h.2.2.1 h.2.2.2.1 h.2.2.2.2.1 h.2.2.2.2.2 l r p q

/-- The kernel's transposed product into zeros at (p, q), from the record's property. -/
theorem matmul0_cr {M K N : Nat} {φ₁ φ₂ : FTy} (d : DotDims ⟨2, ![K, M]⟩ ⟨2, ![N, K]⟩ ⟨2, ![M, N]⟩) (h : IsColsRows d)
    (l : FVec Ideal ⟨2, ![K, M]⟩ φ₁) (r : FVec Ideal ⟨2, ![N, K]⟩ φ₂) (p : Fin M) (q : Fin N) :
    matmul (F := Ideal) d none l r (constant ⟨2, ![M, N]⟩ .f32 0x00000000#32) (ix2 p q)
      = ∑ k : Fin K, l (ix2 k p) * r (ix2 q k) :=
  matmul0_cols_rows d h.1 h.2.1 h.2.2.1 h.2.2.2.1 h.2.2.2.2.1 h.2.2.2.2.2 l r p q

/-- The kernel's product of two operands contracted on their first axes, into zeros, at (p, q), from the record's
    property. -/
theorem matmul0_cc {M K N : Nat} {φ₁ φ₂ : FTy} (d : DotDims ⟨2, ![K, M]⟩ ⟨2, ![K, N]⟩ ⟨2, ![M, N]⟩) (h : IsColsCols d)
    (l : FVec Ideal ⟨2, ![K, M]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 k p) * r (ix2 k q) :=
  matmul0_cols_cols d h.1 h.2.1 h.2.2.1 h.2.2.2.1 h.2.2.2.2.1 h.2.2.2.2.2 l r p q

end Arrangements

end Cert.Lib.Dot
-- ==== Proof.LibRowsCols.lean ====
/-
  Rows and columns of a rank-2 vector read at an index, at any extents.

  A vector of `a` entries viewed as an `a × 1` column reads its entry at every `(i, 0)`; a column spread across `b`
  lanes reads, at `(i, j)`, the column's entry `i`. A sum over the lane axis of an `a × b` vector, at row `i`, is the
  sum of that row's entries; over the sublane axis, at lane `j`, the sum of that lane's column. A maximum over the lane
  axis, at row `i`, is the maximum of the row's entries taken from the accumulator's value, in any order.
-/
import Idealize.ShloMosaic.PureOps.Ideal.Laws
import Idealize.ShloMosaic.Lib.Pipeline.Value
import Idealize.ShloMosaic.Lib.ValueIdx

noncomputable section

namespace Idealize.ShloMosaic.RowsCols

open Idealize.ShloMosaic Idealize.ShloMosaic.ValueIdx

variable {α : Type}

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

variable {φ : FTy}

/-- The sum over the lanes of an `[a, b]` vector, at row `i`: the sum of the row. -/
theorem laneSum_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) := by
  rw [Ideal.multiReduction_add_single]
  show ∑ k : Fin b, src (h.lift (ix1 i) k) = _
  refine Finset.sum_congr rfl fun k _ => congrArg src (funext fun c => Fin.ext ?_)
  match c with
  | ⟨0, _⟩ => rfl
  | ⟨1, _⟩ => rfl

/-- The sum over the sublanes of an `[a, b]` vector, at lane `j`: the sum of the column. -/
theorem sublaneSum_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) := by
  rw [Ideal.multiReduction_add_single]
  show ∑ k : Fin a, src (h.lift (ix1 j) k) = _
  refine Finset.sum_congr rfl fun k _ => congrArg src (funext fun c => Fin.ext ?_)
  match c with
  | ⟨0, _⟩ => rfl
  | ⟨1, _⟩ => rfl

/-- The maximum over the lanes of an `[a, b]` vector, at row `i`: the maximum of the row, from the accumulator's value. -/
theorem laneMax_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  show (Finset.univ : Finset (Fin b)).fold max (Ideal.ofBits φ acc) (src ∘ h.lift (ix1 i)) = _
  refine congrArg (fun g => (Finset.univ : Finset (Fin b)).fold max (Ideal.ofBits φ acc) g)
    (funext fun k => congrArg src (funext fun c => Fin.ext ?_))
  match c with
  | ⟨0, _⟩ => rfl
  | ⟨1, _⟩ => rfl

end Idealize.ShloMosaic.RowsCols

end
-- ==== Proof.KI.Region0.lean ====
/-
  The first dense map, read as whole arrays. The region walks the 200000 node rows in 25 blocks of 8000; at block t it
  multiplies rows 8000·t … 8000·t + 7999 of the features by the 2 × 16 weight matrix (a matrix product into zeros, the
  two changes of float format being the identity on the extended reals), writes the product back as block t of the
  first result, and writes the product scaled row by row by the node weights as block t of the second result. The
  blocks tile both results, so after the region the first result is x · W at every node and channel, and the second is
  (x · W)[i, f] · w[i].
-/
import proofs.«426294_j21277267984741_3_alg».proof.Proof.Gen.KernelIdeal.Frame
import proofs.«426294_j21277267984741_3_alg».proof.Proof.LibDot
import proofs.«426294_j21277267984741_3_alg».proof.Proof.LibRowsCols
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

theorem hz0 : (![0, 0] : Fin 2 → Nat) = fun _ => 0 := funext fun a => by fin_cases a <;> rfl

/-- The product block at row p and channel q: the row of the feature block against the column of the weights. -/
theorem lin0_pay1_apply (x0 : Vec Ideal S8000x2 .f32) (x1 : Vec Ideal S2x16 .f32) (p : Fin 8000) (q : Fin 16) :
    k0_pay1 (F := Ideal) x0 x1 (ix2 p q) = ∑ k : Fin 2, x0 (ix2 p k) * x1 (ix2 k q) := by
  unfold k0_pay1
  exact Cert.Lib.Dot.matmul0_rows_cols dot_S8000x2_S2x16_S8000x16_1_0_0_1_n_n rfl rfl rfl rfl rfl rfl _ _ p q

/-- The scaled block at row p and channel q: the product there times the row's weight. -/
theorem lin0_pay2_apply (x0 : Vec Ideal S8000x2 .f32) (x1 : Vec Ideal S2x16 .f32) (x2 : Vec Ideal S8000x1 .f32)
    (p : Fin 8000) (q : Fin 16) :
    k0_pay2 (F := Ideal) x0 x1 x2 (ix2 p q) = (∑ k : Fin 2, x0 (ix2 p k) * x1 (ix2 k q)) * x2 (ix2 p (0 : Fin 1)) := by
  unfold k0_pay2
  show FloatOps.mulf (k0_pay1 (F := Ideal) x0 x1 (ix2 p q)) _ = _
  rw [lin0_pay1_apply, shapeCast_self, Idealize.ShloMosaic.RowsCols.broadcastTo_a1_ab_apply]
  rfl

/-- The product at any position of the block. -/
theorem lin0_pay1_at (x0 : Vec Ideal S8000x2 .f32) (x1 : Vec Ideal S2x16 .f32) (y : S8000x16.Idx) :
    k0_pay1 (F := Ideal) x0 x1 y = ∑ k : Fin 2, x0 (ix2 (n0 := 8000) (n1 := 2) (y 0) k) * x1 (ix2 (n0 := 2) (n1 := 16) k (y 1)) := by
  obtain ⟨p, q, rfl⟩ : ∃ (p : Fin 8000) (q : Fin 16), y = ix2 p q := ⟨y 0, y 1, eq_ix2 y⟩
  exact lin0_pay1_apply x0 x1 p q

/-- The scaled product at any position of the block. -/
theorem lin0_pay2_at (x0 : Vec Ideal S8000x2 .f32) (x1 : Vec Ideal S2x16 .f32) (x2 : Vec Ideal S8000x1 .f32) (y : S8000x16.Idx) :
    k0_pay2 (F := Ideal) x0 x1 x2 y
      = (∑ k : Fin 2, x0 (ix2 (n0 := 8000) (n1 := 2) (y 0) k) * x1 (ix2 (n0 := 2) (n1 := 16) k (y 1)))
          * x2 (ix2 (n0 := 8000) (n1 := 1) (y 0) (0 : Fin 1)) := by
  obtain ⟨p, q, rfl⟩ : ∃ (p : Fin 8000) (q : Fin 16), y = ix2 p q := ⟨y 0, y 1, eq_ix2 y⟩
  exact lin0_pay2_apply x0 x1 x2 p q

/-- Where each window's block sits at grid point t: the row blocks move with t, the weight matrix stays. -/
theorem lin0_idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

/-- The feature block at point t is rows 8000·t … of the feature array. -/
theorem lin0_blk0 (c : Dev nD) (t : Fin cfg0.N) (y : S8000x2.Idx) (i : S200000x2.Idx)
    (h0 : (i 0).val = t.val * 8000 + (y 0).val) (h1 : (i 1).val = (y 1).val) :
    (iblk0 V c 0 t : Vec Ideal S8000x2 .f32) y = (V c main_arg0 : S200000x2.Idx → EReal) i := by
  obtain ⟨e0, e1, -⟩ := lin0_idx_facts t
  unfold iblk0
  rw [View.read_apply]
  show V c main_arg0 _ = V c main_arg0 _
  congr 1
  funext a
  apply Fin.ext
  match a with
  | ⟨0, _⟩ => show win0_0.index t 0 * 8000 + 1 * (y 0).val = (i 0).val; rw [e0, h0]; omega
  | ⟨1, _⟩ => show win0_0.index t 1 * 2 + 1 * (y 1).val = (i 1).val; rw [e1, h1]; omega

/-- The weight block at every point is the whole weight matrix. -/
theorem lin0_blk1 (c : Dev nD) (t : Fin cfg0.N) (y : S2x16.Idx) :
    (iblk0 V c 1 t : Vec Ideal S2x16 .f32) y = (V c main_arg1 : S2x16.Idx → EReal) y := by
  obtain ⟨-, -, e0, e1, -⟩ := lin0_idx_facts t
  unfold iblk0
  rw [View.read_apply]
  show V c main_arg1 _ = V c main_arg1 _
  congr 1
  funext a
  apply Fin.ext
  match a with
  | ⟨0, _⟩ => show win0_1.index t 0 * 2 + 1 * (y 0).val = (y 0).val; rw [e0]; omega
  | ⟨1, _⟩ => show win0_1.index t 1 * 16 + 1 * (y 1).val = (y 1).val; rw [e1]; omega

/-- The weight-column block at point t is rows 8000·t … of the node weights. -/
theorem lin0_blk2 (c : Dev nD) (t : Fin cfg0.N) (y : S8000x1.Idx) (i : S200000x1.Idx)
    (h0 : (i 0).val = t.val * 8000 + (y 0).val) (h1 : (i 1).val = (y 1).val) :
    (iblk0 V c 2 t : Vec Ideal S8000x1 .f32) y = (V c main_v11 : S200000x1.Idx → EReal) i := by
  obtain ⟨-, -, -, -, e0, e1, -⟩ := lin0_idx_facts t
  unfold iblk0
  rw [View.read_apply]
  show V c main_v11 _ = V c main_v11 _
  congr 1
  funext a
  apply Fin.ext
  match a with
  | ⟨0, _⟩ => show win0_2.index t 0 * 8000 + 1 * (y 0).val = (i 0).val; rw [e0, h0]; omega
  | ⟨1, _⟩ => show win0_2.index t 1 * 1 + 1 * (y 1).val = (i 1).val; rw [e1, h1]; omega

/-- The first result as one function of the arrays the region finds: x · W. -/
def lin0_G3 (X : S200000x2.Idx → EReal) (Wt : S2x16.Idx → EReal) : S200000x16.Idx → EReal :=
  fun i => ∑ k : Fin 2, X (ix2 (n0 := 200000) (n1 := 2) (i 0) k) * Wt (ix2 (n0 := 2) (n1 := 16) k (i 1))

/-- The second result as one function of the arrays the region finds: (x · W) scaled by the node weight. -/
def lin0_G4 (X : S200000x2.Idx → EReal) (Wt : S2x16.Idx → EReal) (D : S200000x1.Idx → EReal) : S200000x16.Idx → EReal :=
  fun i => lin0_G3 X Wt i * D (ix2 (n0 := 200000) (n1 := 1) (i 0) (0 : Fin 1))

/-- What point t writes back to the first result is block t of x · W. -/
theorem lin0_flushed3 (c : Dev nD) (t : Fin cfg0.N) :
    (dat0 V c).flushed 3 t = ((cfg0.win 3).blk t).view.read (Elt Ideal) (lin0_G3 (V c main_arg0) (V c main_arg1)) := by
  obtain ⟨-, -, -, -, -, -, e0, e1, -⟩ := lin0_idx_facts t
  show (cfg0.win 3).cut (grid0.coords t) ((dat0 V c).after 3 t) = _
  rw [after0_3]
  unfold out0_3
  rw [View.canon_unit_zero hz0]
  simp only [View.ld_unit_zero (S := S8000x2) hz0, View.ld_unit_zero (S := S2x16) hz0]
  funext j
  show k0_pay1 (F := Ideal) (iblk0 V c 0 t) (iblk0 V c 1 t) j
    = lin0_G3 (V c main_arg0) (V c main_arg1) (((cfg0.win 3).blk t).view.emb j)
  refine (lin0_pay1_at (iblk0 V c 0 t) (iblk0 V c 1 t) j).trans ?_
  unfold lin0_G3
  refine Finset.sum_congr rfl fun k _ => ?_
  have hr : (((cfg0.win 3).blk t).view.emb j 0).val = t.val * 8000 + (j 0).val := by
    show win0_3.index t 0 * 8000 + 1 * (j 0).val = _
    rw [e0]; omega
  have hb : (iblk0 V c 0 t : Vec Ideal S8000x2 .f32) (ix2 (n0 := 8000) (n1 := 2) (j 0) k)
      = (V c main_arg0 : S200000x2.Idx → EReal) (ix2 (n0 := 200000) (n1 := 2) (((cfg0.win 3).blk t).view.emb j 0) k) :=
    lin0_blk0 V c t _ _ hr rfl
  have hc : (ix2 (n0 := 2) (n1 := 16) k (((cfg0.win 3).blk t).view.emb j 1) : S2x16.Idx) = ix2 (n0 := 2) (n1 := 16) k (j 1) := by
    funext a
    apply Fin.ext
    match a with
    | ⟨0, _⟩ => rfl
    | ⟨1, _⟩ => show win0_3.index t 1 * 16 + 1 * (j 1).val = (j 1).val; rw [e1]; omega
  rw [lin0_blk1 V c t, hb, hc]

/-- What point t writes back to the second result is block t of the scaled product. -/
theorem lin0_flushed4 (c : Dev nD) (t : Fin cfg0.N) :
    (dat0 V c).flushed 4 t
      = ((cfg0.win 4).blk t).view.read (Elt Ideal) (lin0_G4 (V c main_arg0) (V c main_arg1) (V c main_v11)) := by
  obtain ⟨-, -, -, -, -, -, -, -, e0, e1⟩ := lin0_idx_facts t
  show (cfg0.win 4).cut (grid0.coords t) ((dat0 V c).after 4 t) = _
  rw [after0_4]
  unfold out0_4
  rw [View.canon_unit_zero hz0]
  simp only [View.ld_unit_zero (S := S8000x2) hz0, View.ld_unit_zero (S := S2x16) hz0, View.ld_unit_zero (S := S8000x1) hz0]
  funext j
  show k0_pay2 (F := Ideal) (iblk0 V c 0 t) (iblk0 V c 1 t) (iblk0 V c 2 t) j
    = lin0_G4 (V c main_arg0) (V c main_arg1) (V c main_v11) (((cfg0.win 4).blk t).view.emb j)
  refine (lin0_pay2_at (iblk0 V c 0 t) (iblk0 V c 1 t) (iblk0 V c 2 t) j).trans ?_
  unfold lin0_G4 lin0_G3
  have hr : (((cfg0.win 4).blk t).view.emb j 0).val = t.val * 8000 + (j 0).val := by
    show win0_4.index t 0 * 8000 + 1 * (j 0).val = _
    rw [e0]; omega
  have hd : (iblk0 V c 2 t : Vec Ideal S8000x1 .f32) (ix2 (n0 := 8000) (n1 := 1) (j 0) (0 : Fin 1))
      = (V c main_v11 : S200000x1.Idx → EReal) (ix2 (n0 := 200000) (n1 := 1) (((cfg0.win 4).blk t).view.emb j 0) (0 : Fin 1)) :=
    lin0_blk2 V c t _ _ hr rfl
  rw [hd]
  refine congrArg (fun z : EReal => z * _) ?_
  refine Finset.sum_congr rfl fun k _ => ?_
  have hb : (iblk0 V c 0 t : Vec Ideal S8000x2 .f32) (ix2 (n0 := 8000) (n1 := 2) (j 0) k)
      = (V c main_arg0 : S200000x2.Idx → EReal) (ix2 (n0 := 200000) (n1 := 2) (((cfg0.win 4).blk t).view.emb j 0) k) :=
    lin0_blk0 V c t _ _ hr rfl
  have hc : (ix2 (n0 := 2) (n1 := 16) k (((cfg0.win 4).blk t).view.emb j 1) : S2x16.Idx) = ix2 (n0 := 2) (n1 := 16) k (j 1) := by
    funext a
    apply Fin.ext
    match a with
    | ⟨0, _⟩ => rfl
    | ⟨1, _⟩ => show win0_4.index t 1 * 16 + 1 * (j 1).val = (j 1).val; rw [e1]; omega
  rw [lin0_blk1 V c t, hb, hc]

/-- Node row r lies in the block of point r / 8000 of the first result. -/
theorem lin0_cover3 (i : S200000x16.Idx) :
    ∃ t : Fin cfg0.N, (cfg0.win 3).flush t = true ∧ i ∈ ((cfg0.win 3).blk t).view.set := by
  have hi0 : (i 0).val < 200000 := (i 0).isLt
  have hi1 : (i 1).val < 16 := (i 1).isLt
  have hN : cfg0.N = 25 := N_0
  let t : Fin cfg0.N := ⟨(i 0).val / 8000, by rw [hN]; omega⟩
  obtain ⟨-, -, -, -, -, -, e0, e1, -⟩ := lin0_idx_facts t
  refine ⟨t, flush0_3 t, ?_⟩
  show i ∈ ((View.whole main_v12_0).slice (win0_3.rect t)).set
  rw [View.set_slice_whole, Rect.mem_set_unit]
  intro a
  match a with
  | ⟨0, _⟩ =>
    show win0_3.index t 0 * 8000 ≤ (i 0).val ∧ (i 0).val < win0_3.index t 0 * 8000 + 8000
    rw [e0]; show (i 0).val / 8000 * 8000 ≤ (i 0).val ∧ (i 0).val < (i 0).val / 8000 * 8000 + 8000; omega
  | ⟨1, _⟩ =>
    show win0_3.index t 1 * 16 ≤ (i 1).val ∧ (i 1).val < win0_3.index t 1 * 16 + 16
    rw [e1]; omega

/-- Node row r lies in the block of point r / 8000 of the second result. -/
theorem lin0_cover4 (i : S200000x16.Idx) :
    ∃ t : Fin cfg0.N, (cfg0.win 4).flush t = true ∧ i ∈ ((cfg0.win 4).blk t).view.set := by
  have hi0 : (i 0).val < 200000 := (i 0).isLt
  have hi1 : (i 1).val < 16 := (i 1).isLt
  have hN : cfg0.N = 25 := N_0
  let t : Fin cfg0.N := ⟨(i 0).val / 8000, by rw [hN]; omega⟩
  obtain ⟨-, -, -, -, -, -, -, -, e0, e1⟩ := lin0_idx_facts t
  refine ⟨t, flush0_4 t, ?_⟩
  show i ∈ ((View.whole main_v12_1).slice (win0_4.rect t)).set
  rw [View.set_slice_whole, Rect.mem_set_unit]
  intro a
  match a with
  | ⟨0, _⟩ =>
    show win0_4.index t 0 * 8000 ≤ (i 0).val ∧ (i 0).val < win0_4.index t 0 * 8000 + 8000
    rw [e0]; show (i 0).val / 8000 * 8000 ≤ (i 0).val ∧ (i 0).val < (i 0).val / 8000 * 8000 + 8000; omega
  | ⟨1, _⟩ =>
    show win0_4.index t 1 * 16 ≤ (i 1).val ∧ (i 1).val < win0_4.index t 1 * 16 + 16
    rw [e1]; omega

/-- After the region the first result is x · W of the arrays the region found. -/
theorem lin0_final3 (c : Dev nD) : (dat0 V c).arrAt 3 cfg0.N = lin0_G3 (V c main_arg0) (V c main_arg1) :=
  (dat0 V c).arrAt_eq_of_cover 3 (lin0_G3 (V c main_arg0) (V c main_arg1)) (fun t _ => lin0_flushed3 V c t) lin0_cover3

/-- After the region the second result is x · W scaled by the node weights. -/
theorem lin0_final4 (c : Dev nD) : (dat0 V c).arrAt 4 cfg0.N = lin0_G4 (V c main_arg0) (V c main_arg1) (V c main_v11) :=
  (dat0 V c).arrAt_eq_of_cover 4 (lin0_G4 (V c main_arg0) (V c main_arg1) (V c main_v11)) (fun t _ => lin0_flushed4 V c t) lin0_cover4

/-- x · W at node i and channel f. -/
theorem lin0_G3_apply (X : S200000x2.Idx → EReal) (Wt : S2x16.Idx → EReal) (i : Fin 200000) (f : Fin 16) :
    lin0_G3 X Wt (ix2 i f) = ∑ k : Fin 2, X (ix2 i k) * Wt (ix2 k f) := rfl

/-- The scaled product at node i and channel f. -/
theorem lin0_G4_apply (X : S200000x2.Idx → EReal) (Wt : S2x16.Idx → EReal) (D : S200000x1.Idx → EReal) (i : Fin 200000) (f : Fin 16) :
    lin0_G4 X Wt D (ix2 i f) = (∑ k : Fin 2, X (ix2 i k) * Wt (ix2 k f)) * D (ix2 i (0 : Fin 1)) := rfl

end Cert.KernelIdeal.Hand

end
-- ==== Proof.KI.Region1.lean ====
/-
  The first layer's combine, read as a whole array. The region walks the 200000 node rows in 25 blocks of 8000; at
  block t it takes rows 8000·t … of the aggregated sums, of the plain dense map and of the node weights, and the bias
  row, and writes back max(agg · w + h · (w · w) + b, 0), row by row and channel by channel. The blocks tile the result.
-/
import proofs.«426294_j21277267984741_3_alg».proof.Proof.Gen.KernelIdeal.Frame
import proofs.«426294_j21277267984741_3_alg».proof.Proof.LibDot
import proofs.«426294_j21277267984741_3_alg».proof.Proof.LibRowsCols
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

theorem comb1_hz : (![0, 0] : Fin 2 → Nat) = fun _ => 0 := funext fun a => by fin_cases a <;> rfl

/-- A single row spread down a rows: at (i, j) it reads the row's entry j. -/
theorem comb1_row_spread {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- The combined block at row p and channel q: the aggregated sum times the row's weight, plus the dense map times the
    weight squared, plus the channel's bias, cut off below at zero. -/
theorem comb1_pay1_apply (w : Vec Ideal S8000x1 .f32) (agg : Vec Ideal S8000x16 .f32) (h : Vec Ideal S8000x16 .f32)
    (b : Vec Ideal S1x16 .f32) (p : Fin 8000) (q : Fin 16) :
    k1_pay1 (F := Ideal) w agg h b (ix2 p q)
      = max (agg (ix2 p q) * w (ix2 p (0 : Fin 1))
          + h (ix2 p q) * (w (ix2 p (0 : Fin 1)) * w (ix2 p (0 : Fin 1)))
          + b (ix2 (0 : Fin 1) q)) 0 := by
  unfold k1_pay1
  simp only [shapeCast_self]
  show max (agg (ix2 p q) * broadcastTo S8000x16 (w : FVec Ideal S8000x1 .f32) broadcasts_S8000x1_S8000x16 (ix2 p q)
      + h (ix2 p q) * broadcastTo S8000x16 (mulf (w : FVec Ideal S8000x1 .f32) w : FVec Ideal S8000x1 .f32) broadcasts_S8000x1_S8000x16 (ix2 p q)
      + broadcastTo S8000x16 (b : FVec Ideal S1x16 .f32) broadcasts_S1x16_S8000x16 (ix2 p q)) (Ideal.ofBits .f32 0x00000000#32) = _
  rw [Idealize.ShloMosaic.RowsCols.broadcastTo_a1_ab_apply, Idealize.ShloMosaic.RowsCols.broadcastTo_a1_ab_apply,
    comb1_row_spread, Ideal.ofBits_zero_f32]
  rfl

/-- The combined block at any position of the block. -/
theorem comb1_pay1_at (w : Vec Ideal S8000x1 .f32) (agg : Vec Ideal S8000x16 .f32) (h : Vec Ideal S8000x16 .f32)
    (b : Vec Ideal S1x16 .f32) (y : S8000x16.Idx) :
    k1_pay1 (F := Ideal) w agg h b y
      = max (agg y * w (ix2 (n0 := 8000) (n1 := 1) (y 0) (0 : Fin 1))
          + h y * (w (ix2 (n0 := 8000) (n1 := 1) (y 0) (0 : Fin 1)) * w (ix2 (n0 := 8000) (n1 := 1) (y 0) (0 : Fin 1)))
          + b (ix2 (n0 := 1) (n1 := 16) (0 : Fin 1) (y 1))) 0 := by
  obtain ⟨p, q, rfl⟩ : ∃ (p : Fin 8000) (q : Fin 16), y = ix2 p q := ⟨y 0, y 1, eq_ix2 y⟩
  exact comb1_pay1_apply w agg h b p q

/-- Where each window's block sits at grid point t: the row blocks move with t, the bias row stays. -/
theorem comb1_idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- The block of aggregated sums at point t is rows 8000·t … of the aggregated sums. -/
theorem comb1_blk0 (c : Dev nD) (t : Fin cfg1.N) (y : S8000x16.Idx) (i : S200000x16.Idx)
    (h0 : (i 0).val = t.val * 8000 + (y 0).val) (h1 : (i 1).val = (y 1).val) :
    (iblk1 V c 0 t : Vec Ideal S8000x16 .f32) y = (V c main_v16 : S200000x16.Idx → EReal) i := by
  obtain ⟨e0, e1, -⟩ := comb1_idx_facts t
  unfold iblk1
  rw [View.read_apply]
  show V c main_v16 _ = V c main_v16 _
  congr 1
  funext a
  apply Fin.ext
  match a with
  | ⟨0, _⟩ => show win1_0.index t 0 * 8000 + 1 * (y 0).val = (i 0).val; rw [e0, h0]; omega
  | ⟨1, _⟩ => show win1_0.index t 1 * 16 + 1 * (y 1).val = (i 1).val; rw [e1, h1]; omega

/-- The block of the dense map at point t is rows 8000·t … of the dense map. -/
theorem comb1_blk1 (c : Dev nD) (t : Fin cfg1.N) (y : S8000x16.Idx) (i : S200000x16.Idx)
    (h0 : (i 0).val = t.val * 8000 + (y 0).val) (h1 : (i 1).val = (y 1).val) :
    (iblk1 V c 1 t : Vec Ideal S8000x16 .f32) y = (V c main_v12_0 : S200000x16.Idx → EReal) i := by
  obtain ⟨-, -, e0, e1, -⟩ := comb1_idx_facts t
  unfold iblk1
  rw [View.read_apply]
  show V c main_v12_0 _ = V c main_v12_0 _
  congr 1
  funext a
  apply Fin.ext
  match a with
  | ⟨0, _⟩ => show win1_1.index t 0 * 8000 + 1 * (y 0).val = (i 0).val; rw [e0, h0]; omega
  | ⟨1, _⟩ => show win1_1.index t 1 * 16 + 1 * (y 1).val = (i 1).val; rw [e1, h1]; omega

/-- The weight-column block at point t is rows 8000·t … of the node weights. -/
theorem comb1_blk2 (c : Dev nD) (t : Fin cfg1.N) (y : S8000x1.Idx) (i : S200000x1.Idx)
    (h0 : (i 0).val = t.val * 8000 + (y 0).val) (h1 : (i 1).val = (y 1).val) :
    (iblk1 V c 2 t : Vec Ideal S8000x1 .f32) y = (V c main_v11 : S200000x1.Idx → EReal) i := by
  obtain ⟨-, -, -, -, e0, e1, -⟩ := comb1_idx_facts t
  unfold iblk1
  rw [View.read_apply]
  show V c main_v11 _ = V c main_v11 _
  congr 1
  funext a
  apply Fin.ext
  match a with
  | ⟨0, _⟩ => show win1_2.index t 0 * 8000 + 1 * (y 0).val = (i 0).val; rw [e0, h0]; omega
  | ⟨1, _⟩ => show win1_2.index t 1 * 1 + 1 * (y 1).val = (i 1).val; rw [e1, h1]; omega

/-- The bias block at every point is the whole bias row. -/
theorem comb1_blk3 (c : Dev nD) (t : Fin cfg1.N) (y : S1x16.Idx) :
    (iblk1 V c 3 t : Vec Ideal S1x16 .f32) y = (V c main_v17 : S1x16.Idx → EReal) y := by
  obtain ⟨-, -, -, -, -, -, e0, e1, -⟩ := comb1_idx_facts t
  unfold iblk1
  rw [View.read_apply]
  show V c main_v17 _ = V c main_v17 _
  congr 1
  funext a
  apply Fin.ext
  match a with
  | ⟨0, _⟩ => show win1_3.index t 0 * 1 + 1 * (y 0).val = (y 0).val; rw [e0]; omega
  | ⟨1, _⟩ => show win1_3.index t 1 * 16 + 1 * (y 1).val = (y 1).val; rw [e1]; omega

/-- The result as one function of the arrays the region finds. -/
def comb1_G (A : S200000x16.Idx → EReal) (H : S200000x16.Idx → EReal) (D : S200000x1.Idx → EReal) (B : S1x16.Idx → EReal) :
    S200000x16.Idx → EReal :=
  fun i => max (A i * D (ix2 (n0 := 200000) (n1 := 1) (i 0) (0 : Fin 1))
      + H i * (D (ix2 (n0 := 200000) (n1 := 1) (i 0) (0 : Fin 1)) * D (ix2 (n0 := 200000) (n1 := 1) (i 0) (0 : Fin 1)))
      + B (ix2 (n0 := 1) (n1 := 16) (0 : Fin 1) (i 1))) 0

/-- What point t writes back is block t of the combine. -/
theorem comb1_flushed4 (c : Dev nD) (t : Fin cfg1.N) :
    (dat1 V c).flushed 4 t
      = ((cfg1.win 4).blk t).view.read (Elt Ideal) (comb1_G (V c main_v16) (V c main_v12_0) (V c main_v11) (V c main_v17)) := by
  obtain ⟨-, -, -, -, -, -, -, -, e0, e1⟩ := comb1_idx_facts t
  show (cfg1.win 4).cut (grid1.coords t) ((dat1 V c).after 4 t) = _
  rw [after1_4]
  unfold out1_4
  rw [View.canon_unit_zero comb1_hz]
  simp only [View.ld_unit_zero (S := S8000x16) comb1_hz, View.ld_unit_zero (S := S8000x1) comb1_hz,
    View.ld_unit_zero (S := S1x16) comb1_hz]
  funext j
  show k1_pay1 (F := Ideal) (iblk1 V c 2 t) (iblk1 V c 0 t) (iblk1 V c 1 t) (iblk1 V c 3 t) j
    = comb1_G (V c main_v16) (V c main_v12_0) (V c main_v11) (V c main_v17) (((cfg1.win 4).blk t).view.emb j)
  refine (comb1_pay1_at (iblk1 V c 2 t) (iblk1 V c 0 t) (iblk1 V c 1 t) (iblk1 V c 3 t) j).trans ?_
  unfold comb1_G
  have hr : (((cfg1.win 4).blk t).view.emb j 0).val = t.val * 8000 + (j 0).val := by
    show win1_4.index t 0 * 8000 + 1 * (j 0).val = _
    rw [e0]; omega
  have hq : (((cfg1.win 4).blk t).view.emb j 1).val = (j 1).val := by
    show win1_4.index t 1 * 16 + 1 * (j 1).val = _
    rw [e1]; omega
  have ha : (iblk1 V c 0 t : Vec Ideal S8000x16 .f32) j
      = (V c main_v16 : S200000x16.Idx → EReal) (((cfg1.win 4).blk t).view.emb j) :=
    comb1_blk0 V c t _ _ hr hq
  have hh : (iblk1 V c 1 t : Vec Ideal S8000x16 .f32) j
      = (V c main_v12_0 : S200000x16.Idx → EReal) (((cfg1.win 4).blk t).view.emb j) :=
    comb1_blk1 V c t _ _ hr hq
  have hd : (iblk1 V c 2 t : Vec Ideal S8000x1 .f32) (ix2 (n0 := 8000) (n1 := 1) (j 0) (0 : Fin 1))
      = (V c main_v11 : S200000x1.Idx → EReal) (ix2 (n0 := 200000) (n1 := 1) (((cfg1.win 4).blk t).view.emb j 0) (0 : Fin 1)) :=
    comb1_blk2 V c t _ _ hr rfl
  have hc : (ix2 (n0 := 1) (n1 := 16) (0 : Fin 1) (((cfg1.win 4).blk t).view.emb j 1) : S1x16.Idx)
      = ix2 (n0 := 1) (n1 := 16) (0 : Fin 1) (j 1) := by
    funext a
    apply Fin.ext
    match a with
    | ⟨0, _⟩ => rfl
    | ⟨1, _⟩ => exact hq
  rw [ha, hh, hd, comb1_blk3 V c t, hc]

/-- Node row r lies in the block of point r / 8000 of the result. -/
theorem comb1_cover4 (i : S200000x16.Idx) :
    ∃ t : Fin cfg1.N, (cfg1.win 4).flush t = true ∧ i ∈ ((cfg1.win 4).blk t).view.set := by
  have hi0 : (i 0).val < 200000 := (i 0).isLt
  have hi1 : (i 1).val < 16 := (i 1).isLt
  have hN : cfg1.N = 25 := N_1
  let t : Fin cfg1.N := ⟨(i 0).val / 8000, by rw [hN]; omega⟩
  obtain ⟨-, -, -, -, -, -, -, -, e0, e1⟩ := comb1_idx_facts t
  refine ⟨t, flush1_4 t, ?_⟩
  show i ∈ ((View.whole main_v18).slice (win1_4.rect t)).set
  rw [View.set_slice_whole, Rect.mem_set_unit]
  intro a
  match a with
  | ⟨0, _⟩ =>
    show win1_4.index t 0 * 8000 ≤ (i 0).val ∧ (i 0).val < win1_4.index t 0 * 8000 + 8000
    rw [e0]; show (i 0).val / 8000 * 8000 ≤ (i 0).val ∧ (i 0).val < (i 0).val / 8000 * 8000 + 8000; omega
  | ⟨1, _⟩ =>
    show win1_4.index t 1 * 16 ≤ (i 1).val ∧ (i 1).val < win1_4.index t 1 * 16 + 16
    rw [e1]; omega

/-- After the region the result is that function of the arrays the region found. -/
theorem comb1_final (c : Dev nD) :
    (dat1 V c).arrAt 4 cfg1.N = comb1_G (V c main_v16) (V c main_v12_0) (V c main_v11) (V c main_v17) :=
  (dat1 V c).arrAt_eq_of_cover 4 (comb1_G (V c main_v16) (V c main_v12_0) (V c main_v11) (V c main_v17))
    (fun t _ => comb1_flushed4 V c t) comb1_cover4

/-- The combine at node i and channel f. -/
theorem comb1_G_apply (A : S200000x16.Idx → EReal) (H : S200000x16.Idx → EReal) (D : S200000x1.Idx → EReal) (B : S1x16.Idx → EReal)
    (i : Fin 200000) (f : Fin 16) :
    comb1_G A H D B (ix2 i f)
      = max (A (ix2 i f) * D (ix2 i (0 : Fin 1)) + H (ix2 i f) * (D (ix2 i (0 : Fin 1)) * D (ix2 i (0 : Fin 1)))
          + B (ix2 (0 : Fin 1) f)) 0 := rfl

end Cert.KernelIdeal.Hand

end
-- ==== Proof.KI.Region2.lean ====
/-
  The second dense map, read as whole arrays. The region walks the 200000 node rows in 25 blocks of 8000; at block t
  it multiplies rows 8000·t … of the hidden features (16 channels) by the 16 × 2 weight matrix, writes the product back
  as block t of the first result and the product scaled row by row by the node weights as block t of the second. The
  blocks tile both results: after the region the first is h · W and the second (h · W)[i, g] · w[i].
-/
import proofs.«426294_j21277267984741_3_alg».proof.Proof.Gen.KernelIdeal.Frame
import proofs.«426294_j21277267984741_3_alg».proof.Proof.LibDot
import proofs.«426294_j21277267984741_3_alg».proof.Proof.LibRowsCols
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-- The zero offsets of a whole-block access, as a constant function. -/
theorem lin2_hz : (![0, 0] : Fin 2 → Nat) = fun _ => 0 := funext fun a => by fin_cases a <;> rfl

/-- The product block at row p and channel q: the row of the hidden block against the column of the weights. The
    reshaping to the same shape and the two changes of float format leave every entry as it is. -/
theorem lin2_pay1_apply (x0 : Vec Ideal S8000x16 .f32) (x1 : Vec Ideal S16x2 .f32) (p : Fin 8000) (q : Fin 2) :
    k2_pay1 (F := Ideal) x0 x1 (ix2 p q) = ∑ k : Fin 16, x0 (ix2 p k) * x1 (ix2 k q) := by
  unfold k2_pay1
  rw [shapeCast_self]
  exact Cert.Lib.Dot.matmul0_rows_cols dot_S8000x16_S16x2_S8000x2_1_0_0_1_n_n rfl rfl rfl rfl rfl rfl _ _ p q

/-- The scaled block at row p and channel q: the product there times the row's weight. -/
theorem lin2_pay2_apply (x0 : Vec Ideal S8000x16 .f32) (x1 : Vec Ideal S16x2 .f32) (x2 : Vec Ideal S8000x1 .f32)
    (p : Fin 8000) (q : Fin 2) :
    k2_pay2 (F := Ideal) x0 x1 x2 (ix2 p q) = (∑ k : Fin 16, x0 (ix2 p k) * x1 (ix2 k q)) * x2 (ix2 p (0 : Fin 1)) := by
  unfold k2_pay2
  show FloatOps.mulf (k2_pay1 (F := Ideal) x0 x1 (ix2 p q)) _ = _
  rw [lin2_pay1_apply, shapeCast_self, Idealize.ShloMosaic.RowsCols.broadcastTo_a1_ab_apply]
  rfl

/-- The product at any position of the block. -/
theorem lin2_pay1_at (x0 : Vec Ideal S8000x16 .f32) (x1 : Vec Ideal S16x2 .f32) (y : S8000x2.Idx) :
    k2_pay1 (F := Ideal) x0 x1 y = ∑ k : Fin 16, x0 (ix2 (n0 := 8000) (n1 := 16) (y 0) k) * x1 (ix2 (n0 := 16) (n1 := 2) k (y 1)) := by
  obtain ⟨p, q, rfl⟩ : ∃ (p : Fin 8000) (q : Fin 2), y = ix2 p q := ⟨y 0, y 1, eq_ix2 y⟩
  exact lin2_pay1_apply x0 x1 p q

/-- The scaled product at any position of the block. -/
theorem lin2_pay2_at (x0 : Vec Ideal S8000x16 .f32) (x1 : Vec Ideal S16x2 .f32) (x2 : Vec Ideal S8000x1 .f32) (y : S8000x2.Idx) :
    k2_pay2 (F := Ideal) x0 x1 x2 y
      = (∑ k : Fin 16, x0 (ix2 (n0 := 8000) (n1 := 16) (y 0) k) * x1 (ix2 (n0 := 16) (n1 := 2) k (y 1)))
          * x2 (ix2 (n0 := 8000) (n1 := 1) (y 0) (0 : Fin 1)) := by
  obtain ⟨p, q, rfl⟩ : ∃ (p : Fin 8000) (q : Fin 2), y = ix2 p q := ⟨y 0, y 1, eq_ix2 y⟩
  exact lin2_pay2_apply x0 x1 x2 p q

/-- Where each window's block sits at grid point t: the row blocks move with t, the weight matrix stays. -/
theorem lin2_idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

variable (V : (c : Dev nD) → (b : Ref sig .tc) → Buf (Elt Ideal) ((c : Thread nD τ).loc b))

/-- The first result as one function of the arrays the region finds: h · W. -/
def lin2_G3 (X : S200000x16.Idx → EReal) (Wt : S16x2.Idx → EReal) : S200000x2.Idx → EReal :=
  fun i => ∑ k : Fin 16, X (ix2 (n0 := 200000) (n1 := 16) (i 0) k) * Wt (ix2 (n0 := 16) (n1 := 2) k (i 1))

/-- The second result: (h · W) scaled by the node weight. -/
def lin2_G4 (X : S200000x16.Idx → EReal) (Wt : S16x2.Idx → EReal) (D : S200000x1.Idx → EReal) : S200000x2.Idx → EReal :=
  fun i => lin2_G3 X Wt i * D (ix2 (n0 := 200000) (n1 := 1) (i 0) (0 : Fin 1))

/-- The hidden-feature block at point t is rows 8000·t … of the hidden features. -/
theorem lin2_blk0 (c : Dev nD) (t : Fin cfg2.N) (y : S8000x16.Idx) (i : S200000x16.Idx)
    (h0 : (i 0).val = t.val * 8000 + (y 0).val) (h1 : (i 1).val = (y 1).val) :
    (iblk2 V c 0 t : Vec Ideal S8000x16 .f32) y = (V c main_v18 : S200000x16.Idx → EReal) i := by
  obtain ⟨e0, e1, -⟩ := lin2_idx_facts t
  unfold iblk2
  rw [View.read_apply]
  show V c main_v18 _ = V c main_v18 _
  congr 1
  funext a
  apply Fin.ext
  match a with
  | ⟨0, _⟩ => show win2_0.index t 0 * 8000 + 1 * (y 0).val = (i 0).val; rw [e0, h0]; omega
  | ⟨1, _⟩ => show win2_0.index t 1 * 16 + 1 * (y 1).val = (i 1).val; rw [e1, h1]; omega

/-- The weight block at every point is the whole weight matrix. -/
theorem lin2_blk1 (c : Dev nD) (t : Fin cfg2.N) (y : S16x2.Idx) :
    (iblk2 V c 1 t : Vec Ideal S16x2 .f32) y = (V c main_arg3 : S16x2.Idx → EReal) y := by
  obtain ⟨-, -, e0, e1, -⟩ := lin2_idx_facts t
  unfold iblk2
  rw [View.read_apply]
  show V c main_arg3 _ = V c main_arg3 _
  congr 1
  funext a
  apply Fin.ext
  match a with
  | ⟨0, _⟩ => show win2_1.index t 0 * 16 + 1 * (y 0).val = (y 0).val; rw [e0]; omega
  | ⟨1, _⟩ => show win2_1.index t 1 * 2 + 1 * (y 1).val = (y 1).val; rw [e1]; omega

/-- The weight-column block at point t is rows 8000·t … of the node weights. -/
theorem lin2_blk2 (c : Dev nD) (t : Fin cfg2.N) (y : S8000x1.Idx) (i : S200000x1.Idx)
    (h0 : (i 0).val = t.val * 8000 + (y 0).val) (h1 : (i 1).val = (y 1).val) :
    (iblk2 V c 2 t : Vec Ideal S8000x1 .f32) y = (V c main_v11 : S200000x1.Idx → EReal) i := by
  obtain ⟨-, -, -, -, e0, e1, -⟩ := lin2_idx_facts t
  unfold iblk2
  rw [View.read_apply]
  show V c main_v11 _ = V c main_v11 _
  congr 1
  funext a
  apply Fin.ext
  match a with
  | ⟨0, _⟩ => show win2_2.index t 0 * 8000 + 1 * (y 0).val = (i 0).val; rw [e0, h0]; omega
  | ⟨1, _⟩ => show win2_2.index t 1 * 1 + 1 * (y 1).val = (i 1).val; rw [e1, h1]; omega

/-- What point t writes back to the first result is block t of h · W. -/
theorem lin2_flushed3 (c : Dev nD) (t : Fin cfg2.N) :
    (dat2 V c).flushed 3 t = ((cfg2.win 3).blk t).view.read (Elt Ideal) (lin2_G3 (V c main_v18) (V c main_arg3)) := by
  obtain ⟨-, -, -, -, -, -, e0, e1, -⟩ := lin2_idx_facts t
  show (cfg2.win 3).cut (grid2.coords t) ((dat2 V c).after 3 t) = _
  rw [after2_3]
  unfold out2_3
  rw [View.canon_unit_zero lin2_hz]
  simp only [View.ld_unit_zero (S := S8000x16) lin2_hz, View.ld_unit_zero (S := S16x2) lin2_hz]
  funext j
  show k2_pay1 (F := Ideal) (iblk2 V c 0 t) (iblk2 V c 1 t) j
    = lin2_G3 (V c main_v18) (V c main_arg3) (((cfg2.win 3).blk t).view.emb j)
  refine (lin2_pay1_at (iblk2 V c 0 t) (iblk2 V c 1 t) j).trans ?_
  unfold lin2_G3
  refine Finset.sum_congr rfl fun k _ => ?_
  have hr : (((cfg2.win 3).blk t).view.emb j 0).val = t.val * 8000 + (j 0).val := by
    show win2_3.index t 0 * 8000 + 1 * (j 0).val = _
    rw [e0]; omega
  have hb : (iblk2 V c 0 t : Vec Ideal S8000x16 .f32) (ix2 (n0 := 8000) (n1 := 16) (j 0) k)
      = (V c main_v18 : S200000x16.Idx → EReal) (ix2 (n0 := 200000) (n1 := 16) (((cfg2.win 3).blk t).view.emb j 0) k) :=
    lin2_blk0 V c t _ _ hr rfl
  have hc : (ix2 (n0 := 16) (n1 := 2) k (((cfg2.win 3).blk t).view.emb j 1) : S16x2.Idx) = ix2 (n0 := 16) (n1 := 2) k (j 1) := by
    funext a
    apply Fin.ext
    match a with
    | ⟨0, _⟩ => rfl
    | ⟨1, _⟩ => show win2_3.index t 1 * 2 + 1 * (j 1).val = (j 1).val; rw [e1]; omega
  rw [lin2_blk1 V c t, hb, hc]

/-- What point t writes back to the second result is block t of the scaled product. -/
theorem lin2_flushed4 (c : Dev nD) (t : Fin cfg2.N) :
    (dat2 V c).flushed 4 t
      = ((cfg2.win 4).blk t).view.read (Elt Ideal) (lin2_G4 (V c main_v18) (V c main_arg3) (V c main_v11)) := by
  obtain ⟨-, -, -, -, -, -, -, -, e0, e1⟩ := lin2_idx_facts t
  show (cfg2.win 4).cut (grid2.coords t) ((dat2 V c).after 4 t) = _
  rw [after2_4]
  unfold out2_4
  rw [View.canon_unit_zero lin2_hz]
  simp only [View.ld_unit_zero (S := S8000x16) lin2_hz, View.ld_unit_zero (S := S16x2) lin2_hz, View.ld_unit_zero (S := S8000x1) lin2_hz]
  funext j
  show k2_pay2 (F := Ideal) (iblk2 V c 0 t) (iblk2 V c 1 t) (iblk2 V c 2 t) j
    = lin2_G4 (V c main_v18) (V c main_arg3) (V c main_v11) (((cfg2.win 4).blk t).view.emb j)
  refine (lin2_pay2_at (iblk2 V c 0 t) (iblk2 V c 1 t) (iblk2 V c 2 t) j).trans ?_
  unfold lin2_G4 lin2_G3
  have hr : (((cfg2.win 4).blk t).view.emb j 0).val = t.val * 8000 + (j 0).val := by
    show win2_4.index t 0 * 8000 + 1 * (j 0).val = _
    rw [e0]; omega
  have hd : (iblk2 V c 2 t : Vec Ideal S8000x1 .f32) (ix2 (n0 := 8000) (n1 := 1) (j 0) (0 : Fin 1))
      = (V c main_v11 : S200000x1.Idx → EReal) (ix2 (n0 := 200000) (n1 := 1) (((cfg2.win 4).blk t).view.emb j 0) (0 : Fin 1)) :=
    lin2_blk2 V c t _ _ hr rfl
  rw [hd]
  refine congrArg (fun z : EReal => z * _) ?_
  refine Finset.sum_congr rfl fun k _ => ?_
  have hb : (iblk2 V c 0 t : Vec Ideal S8000x16 .f32) (ix2 (n0 := 8000) (n1 := 16) (j 0) k)
      = (V c main_v18 : S200000x16.Idx → EReal) (ix2 (n0 := 200000) (n1 := 16) (((cfg2.win 4).blk t).view.emb j 0) k) :=
    lin2_blk0 V c t _ _ hr rfl
  have hc : (ix2 (n0 := 16) (n1 := 2) k (((cfg2.win 4).blk t).view.emb j 1) : S16x2.Idx) = ix2 (n0 := 16) (n1 := 2) k (j 1) := by
    funext a
    apply Fin.ext
    match a with
    | ⟨0, _⟩ => rfl
    | ⟨1, _⟩ => show win2_4.index t 1 * 2 + 1 * (j 1).val = (j 1).val; rw [e1]; omega
  rw [lin2_blk1 V c t, hb, hc]

/-- Node row r lies in the block of point r / 8000 of the first result. -/
theorem lin2_cover3 (i : S200000x2.Idx) :
    ∃ t : Fin cfg2.N, (cfg2.win 3).flush t = true ∧ i ∈ ((cfg2.win 3).blk t).view.set := by
  have hi0 : (i 0).val < 200000 := (i 0).isLt
  have hi1 : (i 1).val < 2 := (i 1).isLt
  have hN : cfg2.N = 25 := N_2
  let t : Fin cfg2.N := ⟨(i 0).val / 8000, by rw [hN]; omega⟩
  obtain ⟨-, -, -, -, -, -, e0, e1, -⟩ := lin2_idx_facts t
  refine ⟨t, flush2_3 t, ?_⟩
  show i ∈ ((View.whole main_v19_0).slice (win2_3.rect t)).set
  rw [View.set_slice_whole, Rect.mem_set_unit]
  intro a
  match a with
  | ⟨0, _⟩ =>
    show win2_3.index t 0 * 8000 ≤ (i 0).val ∧ (i 0).val < win2_3.index t 0 * 8000 + 8000
    rw [e0]; show (i 0).val / 8000 * 8000 ≤ (i 0).val ∧ (i 0).val < (i 0).val / 8000 * 8000 + 8000; omega
  | ⟨1, _⟩ =>
    show win2_3.index t 1 * 2 ≤ (i 1).val ∧ (i 1).val < win2_3.index t 1 * 2 + 2
    rw [e1]; omega

/-- Node row r lies in the block of point r / 8000 of the second result. -/
theorem lin2_cover4 (i : S200000x2.Idx) :
    ∃ t : Fin cfg2.N, (cfg2.win 4).flush t = true ∧ i ∈ ((cfg2.win 4).blk t).view.set := by
  have hi0 : (i 0).val < 200000 := (i 0).isLt
  have hi1 : (i 1).val < 2 := (i 1).isLt
  have hN : cfg2.N = 25 := N_2
  let t : Fin cfg2.N := ⟨(i 0).val / 8000, by rw [hN]; omega⟩
  obtain ⟨-, -, -, -, -, -, -, -, e0, e1⟩ := lin2_idx_facts t
  refine ⟨t, flush2_4 t, ?_⟩
  show i ∈ ((View.whole main_v19_1).slice (win2_4.rect t)).set
  rw [View.set_slice_whole, Rect.mem_set_unit]
  intro a
  match a with
  | ⟨0, _⟩ =>
    show win2_4.index t 0 * 8000 ≤ (i 0).val ∧ (i 0).val < win2_4.index t 0 * 8000 + 8000
    rw [e0]; show (i 0).val / 8000 * 8000 ≤ (i 0).val ∧ (i 0).val < (i 0).val / 8000 * 8000 + 8000; omega
  | ⟨1, _⟩ =>
    show win2_4.index t 1 * 2 ≤ (i 1).val ∧ (i 1).val < win2_4.index t 1 * 2 + 2
    rw [e1]; omega

/-- After the region the first result is h · W of the arrays the region found. -/
theorem lin2_final3 (c : Dev nD) : (dat2 V c).arrAt 3 cfg2.N = lin2_G3 (V c main_v18) (V c main_arg3) :=
  (dat2 V c).arrAt_eq_of_cover 3 (lin2_G3 (V c main_v18) (V c main_arg3)) (fun t _ => lin2_flushed3 V c t) lin2_cover3

/-- After the region the second result is h · W scaled by the node weights. -/
theorem lin2_final4 (c : Dev nD) : (dat2 V c).arrAt 4 cfg2.N = lin2_G4 (V c main_v18) (V c main_arg3) (V c main_v11) :=
  (dat2 V c).arrAt_eq_of_cover 4 (lin2_G4 (V c main_v18) (V c main_arg3) (V c main_v11)) (fun t _ => lin2_flushed4 V c t) lin2_cover4

/-- h · W at node i and channel g. -/
theorem lin2_G3_apply (X : S200000x16.Idx → EReal) (Wt : S16x2.Idx → EReal) (i : Fin 200000) (g : Fin 2) :
    lin2_G3 X Wt (ix2 i g) = ∑ k : Fin 16, X (ix2 i k) * Wt (ix2 k g) := rfl

/-- The scaled product at node i and channel g. -/
theorem lin2_G4_apply (X : S200000x16.Idx → EReal) (Wt : S16x2.Idx → EReal) (D : S200000x1.Idx → EReal) (i : Fin 200000) (g : Fin 2) :
    lin2_G4 X Wt D (ix2 i g) = (∑ k : Fin 16, X (ix2 i k) * Wt (ix2 k g)) * D (ix2 i (0 : Fin 1)) := rfl

end Cert.KernelIdeal.Hand

end
-- ==== Proof.KI.Region3.lean ====
/-
  The second layer's combine, read as a whole array. The region walks the 200000 node rows in 25 blocks of 8000; at
  block t it takes rows 8000·t … of the aggregated sums, of the plain dense map and of the node weights, and the bias
  row, and writes back agg · w + h · (w · w) + b, row by row and channel by channel. The blocks tile the result.
-/
import proofs.«426294_j21277267984741_3_alg».proof.Proof.Gen.KernelIdeal.Frame
import proofs.«426294_j21277267984741_3_alg».proof.Proof.LibDot
import proofs.«426294_j21277267984741_3_alg».proof.Proof.LibRowsCols
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-- The origin of a rank-2 block, written as a constant map. -/
theorem comb3_origin : (![0, 0] : Fin 2 → Nat) = fun _ => 0 := funext fun a => by fin_cases a <;> rfl

/-- The combined block at row p and channel q: the aggregated entry times the row's weight, plus the dense entry times
    the square of the row's weight, plus the bias of channel q. -/
theorem comb3_pay1_apply (w : Vec Ideal S8000x1 .f32) (a : Vec Ideal S8000x2 .f32) (h : Vec Ideal S8000x2 .f32)
    (b : Vec Ideal S1x2 .f32) (p : Fin 8000) (q : Fin 2) :
    k3_pay1 (F := Ideal) w a h b (ix2 p q)
      = a (ix2 p q) * w (ix2 p (0 : Fin 1)) + h (ix2 p q) * (w (ix2 p (0 : Fin 1)) * w (ix2 p (0 : Fin 1)))
          + b (ix2 (0 : Fin 1) q) := by
  unfold k3_pay1
  simp only [shapeCast_self]
  rw [addf_apply, addf_apply, mulf_apply, mulf_apply,
    Idealize.ShloMosaic.RowsCols.broadcastTo_a1_ab_apply, Idealize.ShloMosaic.RowsCols.broadcastTo_a1_ab_apply,
    broadcastTo_1b_ab_apply, mulf_apply]

/-- The combined block at any position. -/
theorem comb3_pay1_at (w : Vec Ideal S8000x1 .f32) (a : Vec Ideal S8000x2 .f32) (h : Vec Ideal S8000x2 .f32)
    (b : Vec Ideal S1x2 .f32) (y : S8000x2.Idx) :
    k3_pay1 (F := Ideal) w a h b y
      = a y * w (ix2 (n0 := 8000) (n1 := 1) (y 0) (0 : Fin 1))
          + h y * (w (ix2 (n0 := 8000) (n1 := 1) (y 0) (0 : Fin 1)) * w (ix2 (n0 := 8000) (n1 := 1) (y 0) (0 : Fin 1)))
          + b (ix2 (n0 := 1) (n1 := 2) (0 : Fin 1) (y 1)) := by
  obtain ⟨p, q, rfl⟩ : ∃ (p : Fin 8000) (q : Fin 2), y = ix2 p q := ⟨y 0, y 1, eq_ix2 y⟩
  exact comb3_pay1_apply w a h b p q

/-- Where each window's block sits at grid point t: the row blocks move with t, the bias row stays. -/
theorem comb3_idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

variable (V : (c : Dev nD) → (b : Ref sig .tc) → Buf (Elt Ideal) ((c : Thread nD τ).loc b))

/-- The block of aggregated sums at point t is rows 8000·t … of the aggregated array. -/
theorem comb3_blk0 (c : Dev nD) (t : Fin cfg3.N) (y : S8000x2.Idx) (i : S200000x2.Idx)
    (h0 : (i 0).val = t.val * 8000 + (y 0).val) (h1 : (i 1).val = (y 1).val) :
    (iblk3 V c 0 t : Vec Ideal S8000x2 .f32) y = (V c main_v23 : S200000x2.Idx → EReal) i := by
  obtain ⟨e0, e1, -⟩ := comb3_idx_facts t
  unfold iblk3
  rw [View.read_apply]
  show V c main_v23 _ = V c main_v23 _
  congr 1
  funext a
  apply Fin.ext
  match a with
  | ⟨0, _⟩ => show win3_0.index t 0 * 8000 + 1 * (y 0).val = (i 0).val; rw [e0, h0]; omega
  | ⟨1, _⟩ => show win3_0.index t 1 * 2 + 1 * (y 1).val = (i 1).val; rw [e1, h1]; omega

/-- The block of the plain dense map at point t is rows 8000·t … of that array. -/
theorem comb3_blk1 (c : Dev nD) (t : Fin cfg3.N) (y : S8000x2.Idx) (i : S200000x2.Idx)
    (h0 : (i 0).val = t.val * 8000 + (y 0).val) (h1 : (i 1).val = (y 1).val) :
    (iblk3 V c 1 t : Vec Ideal S8000x2 .f32) y = (V c main_v19_0 : S200000x2.Idx → EReal) i := by
  obtain ⟨-, -, e0, e1, -⟩ := comb3_idx_facts t
  unfold iblk3
  rw [View.read_apply]
  show V c main_v19_0 _ = V c main_v19_0 _
  congr 1
  funext a
  apply Fin.ext
  match a with
  | ⟨0, _⟩ => show win3_1.index t 0 * 8000 + 1 * (y 0).val = (i 0).val; rw [e0, h0]; omega
  | ⟨1, _⟩ => show win3_1.index t 1 * 2 + 1 * (y 1).val = (i 1).val; rw [e1, h1]; omega

/-- The weight-column block at point t is rows 8000·t … of the node weights. -/
theorem comb3_blk2 (c : Dev nD) (t : Fin cfg3.N) (y : S8000x1.Idx) (i : S200000x1.Idx)
    (h0 : (i 0).val = t.val * 8000 + (y 0).val) (h1 : (i 1).val = (y 1).val) :
    (iblk3 V c 2 t : Vec Ideal S8000x1 .f32) y = (V c main_v11 : S200000x1.Idx → EReal) i := by
  obtain ⟨-, -, -, -, e0, e1, -⟩ := comb3_idx_facts t
  unfold iblk3
  rw [View.read_apply]
  show V c main_v11 _ = V c main_v11 _
  congr 1
  funext a
  apply Fin.ext
  match a with
  | ⟨0, _⟩ => show win3_2.index t 0 * 8000 + 1 * (y 0).val = (i 0).val; rw [e0, h0]; omega
  | ⟨1, _⟩ => show win3_2.index t 1 * 1 + 1 * (y 1).val = (i 1).val; rw [e1, h1]; omega

/-- The bias block at every point is the whole bias row. -/
theorem comb3_blk3 (c : Dev nD) (t : Fin cfg3.N) (y : S1x2.Idx) :
    (iblk3 V c 3 t : Vec Ideal S1x2 .f32) y = (V c main_v24 : S1x2.Idx → EReal) y := by
  obtain ⟨-, -, -, -, -, -, e0, e1, -⟩ := comb3_idx_facts t
  unfold iblk3
  rw [View.read_apply]
  show V c main_v24 _ = V c main_v24 _
  congr 1
  funext a
  apply Fin.ext
  match a with
  | ⟨0, _⟩ => show win3_3.index t 0 * 1 + 1 * (y 0).val = (y 0).val; rw [e0]; omega
  | ⟨1, _⟩ => show win3_3.index t 1 * 2 + 1 * (y 1).val = (y 1).val; rw [e1]; omega

/-- The result as one function of the arrays the region finds. -/
def comb3_G (A : S200000x2.Idx → EReal) (H : S200000x2.Idx → EReal) (D : S200000x1.Idx → EReal) (B : S1x2.Idx → EReal) :
    S200000x2.Idx → EReal :=
  fun i => A i * D (ix2 (n0 := 200000) (n1 := 1) (i 0) (0 : Fin 1))
      + H i * (D (ix2 (n0 := 200000) (n1 := 1) (i 0) (0 : Fin 1)) * D (ix2 (n0 := 200000) (n1 := 1) (i 0) (0 : Fin 1)))
      + B (ix2 (n0 := 1) (n1 := 2) (0 : Fin 1) (i 1))

/-- What point t writes back is block t of the combine of the whole arrays. -/
theorem comb3_flushed4 (c : Dev nD) (t : Fin cfg3.N) :
    (dat3 V c).flushed 4 t
      = ((cfg3.win 4).blk t).view.read (Elt Ideal)
          (comb3_G (V c main_v23) (V c main_v19_0) (V c main_v11) (V c main_v24)) := by
  obtain ⟨-, -, -, -, -, -, -, -, e0, e1⟩ := comb3_idx_facts t
  show (cfg3.win 4).cut (grid3.coords t) ((dat3 V c).after 4 t) = _
  rw [after3_4]
  unfold out3_4
  rw [View.canon_unit_zero comb3_origin]
  simp only [View.ld_unit_zero (S := S8000x2) comb3_origin, View.ld_unit_zero (S := S8000x1) comb3_origin,
    View.ld_unit_zero (S := S1x2) comb3_origin]
  funext j
  show k3_pay1 (F := Ideal) (iblk3 V c 2 t) (iblk3 V c 0 t) (iblk3 V c 1 t) (iblk3 V c 3 t) j
    = comb3_G (V c main_v23) (V c main_v19_0) (V c main_v11) (V c main_v24) (((cfg3.win 4).blk t).view.emb j)
  refine (comb3_pay1_at (iblk3 V c 2 t) (iblk3 V c 0 t) (iblk3 V c 1 t) (iblk3 V c 3 t) j).trans ?_
  unfold comb3_G
  have hr : (((cfg3.win 4).blk t).view.emb j 0).val = t.val * 8000 + (j 0).val := by
    show win3_4.index t 0 * 8000 + 1 * (j 0).val = _
    rw [e0]; omega
  have hq : (((cfg3.win 4).blk t).view.emb j 1).val = (j 1).val := by
    show win3_4.index t 1 * 2 + 1 * (j 1).val = _
    rw [e1]; omega
  have hA : (iblk3 V c 0 t : Vec Ideal S8000x2 .f32) j
      = (V c main_v23 : S200000x2.Idx → EReal) (((cfg3.win 4).blk t).view.emb j) :=
    comb3_blk0 V c t _ _ hr hq
  have hH : (iblk3 V c 1 t : Vec Ideal S8000x2 .f32) j
      = (V c main_v19_0 : S200000x2.Idx → EReal) (((cfg3.win 4).blk t).view.emb j) :=
    comb3_blk1 V c t _ _ hr hq
  have hD : (iblk3 V c 2 t : Vec Ideal S8000x1 .f32) (ix2 (n0 := 8000) (n1 := 1) (j 0) (0 : Fin 1))
      = (V c main_v11 : S200000x1.Idx → EReal)
          (ix2 (n0 := 200000) (n1 := 1) (((cfg3.win 4).blk t).view.emb j 0) (0 : Fin 1)) :=
    comb3_blk2 V c t _ _ hr rfl
  have hc : (ix2 (n0 := 1) (n1 := 2) (0 : Fin 1) (((cfg3.win 4).blk t).view.emb j 1) : S1x2.Idx)
      = ix2 (n0 := 1) (n1 := 2) (0 : Fin 1) (j 1) := by
    funext a
    apply Fin.ext
    match a with
    | ⟨0, _⟩ => rfl
    | ⟨1, _⟩ => exact hq
  rw [hA, hH, hD, comb3_blk3 V c t, hc]

/-- Node row r lies in the block of point r / 8000 of the result. -/
theorem comb3_cover4 (i : S200000x2.Idx) :
    ∃ t : Fin cfg3.N, (cfg3.win 4).flush t = true ∧ i ∈ ((cfg3.win 4).blk t).view.set := by
  have hi0 : (i 0).val < 200000 := (i 0).isLt
  have hi1 : (i 1).val < 2 := (i 1).isLt
  have hN : cfg3.N = 25 := N_3
  let t : Fin cfg3.N := ⟨(i 0).val / 8000, by rw [hN]; omega⟩
  obtain ⟨-, -, -, -, -, -, -, -, e0, e1⟩ := comb3_idx_facts t
  refine ⟨t, flush3_4 t, ?_⟩
  show i ∈ ((View.whole main_v25).slice (win3_4.rect t)).set
  rw [View.set_slice_whole, Rect.mem_set_unit]
  intro a
  match a with
  | ⟨0, _⟩ =>
    show win3_4.index t 0 * 8000 ≤ (i 0).val ∧ (i 0).val < win3_4.index t 0 * 8000 + 8000
    rw [e0]; show (i 0).val / 8000 * 8000 ≤ (i 0).val ∧ (i 0).val < (i 0).val / 8000 * 8000 + 8000; omega
  | ⟨1, _⟩ =>
    show win3_4.index t 1 * 2 ≤ (i 1).val ∧ (i 1).val < win3_4.index t 1 * 2 + 2
    rw [e1]; omega

/-- After the region the result is that function of the arrays the region found. -/
theorem comb3_final (c : Dev nD) :
    (dat3 V c).arrAt 4 cfg3.N = comb3_G (V c main_v23) (V c main_v19_0) (V c main_v11) (V c main_v24) :=
  (dat3 V c).arrAt_eq_of_cover 4 (comb3_G (V c main_v23) (V c main_v19_0) (V c main_v11) (V c main_v24))
    (fun t _ => comb3_flushed4 V c t) comb3_cover4

/-- The combine at node i and channel g. -/
theorem comb3_G_apply (A : S200000x2.Idx → EReal) (H : S200000x2.Idx → EReal) (D : S200000x1.Idx → EReal) (B : S1x2.Idx → EReal)
    (i : Fin 200000) (g : Fin 2) :
    comb3_G A H D B (ix2 i g)
      = A (ix2 i g) * D (ix2 i (0 : Fin 1)) + H (ix2 i g) * (D (ix2 i (0 : Fin 1)) * D (ix2 i (0 : Fin 1)))
          + B (ix2 (0 : Fin 1) g) := rfl

end Cert.KernelIdeal.Hand

end
-- ==== Proof.KI.Value.lean ====
/-
  The idealized kernel program's result, read at one node and channel: the network with each layer's features scaled
  once per node. Read back from the last region to the launch: the last combine of the second aggregation, of the
  second dense map and of the node weights; the second aggregation over the scaled second dense map; the second dense
  map of the hidden features; the hidden features as the first combine clamped at zero; the first aggregation over the
  scaled first dense map; the first dense map of the input features; the node weights from the degrees.
-/
import proofs.«426294_j21277267984741_3_alg».proof.Proof.Gen.KernelIdeal.Frame
import proofs.«426294_j21277267984741_3_alg».proof.Proof.Spec
import proofs.«426294_j21277267984741_3_alg».proof.Proof.KI.Host0
import proofs.«426294_j21277267984741_3_alg».proof.Proof.KI.Host1
import proofs.«426294_j21277267984741_3_alg».proof.Proof.KI.Region0
import proofs.«426294_j21277267984741_3_alg».proof.Proof.KI.Region1
import proofs.«426294_j21277267984741_3_alg».proof.Proof.KI.Region2
import proofs.«426294_j21277267984741_3_alg».proof.Proof.KI.Region3
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

open Cert.Gcn

/-- The edge table at launch. -/
abbrev edges (c : Dev nD) : IVec SEdges 32 := m ((c : Thread nD τ).loc main_arg5)
/-- The input features at launch, by node and channel. -/
abbrev feat (c : Dev nD) : Fin N → Fin 2 → EReal := cur2 (m ((c : Thread nD τ).loc main_arg0))
/-- The first weight matrix at launch. -/
abbrev wt1 (c : Dev nD) : Fin 2 → Fin 16 → EReal := cur2 (m ((c : Thread nD τ).loc main_arg1))
/-- The first bias at launch. -/
abbrev bs1 (c : Dev nD) : Fin 16 → EReal := cur1 (m ((c : Thread nD τ).loc main_arg2))
/-- The second weight matrix at launch. -/
abbrev wt2 (c : Dev nD) : Fin 16 → Fin 2 → EReal := cur2 (m ((c : Thread nD τ).loc main_arg3))
/-- The second bias at launch. -/
abbrev bs2 (c : Dev nD) : Fin 2 → EReal := cur1 (m ((c : Thread nD τ).loc main_arg4))

/-- The hidden features after the first layer and the clamp at zero. -/
def hidden (c : Dev nD) (r : Fin N) (k : Fin 16) : EReal :=
  max (layerK (edges m c) (lin (feat m c) (wt1 m c)) (bs1 m c) r k) 0

/-- The first dense map's plain result, as the first combine finds it. -/
abbrev plain1 (c : Dev nD) : S200000x16.Idx → EReal := W2 m ρ c (Proc.devRef .tc main_v12_0)
/-- The hidden features, as the second dense map finds them. -/
abbrev hid (c : Dev nD) : S200000x16.Idx → EReal := W5 m ρ c (Proc.devRef .tc main_v18)
/-- The second dense map's plain result, as the last combine finds it. -/
abbrev plain2 (c : Dev nD) : S200000x2.Idx → EReal := W6 m ρ c (Proc.devRef .tc main_v19_0)
/-- The program's result after the last region. -/
abbrev result (c : Dev nD) : S200000x2.Idx → EReal := W9 m ρ c (Proc.devRef .tc main_v25)

/-- A dense map of a table that is a given function of node and channel. -/
theorem lin_of_table {K C : Nat} (X : (⟨2, ![200000, K]⟩ : Shape).Idx → EReal) (Wt : (⟨2, ![K, C]⟩ : Shape).Idx → EReal)
    (hh : Fin N → Fin K → EReal) (hX : ∀ r k, X (ix2 r k) = hh r k) (r : Fin 200000) (g : Fin C) :
    ∑ k : Fin K, X (ix2 r k) * Wt (ix2 k g) = lin hh (cur2 Wt) r g := by
  unfold lin cur2
  exact Finset.sum_congr rfl fun k _ => by rw [hX]

/-- The first dense map as the first combine finds it. -/
theorem plain1_at (c : Dev nD) (r : Fin 200000) (k : Fin 16) :
    plain1 m ρ c (ix2 r k) = lin (feat m c) (wt1 m c) r k := by
  have h' : plain1 m ρ c = lin0_G3 (V1 m ρ c main_arg0) (V1 m ρ c main_arg1) :=
    (W2_arr m ρ c 3).trans (lin0_final3 (V1 m ρ) c)
  rw [h', lin0_G3_apply, kept_V1_arg0, kept_V1_arg1]
  rfl

/-- The scaled first dense map as the first aggregation finds it. -/
theorem scaled1_at (c : Dev nD) (r : Fin 200000) (k : Fin 16) :
    scaled1 m ρ c (ix2 r k) = lin (feat m c) (wt1 m c) r k * dinv (edges m c) r := by
  have h' : scaled1 m ρ c = lin0_G4 (V1 m ρ c main_arg0) (V1 m ρ c main_arg1) (V1 m ρ c main_v11) :=
    (W2_arr m ρ c 4).trans (lin0_final4 (V1 m ρ) c)
  rw [h', lin0_G4_apply, host_dinv, kept_V1_arg0, kept_V1_arg1]
  rfl

section
variable (hsrc : ∀ (c : Dev nD) (e : Fin 12800000), 0 ≤ (srcW (edges m c) e).toInt ∧ (srcW (edges m c) e).toInt < 200000)
include hsrc

/-- The hidden features as the second dense map finds them. -/
theorem hidden_at (c : Dev nD) (r : Fin 200000) (k : Fin 16) : hid m ρ c (ix2 r k) = hidden m c r k := by
  have h' : hid m ρ c = comb1_G (V4 m ρ c main_v16) (V4 m ρ c main_v12_0) (V4 m ρ c main_v11) (V4 m ρ c main_v17) :=
    (W5_arr m ρ c 4).trans (comb1_final (V4 m ρ) c)
  rw [h', comb1_G_apply, host_agg1 m ρ c (hsrc c) r k, kept_V4_v12_0, kept_V4_v11, host_dinv, bias1_row]
  rw [show (W2 m ρ c (Proc.devRef .tc main_v12_0) : S200000x16.Idx → EReal) (ix2 r k) = lin (feat m c) (wt1 m c) r k
    from plain1_at m ρ c r k]
  rw [Finset.sum_congr rfl (fun e _ => scaled1_at m ρ c (row (srcW (edges m c) e)) k)]
  rfl

/-- The second dense map as the last combine finds it. -/
theorem plain2_at (c : Dev nD) (r : Fin 200000) (g : Fin 2) :
    plain2 m ρ c (ix2 r g) = lin (hidden m c) (wt2 m c) r g := by
  have h' : plain2 m ρ c = lin2_G3 (V5 m ρ c main_v18) (V5 m ρ c main_arg3) :=
    (W6_arr m ρ c 3).trans (lin2_final3 (V5 m ρ) c)
  rw [h', lin2_G3_apply, kept_V5_arg3]
  exact lin_of_table (K := 16) (C := 2) (V5 m ρ c main_v18) _ (hidden m c) (hidden_at m ρ hsrc c) r g

/-- The scaled second dense map as the second aggregation finds it. -/
theorem scaled2_at (c : Dev nD) (r : Fin 200000) (g : Fin 2) :
    scaled2 m ρ c (ix2 r g) = lin (hidden m c) (wt2 m c) r g * dinv (edges m c) r := by
  have h' : scaled2 m ρ c = lin2_G4 (V5 m ρ c main_v18) (V5 m ρ c main_arg3) (V5 m ρ c main_v11) :=
    (W6_arr m ρ c 4).trans (lin2_final4 (V5 m ρ) c)
  rw [h', lin2_G4_apply, kept_V5_v11, host_dinv, kept_V5_arg3]
  rw [lin_of_table (K := 16) (C := 2) (V5 m ρ c main_v18) _ (hidden m c) (hidden_at m ρ hsrc c) r g]

/-- THE KERNEL'S RESULT at node i and channel g: the network with each layer's features scaled once per node, of the
    launch contents of the six arguments. -/
theorem kernel_value (c : Dev nD) (i : Fin 200000) (g : Fin 2) :
    result m ρ c (ix2 i g) = outK (feat m c) (wt1 m c) (bs1 m c) (wt2 m c) (bs2 m c) (edges m c) i g := by
  have h' : result m ρ c = comb3_G (V8 m ρ c main_v23) (V8 m ρ c main_v19_0) (V8 m ρ c main_v11) (V8 m ρ c main_v24) :=
    (W9_arr m ρ c 4).trans (comb3_final (V8 m ρ) c)
  rw [h', comb3_G_apply, host_agg2 m ρ c (hsrc c) i g, kept_V8_v19_0, kept_V8_v11, host_dinv, bias2_row]
  rw [show (W6 m ρ c (Proc.devRef .tc main_v19_0) : S200000x2.Idx → EReal) (ix2 i g) = lin (hidden m c) (wt2 m c) i g
    from plain2_at m ρ hsrc c i g]
  rw [Finset.sum_congr rfl (fun e _ => scaled2_at m ρ hsrc c (row (srcW (edges m c) e)) g)]
  rfl

end

end Cert.KernelIdeal.Hand

end
-- ==== Proof.Ref.Value.lean ====
/-
  The reference program's result, read at one node and channel: the network in the per-edge arrangement. Every layer
  gathers the dense map's rows at the edges' source positions, scales each by the product of the two ends' weights,
  adds the rows into zeros at the edges' destination words, and adds the self term h[i, f] / deg i and the bias.
-/
import proofs.«426294_j21277267984741_3_alg».proof.Proof.Gen.ReferenceIdeal.Run
import proofs.«426294_j21277267984741_3_alg».proof.Proof.Gen.ReferenceIdeal.Read
import proofs.«426294_j21277267984741_3_alg».proof.Proof.Spec
import proofs.«426294_j21277267984741_3_alg».proof.Proof.LibScatter
import proofs.«426294_j21277267984741_3_alg».proof.Proof.LibGatherRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.Hand

open Cert.ReferenceIdeal Cert.ReferenceIdeal.Gen Cert.ReferenceIdeal.Value Cert.ReferenceIdeal.Read
open Idealize.ShloMosaic Idealize.ShloMosaic.TcCoe Idealize.ShloMosaic.ValueIdx
open Idealize.SL.Sem
open Cert.Gcn (N E SEdges srcW dstW nrm row lands deg dinv lin layerR outR cur2 cur1)

/-- An edge-table word vector. -/
abbrev EI := IVec SEdges 32

/-- The source word of edge e, as the program slices it out of the edge table. -/
theorem src_at (x5 : EI) (e : Fin 12800000) : val_main_v1 (F := Ideal) x5 (ix1 e) = srcW x5 e := by
  rw [val_main_v1_apply, val_main_v0_apply]
  unfold srcW
  refine congrArg x5 ?_
  funext a
  apply Fin.ext
  match a with
  | ⟨0, _⟩ => rfl
  | ⟨1, _⟩ => exact Nat.mod_eq_of_lt e.isLt

/-- The destination word of edge e. -/
theorem dst_at (x5 : EI) (e : Fin 12800000) : val_main_v3 (F := Ideal) x5 (ix1 e) = dstW x5 e := by
  rw [val_main_v3_apply, val_main_v2_apply]
  unfold dstW
  refine congrArg x5 ?_
  funext a
  apply Fin.ext
  match a with
  | ⟨0, _⟩ => rfl
  | ⟨1, _⟩ => exact Nat.mod_eq_of_lt e.isLt

/-! The destination words, as a column of position words. -/
theorem col7_at (x5 : EI) (e : Fin 12800000) : val_main_v7 (F := Ideal) x5 (ix2 e (0 : Fin 1)) = dstW x5 e := by
  rw [val_main_v7_apply]; exact dst_at x5 e
theorem col38_at (x5 : EI) (e : Fin 12800000) : val_main_v38 (F := Ideal) x5 (ix2 e (0 : Fin 1)) = dstW x5 e := by
  rw [val_main_v38_apply]; exact dst_at x5 e
theorem col53_at (x5 : EI) (e : Fin 12800000) : val_main_v53 (F := Ideal) x5 (ix2 e (0 : Fin 1)) = dstW x5 e := by
  rw [val_main_v53_apply]; exact dst_at x5 e
theorem col84_at (x5 : EI) (e : Fin 12800000) : val_main_v84 (F := Ideal) x5 (ix2 e (0 : Fin 1)) = dstW x5 e := by
  rw [val_main_v84_apply]; exact dst_at x5 e

/-! The wrapped position words of the sources and of the destinations, as columns. -/
theorem col17_at (x5 : EI) (e : Fin 12800000) : val_main_v17 (F := Ideal) x5 (ix2 e (0 : Fin 1)) = nrm (srcW x5 e) := by
  rw [val_main_v17_apply, val_main_v16_apply, val_main_v13_apply, val_main_v15_apply, val_main_v12_apply,
    val_main_v14_apply, val_main_c_apply, val_main_c_2_apply]
  exact congrArg nrm (src_at x5 e)
theorem col24_at (x5 : EI) (e : Fin 12800000) : val_main_v24 (F := Ideal) x5 (ix2 e (0 : Fin 1)) = nrm (dstW x5 e) := by
  rw [val_main_v24_apply, val_main_v23_apply, val_main_v20_apply, val_main_v22_apply, val_main_v19_apply,
    val_main_v21_apply, val_main_c_3_apply, val_main_c_4_apply]
  exact congrArg nrm (dst_at x5 e)
theorem col32_at (x5 : EI) (e : Fin 12800000) : val_main_v32 (F := Ideal) x5 (ix2 e (0 : Fin 1)) = nrm (srcW x5 e) := by
  rw [val_main_v32_apply, val_main_v31_apply, val_main_v28_apply, val_main_v30_apply, val_main_v27_apply,
    val_main_v29_apply, val_main_c_5_apply, val_main_c_6_apply]
  exact congrArg nrm (src_at x5 e)
theorem col63_at (x5 : EI) (e : Fin 12800000) : val_main_v63 (F := Ideal) x5 (ix2 e (0 : Fin 1)) = nrm (srcW x5 e) := by
  rw [val_main_v63_apply, val_main_v62_apply, val_main_v59_apply, val_main_v61_apply, val_main_v58_apply,
    val_main_v60_apply, val_main_c_12_apply, val_main_c_13_apply]
  exact congrArg nrm (src_at x5 e)
theorem col70_at (x5 : EI) (e : Fin 12800000) : val_main_v70 (F := Ideal) x5 (ix2 e (0 : Fin 1)) = nrm (dstW x5 e) := by
  rw [val_main_v70_apply, val_main_v69_apply, val_main_v66_apply, val_main_v68_apply, val_main_v65_apply,
    val_main_v67_apply, val_main_c_14_apply, val_main_c_15_apply]
  exact congrArg nrm (dst_at x5 e)
theorem col78_at (x5 : EI) (e : Fin 12800000) : val_main_v78 (F := Ideal) x5 (ix2 e (0 : Fin 1)) = nrm (srcW x5 e) := by
  rw [val_main_v78_apply, val_main_v77_apply, val_main_v74_apply, val_main_v76_apply, val_main_v73_apply,
    val_main_v75_apply, val_main_c_16_apply, val_main_c_17_apply]
  exact congrArg nrm (src_at x5 e)

/-- The clipped position of a wrapped word is the row the mathematics names. -/
theorem clip_row (v w : BitVec 32) (h : v = nrm w) (hlt : min v.toInt.toNat (200000 - 1) < 200000) :
    (⟨min v.toInt.toNat (200000 - 1), hlt⟩ : Fin 200000) = row w := by
  subst h; rfl

/-- The degree, first computation: the count of the edges into node i, plus one. -/
theorem deg_at (x5 : EI) (i : Fin 200000) : val_main_v10 (F := Ideal) x5 (ix1 i) = deg x5 i := by
  rw [val_main_v10_apply]
  unfold val_main_v8
  rw [Cert.LibScatter.scatterAdd_vec_read _ rfl rfl rfl rfl, val_main_v6_apply, val_main_cst_0_apply,
    val_main_v9_apply, val_main_cst_1_apply]
  simp only [Ideal.ofBits_def, Ideal.addf_def, Ideal.ofBits_zero_f32, Cert.Gcn.ofBits_one, col7_at,
    val_main_v5_apply, val_main_cst_apply]
  rfl

/-- The weight, first computation. -/
theorem dinv_at (x5 : EI) (i : Fin 200000) : val_main_v11 (F := Ideal) x5 (ix1 i) = dinv x5 i := by
  unfold dinv; rw [val_main_v11_apply, deg_at, Ideal.hostUnary_rsqrt_def]

/-- The source end's weight of edge e. -/
theorem wsrc_at (x5 : EI) (e : Fin 12800000) : val_main_v18 (F := Ideal) x5 (ix1 e) = dinv x5 (row (srcW x5 e)) := by
  unfold val_main_v18
  refine (Cert.LibGatherRows.gather_vec_apply _ rfl rfl rfl rfl _ _ e (by omega)).trans ?_
  refine (congrArg (fun r => val_main_v11 (F := Ideal) x5 (ix1 r)) (clip_row _ _ (col17_at x5 e) _)).trans ?_
  exact dinv_at x5 _

/-- The destination end's weight of edge e. -/
theorem wdst_at (x5 : EI) (e : Fin 12800000) : val_main_v25 (F := Ideal) x5 (ix1 e) = dinv x5 (row (dstW x5 e)) := by
  unfold val_main_v25
  refine (Cert.LibGatherRows.gather_vec_apply _ rfl rfl rfl rfl _ _ e (by omega)).trans ?_
  refine (congrArg (fun r => val_main_v11 (F := Ideal) x5 (ix1 r)) (clip_row _ _ (col24_at x5 e) _)).trans ?_
  exact dinv_at x5 _

/-- The product of the two ends' weights of edge e. -/
theorem norm_at (x5 : EI) (e : Fin 12800000) :
    val_main_v26 (F := Ideal) x5 (ix1 e) = dinv x5 (row (srcW x5 e)) * dinv x5 (row (dstW x5 e)) := by
  rw [val_main_v26_apply, wsrc_at, wdst_at, Ideal.mulf_def]

/-- The first dense map. -/
theorem h1_at (x0 : (⟨2, ![200000, 2]⟩ : Shape).Idx → EReal) (x1 : (⟨2, ![2, 16]⟩ : Shape).Idx → EReal) (i : Fin 200000) (f : Fin 16) :
    val_main_v4 (F := Ideal) x0 x1 (ix2 i f) = lin (cur2 x0) (cur2 x1) i f := by
  rw [val_main_v4_apply]
  unfold lin cur2
  refine Finset.sum_congr rfl fun k _ => ?_
  have el : lidx_main_v4 (ix2 (n0 := 200000) (n1 := 16) i f) k = ix2 i k := by
    funext a; match a with
    | ⟨0, _⟩ => rfl
    | ⟨1, _⟩ => rfl
  have er : ridx_main_v4 (ix2 (n0 := 200000) (n1 := 16) i f) k = ix2 k f := by
    funext a; match a with
    | ⟨0, _⟩ => rfl
    | ⟨1, _⟩ => rfl
  rw [el, er]

/-- The first dense map's row at the source position of edge e. -/
theorem hsrc1_at (x0 : (⟨2, ![200000, 2]⟩ : Shape).Idx → EReal) (x1 : (⟨2, ![2, 16]⟩ : Shape).Idx → EReal) (x5 : EI)
    (e : Fin 12800000) (f : Fin 16) :
    val_main_v33 (F := Ideal) x0 x1 x5 (ix2 e f) = lin (cur2 x0) (cur2 x1) (row (srcW x5 e)) f := by
  unfold val_main_v33
  refine (Cert.LibGatherRows.gather_rows_apply _ rfl rfl rfl rfl rfl rfl _ _ e f (by omega)).trans ?_
  refine (congrArg (fun r => val_main_v4 (F := Ideal) x0 x1 (ix2 r f)) (clip_row _ _ (col32_at x5 e) _)).trans ?_
  exact h1_at x0 x1 _ f

/-- Edge e's scaled feature row, first layer. -/
theorem msg1_at (x0 : (⟨2, ![200000, 2]⟩ : Shape).Idx → EReal) (x1 : (⟨2, ![2, 16]⟩ : Shape).Idx → EReal) (x5 : EI)
    (e : Fin 12800000) (f : Fin 16) :
    val_main_v36 (F := Ideal) x0 x1 x5 (ix2 e f)
      = lin (cur2 x0) (cur2 x1) (row (srcW x5 e)) f * (dinv x5 (row (srcW x5 e)) * dinv x5 (row (dstW x5 e))) := by
  rw [val_main_v36_apply, hsrc1_at, val_main_v35_apply, val_main_v34_apply, Ideal.mulf_def]
  exact congrArg (fun t => lin (cur2 x0) (cur2 x1) (row (srcW x5 e)) f * t) (norm_at x5 e)

/-- The sum of the scaled feature rows of the edges into node i, first layer. -/
theorem agg1_at (x0 : (⟨2, ![200000, 2]⟩ : Shape).Idx → EReal) (x1 : (⟨2, ![2, 16]⟩ : Shape).Idx → EReal) (x5 : EI)
    (i : Fin 200000) (f : Fin 16) :
    val_main_v39 (F := Ideal) x0 x1 x5 (ix2 i f)
      = 0 + ∑ e ∈ lands x5 i, lin (cur2 x0) (cur2 x1) (row (srcW x5 e)) f
          * (dinv x5 (row (srcW x5 e)) * dinv x5 (row (dstW x5 e))) := by
  unfold val_main_v39
  rw [Cert.LibScatter.scatterAdd_rows_read _ rfl rfl rfl rfl, val_main_v37_apply, val_main_cst_7_apply]
  simp only [Ideal.ofBits_def, Ideal.ofBits_zero_f32, col38_at, msg1_at]
  rfl

/-- The reciprocal of the degree, first computation. -/
theorem rdeg1_at (x5 : EI) (i : Fin 200000) (f : Fin 16) :
    val_main_v43 (F := Ideal) x5 (ix2 i f) = Ideal.div 1 (deg x5 i) := by
  have hi : idx_main_v42 (idx_main_v43 (ix2 (n0 := 200000) (n1 := 16) i f)) = ix1 i := by
    funext a; match a with
    | ⟨0, _⟩ => rfl
  rw [val_main_v43_apply, val_main_v42_apply, val_main_v41_apply, val_main_v40_apply, val_main_cst_8_apply,
    Ideal.hostDivf_def, Ideal.ofBits_def, Cert.Gcn.ofBits_one, hi, deg_at]

/-- The first layer, before the clamp. -/
theorem layer1_at (x0 : (⟨2, ![200000, 2]⟩ : Shape).Idx → EReal) (x1 : (⟨2, ![2, 16]⟩ : Shape).Idx → EReal)
    (x2 : (⟨1, ![16]⟩ : Shape).Idx → EReal) (x5 : EI) (i : Fin 200000) (f : Fin 16) :
    val_main_v48 (F := Ideal) x0 x1 x2 x5 (ix2 i f) = layerR x5 (lin (cur2 x0) (cur2 x1)) (cur1 x2) i f := by
  have hi : idx_main_v46 (idx_main_v47 (ix2 (n0 := 200000) (n1 := 16) i f)) = ix1 f := by
    funext a; match a with
    | ⟨0, _⟩ => rfl
  rw [val_main_v48_apply, val_main_v45_apply, val_main_v44_apply, agg1_at, h1_at, rdeg1_at, val_main_v47_apply,
    val_main_v46_apply, Ideal.addf_def, Ideal.addf_def, Ideal.mulf_def, hi]
  unfold layerR cur1
  exact rfl

/-- The first layer's output, clamped at zero. -/
theorem relu_at (x0 : (⟨2, ![200000, 2]⟩ : Shape).Idx → EReal) (x1 : (⟨2, ![2, 16]⟩ : Shape).Idx → EReal)
    (x2 : (⟨1, ![16]⟩ : Shape).Idx → EReal) (x5 : EI) (j : Fin 200000) (f : Fin 16) :
    val_main_v49 (F := Ideal) x0 x1 x2 x5 (ix2 j f) = max (layerR x5 (lin (cur2 x0) (cur2 x1)) (cur1 x2) j f) 0 := by
  rw [val_main_v49_apply, layer1_at, val_main_call0_v0_apply, val_main_call0_cst_apply, Ideal.maximumf_def,
    Ideal.ofBits_def, Ideal.ofBits_zero_f32]

/-- The second dense map, of the clamped first layer. -/
theorem h2_at (x0 : (⟨2, ![200000, 2]⟩ : Shape).Idx → EReal) (x1 : (⟨2, ![2, 16]⟩ : Shape).Idx → EReal)
    (x2 : (⟨1, ![16]⟩ : Shape).Idx → EReal) (x3 : (⟨2, ![16, 2]⟩ : Shape).Idx → EReal) (x5 : EI) (i : Fin 200000) (g : Fin 2) :
    val_main_v50 (F := Ideal) x0 x1 x2 x3 x5 (ix2 i g)
      = lin (fun j f => max (layerR x5 (lin (cur2 x0) (cur2 x1)) (cur1 x2) j f) 0) (cur2 x3) i g := by
  rw [val_main_v50_apply]
  refine Finset.sum_congr rfl fun k _ => ?_
  have el : lidx_main_v50 (ix2 (n0 := 200000) (n1 := 2) i g) k = ix2 i k := by
    funext a; match a with
    | ⟨0, _⟩ => rfl
    | ⟨1, _⟩ => rfl
  have er : ridx_main_v50 (ix2 (n0 := 200000) (n1 := 2) i g) k = ix2 k g := by
    funext a; match a with
    | ⟨0, _⟩ => rfl
    | ⟨1, _⟩ => rfl
  rw [el, er, relu_at]
  rfl

/-- The degree, second computation. -/
theorem deg2_at (x5 : EI) (i : Fin 200000) : val_main_v56 (F := Ideal) x5 (ix1 i) = deg x5 i := by
  rw [val_main_v56_apply]
  unfold val_main_v54
  rw [Cert.LibScatter.scatterAdd_vec_read _ rfl rfl rfl rfl, val_main_v52_apply, val_main_cst_10_apply,
    val_main_v55_apply, val_main_cst_11_apply]
  simp only [Ideal.ofBits_def, Ideal.addf_def, Ideal.ofBits_zero_f32, Cert.Gcn.ofBits_one, col53_at,
    val_main_v51_apply, val_main_cst_9_apply]
  rfl

/-- The weight, second computation. -/
theorem dinv2_at (x5 : EI) (i : Fin 200000) : val_main_v57 (F := Ideal) x5 (ix1 i) = dinv x5 i := by
  unfold dinv; rw [val_main_v57_apply, deg2_at, Ideal.hostUnary_rsqrt_def]

/-- The source end's weight of edge e, second layer. -/
theorem wsrc2_at (x5 : EI) (e : Fin 12800000) : val_main_v64 (F := Ideal) x5 (ix1 e) = dinv x5 (row (srcW x5 e)) := by
  unfold val_main_v64
  refine (Cert.LibGatherRows.gather_vec_apply _ rfl rfl rfl rfl _ _ e (by omega)).trans ?_
  refine (congrArg (fun r => val_main_v57 (F := Ideal) x5 (ix1 r)) (clip_row _ _ (col63_at x5 e) _)).trans ?_
  exact dinv2_at x5 _

/-- The destination end's weight of edge e, second layer. -/
theorem wdst2_at (x5 : EI) (e : Fin 12800000) : val_main_v71 (F := Ideal) x5 (ix1 e) = dinv x5 (row (dstW x5 e)) := by
  unfold val_main_v71
  refine (Cert.LibGatherRows.gather_vec_apply _ rfl rfl rfl rfl _ _ e (by omega)).trans ?_
  refine (congrArg (fun r => val_main_v57 (F := Ideal) x5 (ix1 r)) (clip_row _ _ (col70_at x5 e) _)).trans ?_
  exact dinv2_at x5 _

/-- The product of the two ends' weights of edge e, second layer. -/
theorem norm2_at (x5 : EI) (e : Fin 12800000) :
    val_main_v72 (F := Ideal) x5 (ix1 e) = dinv x5 (row (srcW x5 e)) * dinv x5 (row (dstW x5 e)) := by
  rw [val_main_v72_apply, wsrc2_at, wdst2_at, Ideal.mulf_def]

/-- The second dense map's row at the source position of edge e. -/
theorem hsrc2_at (x0 : (⟨2, ![200000, 2]⟩ : Shape).Idx → EReal) (x1 : (⟨2, ![2, 16]⟩ : Shape).Idx → EReal)
    (x2 : (⟨1, ![16]⟩ : Shape).Idx → EReal) (x3 : (⟨2, ![16, 2]⟩ : Shape).Idx → EReal) (x5 : EI)
    (e : Fin 12800000) (g : Fin 2) :
    val_main_v79 (F := Ideal) x0 x1 x2 x3 x5 (ix2 e g)
      = lin (fun j f => max (layerR x5 (lin (cur2 x0) (cur2 x1)) (cur1 x2) j f) 0) (cur2 x3) (row (srcW x5 e)) g := by
  unfold val_main_v79
  refine (Cert.LibGatherRows.gather_rows_apply _ rfl rfl rfl rfl rfl rfl _ _ e g (by omega)).trans ?_
  refine (congrArg (fun r => val_main_v50 (F := Ideal) x0 x1 x2 x3 x5 (ix2 r g)) (clip_row _ _ (col78_at x5 e) _)).trans ?_
  exact h2_at x0 x1 x2 x3 x5 _ g

/-- Edge e's scaled feature row, second layer. -/
theorem msg2_at (x0 : (⟨2, ![200000, 2]⟩ : Shape).Idx → EReal) (x1 : (⟨2, ![2, 16]⟩ : Shape).Idx → EReal)
    (x2 : (⟨1, ![16]⟩ : Shape).Idx → EReal) (x3 : (⟨2, ![16, 2]⟩ : Shape).Idx → EReal) (x5 : EI)
    (e : Fin 12800000) (g : Fin 2) :
    val_main_v82 (F := Ideal) x0 x1 x2 x3 x5 (ix2 e g)
      = lin (fun j f => max (layerR x5 (lin (cur2 x0) (cur2 x1)) (cur1 x2) j f) 0) (cur2 x3) (row (srcW x5 e)) g
          * (dinv x5 (row (srcW x5 e)) * dinv x5 (row (dstW x5 e))) := by
  have hi : idx_main_v80 (idx_main_v81 (ix2 (n0 := 12800000) (n1 := 2) e g)) = ix1 e := by
    funext a; match a with
    | ⟨0, _⟩ => rfl
  rw [val_main_v82_apply, hsrc2_at, val_main_v81_apply, val_main_v80_apply, Ideal.mulf_def, hi, norm2_at]

/-- The sum of the scaled feature rows of the edges into node i, second layer. -/
theorem agg2_at (x0 : (⟨2, ![200000, 2]⟩ : Shape).Idx → EReal) (x1 : (⟨2, ![2, 16]⟩ : Shape).Idx → EReal)
    (x2 : (⟨1, ![16]⟩ : Shape).Idx → EReal) (x3 : (⟨2, ![16, 2]⟩ : Shape).Idx → EReal) (x5 : EI)
    (i : Fin 200000) (g : Fin 2) :
    val_main_v85 (F := Ideal) x0 x1 x2 x3 x5 (ix2 i g)
      = 0 + ∑ e ∈ lands x5 i,
          lin (fun j f => max (layerR x5 (lin (cur2 x0) (cur2 x1)) (cur1 x2) j f) 0) (cur2 x3) (row (srcW x5 e)) g
            * (dinv x5 (row (srcW x5 e)) * dinv x5 (row (dstW x5 e))) := by
  unfold val_main_v85
  rw [Cert.LibScatter.scatterAdd_rows_read _ rfl rfl rfl rfl, val_main_v83_apply, val_main_cst_18_apply]
  simp only [Ideal.ofBits_def, Ideal.ofBits_zero_f32, col84_at, msg2_at]
  rfl

/-- The reciprocal of the degree, second computation. -/
theorem rdeg2_at (x5 : EI) (i : Fin 200000) (g : Fin 2) :
    val_main_v89 (F := Ideal) x5 (ix2 i g) = Ideal.div 1 (deg x5 i) := by
  have hi : idx_main_v88 (idx_main_v89 (ix2 (n0 := 200000) (n1 := 2) i g)) = ix1 i := by
    funext a; match a with
    | ⟨0, _⟩ => rfl
  rw [val_main_v89_apply, val_main_v88_apply, val_main_v87_apply, val_main_v86_apply, val_main_cst_19_apply,
    Ideal.hostDivf_def, Ideal.ofBits_def, Cert.Gcn.ofBits_one, hi, deg2_at]

/-- The second layer: the network's result. -/
theorem layer2_at (x0 : (⟨2, ![200000, 2]⟩ : Shape).Idx → EReal) (x1 : (⟨2, ![2, 16]⟩ : Shape).Idx → EReal)
    (x2 : (⟨1, ![16]⟩ : Shape).Idx → EReal) (x3 : (⟨2, ![16, 2]⟩ : Shape).Idx → EReal)
    (x4 : (⟨1, ![2]⟩ : Shape).Idx → EReal) (x5 : EI) (i : Fin 200000) (g : Fin 2) :
    val_main_v94 (F := Ideal) x0 x1 x2 x3 x4 x5 (ix2 i g)
      = outR (cur2 x0) (cur2 x1) (cur1 x2) (cur2 x3) (cur1 x4) x5 i g := by
  have hi : idx_main_v92 (idx_main_v93 (ix2 (n0 := 200000) (n1 := 2) i g)) = ix1 g := by
    funext a; match a with
    | ⟨0, _⟩ => rfl
  rw [val_main_v94_apply, val_main_v91_apply, val_main_v90_apply, agg2_at, h2_at, rdeg2_at, val_main_v93_apply,
    val_main_v92_apply, Ideal.addf_def, Ideal.addf_def, Ideal.mulf_def, hi]
  unfold outR layerR cur1
  exact rfl

variable (m : (ℓ : Loc nD τ sig) → Buf (Elt Ideal) ℓ)

/-- The reference's result at node i and channel g is the network in the per-edge arrangement, of the launch contents
    of its six arguments. -/
theorem ref_value (c : Dev nD) (i : Fin 200000) (g : Fin 2) :
    (res_out0 (F := Ideal) m c : S200000x2.Idx → EReal) (ix2 i g)
      = Cert.Gcn.outR (Cert.Gcn.cur2 (m ((c.tc : Thread nD τ).loc main_arg0))) (Cert.Gcn.cur2 (m ((c.tc : Thread nD τ).loc main_arg1)))
          (Cert.Gcn.cur1 (m ((c.tc : Thread nD τ).loc main_arg2))) (Cert.Gcn.cur2 (m ((c.tc : Thread nD τ).loc main_arg3)))
          (Cert.Gcn.cur1 (m ((c.tc : Thread nD τ).loc main_arg4))) (m ((c.tc : Thread nD τ).loc main_arg5)) i g :=
  (congrFun (val_main_v94_eq (F := Ideal) m c) (ix2 i g)).trans (layer2_at _ _ _ _ _ _ i g)

end Cert.ReferenceIdeal.Hand

end
-- ==== Proof.lean ====
/-
  A two-layer graph convolution on 200000 nodes and 12800000 edges, in two programs. The kernel program scales each
  layer's dense map by the source node's weight once per node (a pallas region), gathers one scaled row per edge and
  adds it at the edge's destination (host steps), and combines agg · w + h · w² + b in a second region; the reference
  scales every edge's row by the product of its two ends' weights and adds h / deg. The weights are the reciprocal
  square roots of the degrees, and the degrees are one plus the number of edges into the node, so both programs
  compute them alike.

  The precondition makes every feature, weight and bias a real number and every source word a row number. Real
  features make both arrangements of a layer the same real number: on the edges into node i the destination weight is
  w[i], a real factor moves inside a finite sum of reals, and w[i]² = 1 / deg i for a positive real degree. A source
  word that is a row number keeps the kernel program's gather inside its table, where it reads the same row as the
  reference's. Nothing the ideal pass rewrote separates the kernel from its idealization, so that claim is trivial;
  the three frames are the generated ones, the reference's being its run with the result dropped.
-/
import proofs.«426294_j21277267984741_3_alg».proof.Defs
import proofs.«426294_j21277267984741_3_alg».proof.Proof.Gen.Kernel
import proofs.«426294_j21277267984741_3_alg».proof.Proof.Gen.Kernel.Skeleton
import proofs.«426294_j21277267984741_3_alg».proof.Proof.Gen.Kernel.Launch
import proofs.«426294_j21277267984741_3_alg».proof.Proof.Gen.Kernel.Points
import proofs.«426294_j21277267984741_3_alg».proof.Proof.Gen.Kernel.Frame
import proofs.«426294_j21277267984741_3_alg».proof.Proof.Gen.KernelIdeal
import proofs.«426294_j21277267984741_3_alg».proof.Proof.Gen.KernelIdeal.Skeleton
import proofs.«426294_j21277267984741_3_alg».proof.Proof.Gen.KernelIdeal.Launch
import proofs.«426294_j21277267984741_3_alg».proof.Proof.Gen.KernelIdeal.Points
import proofs.«426294_j21277267984741_3_alg».proof.Proof.Gen.KernelIdeal.Frame
import proofs.«426294_j21277267984741_3_alg».proof.Proof.Gen.ReferenceIdeal
import proofs.«426294_j21277267984741_3_alg».proof.Proof.Gen.ReferenceIdeal.Run
import proofs.«426294_j21277267984741_3_alg».proof.Proof.Gen.Pre_finite_inputs
import proofs.«426294_j21277267984741_3_alg».proof.Proof.Spec
import proofs.«426294_j21277267984741_3_alg».proof.Proof.Algebra
import proofs.«426294_j21277267984741_3_alg».proof.Proof.Pre
import proofs.«426294_j21277267984741_3_alg».proof.Proof.KI.Run
import proofs.«426294_j21277267984741_3_alg».proof.Proof.KI.Value
import proofs.«426294_j21277267984741_3_alg».proof.Proof.Ref.Value
import Idealize.ShloMosaic.Adequacy
import Idealize.ShloMosaic.Init

noncomputable section

namespace Cert.Proof

open Idealize.ShloMosaic Idealize.ShloMosaic.ValueIdx Idealize.SL.Sem

/-- The kernel program runs and leaves its arguments as launched. -/
theorem frame_k : Cert.frame_Kernel := fun m ρ _ => Cert.Kernel.Gen.frame m ρ

/-- The idealized kernel program runs and leaves its arguments as launched. -/
theorem frame_ki : Cert.frame_KernelIdeal := fun m ρ _ => Cert.KernelIdeal.Gen.frame m ρ

/-- The reference runs and leaves its arguments as launched: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments and satisfy the precondition, the two idealized programs end with the
    same result: the kernel program's is the network with features scaled once per node, the reference's the network
    with every edge scaled by both ends' weights, and on real features the two are one function. -/
theorem algebraic : Cert.algebraic_KernelIdeal_ReferenceIdeal := by
  intro m ρ m' ρ' hpre hagree
  have hp := fun c => Cert.PreRead.of_pre _ _ _ _ _ _ (hpre c)
  have hsrc : ∀ (c : Dev Cert.KernelIdeal.nD) (e : Fin 12800000),
      0 ≤ (Cert.Gcn.srcW (Cert.KernelIdeal.Hand.edges m c) e).toInt ∧ (Cert.Gcn.srcW (Cert.KernelIdeal.Hand.edges m c) e).toInt < 200000 :=
    fun c e => (hp c).2.2.2.2.2 e
  refine ⟨fun c => Cert.KernelIdeal.Hand.result m ρ c, Cert.KernelIdeal.Hand.run_result (F := Ideal) m ρ, ?_⟩
  refine (θ_run Cert.ReferenceIdeal.defs _ _).mono (fun r h c => ⟨(h c).1.trans ?_, (h c).2⟩)
    (Cert.ReferenceIdeal.Value.run (F := Ideal) m' ρ')
  funext j
  obtain ⟨i, g, rfl⟩ : ∃ (i : Fin 200000) (g : Fin 2), j = ix2 i g := ⟨j 0, j 1, eq_ix2 j⟩
  refine (Cert.ReferenceIdeal.Hand.ref_value m' c i g).trans ?_
  refine Eq.trans ?_ (Cert.KernelIdeal.Hand.kernel_value m ρ hsrc c i g).symm
  rw [(hagree c).1, (hagree c).2.1, (hagree c).2.2.1, (hagree c).2.2.2.1, (hagree c).2.2.2.2.1, (hagree c).2.2.2.2.2]
  exact (Cert.Gcn.outK_eq_outR _ _ _ _ _ _
    (fun i k => (hp c).1 (ix2 i k)) (fun k f => (hp c).2.1 (ix2 k f)) (fun f => (hp c).2.2.1 (ix1 f))
    (fun f g => (hp c).2.2.2.1 (ix2 f g)) (fun g => (hp c).2.2.2.2.1 (ix1 g)) i g).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
